-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩
abbrev S64x128 : Shape := ⟨2, ![64, 128]⟩
abbrev S2000x64 : Shape := ⟨2, ![2000, 64]⟩
abbrev S64x2000 : Shape := ⟨2, ![64, 2000]⟩
abbrev S64 : Shape := ⟨1, ![64]⟩
abbrev S64x1 : Shape := ⟨2, ![64, 1]⟩
abbrev S1x1 : Shape := ⟨2, ![1, 1]⟩

abbrev nBuf : Space → Nat
  | .hbm => 86
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S50000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .bf16⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000x128, .bf16⟩
  | .hbm, ⟨46, _⟩ => ⟨S850000x128, .f32⟩
  | .hbm, ⟨47, _⟩ => ⟨S_, .f32⟩
  | .hbm, ⟨48, _⟩ => ⟨S50000x128, .f32⟩
  | .hbm, ⟨49, _⟩ => ⟨S850000x1, .i32⟩
  | .hbm, ⟨50, _⟩ => ⟨S50000x128, .f32⟩
  | .hbm, ⟨51, _⟩ => ⟨S1x128, .f32⟩
  | .hbm, ⟨52, _⟩ => ⟨S50000x128, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .bf16⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x1, .i32⟩
  | .hbm, ⟨69, _⟩ => ⟨S64x128, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S64, .f32⟩
  | .hbm, ⟨74, _⟩ => ⟨S50000x1, .i32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64x1, .f32⟩
  | .hbm, ⟨80, _⟩ => ⟨S64x128, .f32⟩
  | .hbm, ⟨81, _⟩ => ⟨S64x128, .f32⟩
  | .hbm, ⟨82, _⟩ => ⟨S1x128, .f32⟩
  | .hbm, ⟨83, _⟩ => ⟨S1x1, .f32⟩
  | .hbm, ⟨84, _⟩ => ⟨S64x1, .f32⟩
  | .hbm, ⟨85, _⟩ => ⟨S64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x1, .i32⟩
  | .local _ .vmem, ⟨21, _⟩ => ⟨S2000x1, .i32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S128x128, .f32⟩
  | .local _ .vmem, ⟨26, _⟩ => ⟨S1x128, .f32⟩
  | .local _ .vmem, ⟨27, _⟩ => ⟨S128x1, .f32⟩
  | .local _ .vmem, ⟨28, _⟩ => ⟨S1x1, .f32⟩
  | .local _ .vmem, ⟨29, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_13 : BitVec 32 := 0#32
  let v31 : BitVec 1 := Scalar.cmpi .ne v30 c0_i32_13
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S2000x64_d1_w32 : S2000x64.Iotas .tc 32 [1]
  broadcasts_S2000x1_S2000x64 : S2000x1.Broadcasts S2000x64
  natLt_1_32 : 1 < 32
  transposes_S2000x64_p1_0_S64x2000 : S2000x64.Transposes [1, 0] S64x2000
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S1_S1x1 : S1.ShapeCasts S1x1
  broadcasts_S1x128_S64x128 : S1x128.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x2000_S2000x128_S64x128_1_0_0_1_n_n_wf : DotDims.WF S64x2000 S2000x128 S64x128 [1] [0] [0] [1] [] []
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .i32 = 32 ∨ (Rect.block (s := S50000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x2000_S2000x128_S64x128_1_0_0_1_n_n : DotDims S64x2000 S2000x128 S64x128 where
  lhsContracting := [1]
  rhsContracting := [0]
  lhsNonContracting := [0]
  rhsNonContracting := [1]
  lhsBatch := []
  rhsBatch := []
  wf := dot_S64x2000_S2000x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S64x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v54) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S64x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S50000x128, .f32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S_, .f32⟩
  | 88 => ⟨S50000, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000x128, .f32⟩

abbrev hbmTy0_1 (i : Nat) : BufTy := match i % 128 with
  | 0 => ⟨S850000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S64x128, .f32⟩
  | 10 => ⟨S50000x1, .i32⟩
  | 11 => ⟨S64x128, .f32⟩
  | 12 => ⟨S_, .f32⟩
  | 13 => ⟨S50000, .f32⟩
  | 14 => ⟨S_, .f32⟩
  | 15 => ⟨S64, .f32⟩
  | 16 => ⟨S50000x1, .i32⟩
  | 17 => ⟨S64, .f32⟩
  | 18 => ⟨S_, .f32⟩
  | 19 => ⟨S64, .f32⟩
  | 20 => ⟨S64, .f32⟩
  | 21 => ⟨S64x1, .f32⟩
  | 22 => ⟨S64x128, .f32⟩
  | 23 => ⟨S64x128, .f32⟩
  | 24 => ⟨S64x128, .f32⟩
  | 25 => ⟨S1x128, .f32⟩
  | 26 => ⟨S64x128, .f32⟩
  | 27 => ⟨S64x128, .f32⟩
  | 28 => ⟨S_, .f32⟩
  | 29 => ⟨S64x128, .f32⟩
  | 30 => ⟨S64x128, .f32⟩
  | 31 => ⟨S64x1, .f32⟩
  | 32 => ⟨S1x1, .f32⟩
  | 33 => ⟨S64x1, .f32⟩
  | 34 => ⟨S64x1, .f32⟩
  | 35 => ⟨S64x1, .f32⟩
  | 36 => ⟨S64x1, .f32⟩
  | 37 => ⟨S_, .f32⟩
  | 38 => ⟨S64x1, .f32⟩
  | 39 => ⟨S64x1, .f32⟩
  | 40 => ⟨S_, .f32⟩
  | 41 => ⟨S64x1, .f32⟩
  | 42 => ⟨S64x1, .f32⟩
  | 43 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v60 : Ref sig .tc := ⟨.hbm, 94, rfl⟩
abbrev main_c_15 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_17 : Ref sig .tc := ⟨.hbm, 104, rfl⟩
abbrev main_v68 : Ref sig .tc := ⟨.hbm, 105, rfl⟩
abbrev main_v69 : Ref sig .tc := ⟨.hbm, 106, rfl⟩
abbrev main_c_18 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_19 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_21 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call3_cst : Ref sig .tc := ⟨.hbm, 133, rfl⟩
abbrev main_call3_v0 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_23 : Ref sig .tc := ⟨.hbm, 140, rfl⟩
abbrev main_v96 : Ref sig .tc := ⟨.hbm, 141, rfl⟩
abbrev main_cst_24 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_25 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call4_cst : Ref sig .tc := ⟨.hbm, 156, rfl⟩
abbrev main_call4_v0 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_26 : Ref sig .tc := ⟨.hbm, 165, rfl⟩
abbrev main_v116 : Ref sig .tc := ⟨.hbm, 166, rfl⟩
abbrev main_v117 : Ref sig .tc := ⟨.hbm, 167, rfl⟩
abbrev main_cst_27 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
/-
  The first dense layer's kernel, one grid point at a time: a row tile of the node features times the whole weight
  matrix, each row then scaled by that node's inverse square-root degree. Stated at the buffer contents `V` the
  kernel region is entered with: the block each window stages at a point, what the one store leaves in the output
  tile as a function of the three input blocks, the body's triple, and the pipeline's proof data built from them.
-/
import proofs.«425745_j71571335021250_2_alg».proof.Proof.Gen.Kernel.Launch
import proofs.«425745_j71571335021250_2_alg».proof.Proof.Gen.Kernel.Skeleton
import proofs.«425745_j71571335021250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output tile -/

abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rD0 : Rect S2000x1 := Rect.unit (s := S2000x1) ![0, 0] S2000x1.size inb_S2000x1_S2000x1_0_0

/-- The output tile after the body: the one whole-tile store of the scaled product of the three loaded blocks. -/
def out0_3 (x0 : Vec F S2000x128 .f32) (x1 : Vec F S128x128 .f32) (x2 : Vec F S2000x1 .f32) : Vec F S2000x128 .bf16 :=
  View.canon [⟨rX0, k0_pay1 (View.ld x0 rX0) (View.ld x1 rW0) (View.ld x2 rD0)⟩]

theorem cover0_3 (p0 : Vec F S2000x128 .bf16) (y : S2000x128.Idx) :
    ∃ pc ∈ ([⟨rX0, p0⟩] : List (View.Piece (Elt F) S2000x128 .bf16)), y ∈ pc.1.set :=
  View.cover_of_tiled [⟨rX0, p0⟩] S2000x128.size (by rfl) y

/-! ## The body's triple -/

set_option maxHeartbeats 4000000 in
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_prescale_kernel i arg1 harg1 arg2 harg2 arg3 harg3 arg4 harg4) K := by
  simp only [cc0__linear_prescale_kernel_eq_skeleton]; unfold cc0__linear_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Reg1.lean ====
/-
  The second dense layer's kernel, one grid point at a time: a row tile of the aggregated messages is scaled by the
  node's inverse square-root degree, shifted by the bias and clipped at zero; the result times the whole weight matrix,
  each row scaled again by the same degree factor. Stated at the buffer contents `V` the kernel region is entered
  with: the block each window stages at a point, what the one store leaves in the output tile as a function of the four
  input blocks, the body's triple, and the pipeline's proof data built from them.
-/
import proofs.«425745_j71571335021250_2_alg».proof.Proof.Gen.Kernel.Launch
import proofs.«425745_j71571335021250_2_alg».proof.Proof.Gen.Kernel.Skeleton
import proofs.«425745_j71571335021250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output tile -/

abbrev rX1 : Rect S2000x128 := Rect.unit (s := S2000x128) ![0, 0] S2000x128.size inb_S2000x128_S2000x128_0_0
abbrev rD1 : Rect S2000x1 := Rect.unit (s := S2000x1) ![0, 0] S2000x1.size inb_S2000x1_S2000x1_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output tile after the body: the one whole-tile store, over the loaded blocks (the degree column is loaded twice). -/
def out1_4 (x0 : Vec F S2000x128 .f32) (x1 : Vec F S2000x1 .f32) (x2 : Vec F S1x128 .f32) (x3 : Vec F S128x128 .f32) : Vec F S2000x128 .bf16 :=
  View.canon [⟨rX1, k1_pay1 (View.ld x0 rX1) (View.ld x1 rD1) (View.ld x2 rB1) (View.ld x3 rW1) (View.ld x1 rD1)⟩]

theorem cover1_4 (p0 : Vec F S2000x128 .bf16) (y : S2000x128.Idx) :
    ∃ pc ∈ ([⟨rX1, p0⟩] : List (View.Piece (Elt F) S2000x128 .bf16)), y ∈ pc.1.set :=
  View.cover_of_tiled [⟨rX1, p0⟩] S2000x128.size (by rfl) y

/-! ## The body's triple -/

set_option maxHeartbeats 4000000 in
theorem sound_kernel1 (c : Dev nD) (E : Set ℕ) (i : grid1.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S2000x128 .bf16) (harg5 : arg5.IsWhole)
    (x0 : Vec F S2000x128 .f32) (x1 : Vec F S2000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__affine_linear_prescale_kernel i arg1 harg1 arg2 harg2 arg3 harg3 arg4 harg4 arg5 harg5) K := by
  simp only [cc1__affine_linear_prescale_kernel_eq_skeleton]; unfold cc1__affine_linear_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Reg2.lean ====
/-
  The pooling kernel, one grid point at a time. A scratch accumulator of one row per graph is cleared at the first
  point; at every point a row tile of aggregated messages is scaled by the node's inverse square-root degree, shifted
  by the bias and clipped at zero, and the rows are summed into the accumulator by graph (a 0/1 membership matrix times
  the tile); at the last point the accumulator is copied to the output. Stated at the buffer contents `V` the kernel
  region is entered with: the blocks staged at a point, the accumulator after each point by recursion on the point,
  the body's triple in its three cases (first point, last point, the points between), and the pipeline's proof data,
  whose invariant carries the accumulator from point to point.
-/
import proofs.«425745_j71571335021250_2_alg».proof.Proof.Gen.Kernel.Launch
import proofs.«425745_j71571335021250_2_alg».proof.Proof.Gen.Kernel.Skeleton
import proofs.«425745_j71571335021250_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator -/

abbrev rX2 : Rect S2000x128 := Rect.unit (s := S2000x128) ![0, 0] S2000x128.size inb_S2000x128_S2000x128_0_0
abbrev rD2 : Rect S2000x1 := Rect.unit (s := S2000x1) ![0, 0] S2000x1.size inb_S2000x1_S2000x1_0_0
abbrev rB2 : Rect S1x128 := Rect.unit (s := S1x128) ![0, 0] S1x128.size inb_S1x128_S1x128_0_0
abbrev rA2 : Rect S64x128 := Rect.unit (s := S64x128) ![0, 0] S64x128.size inb_S64x128_S64x128_0_0

theorem hz2 : (![0, 0] : Fin 2 → ℕ) = fun _ => 0 := by funext a; fin_cases a <;> rfl

/-- The scratch accumulator as the body is called with it. -/
abbrev scM2 : Memref sig .tc .vmem S64x128 .f32 := Memref.whole cc2_scratch0

/-- The accumulator after the body at position `n`: cleared and added to at the first point, added to at the others. -/
def accAt (c : Dev nD) : (n : ℕ) → n < cfg2.N → Vec F S64x128 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (accAt c n (Nat.lt_of_succ_lt hn))

theorem accAt_zero (c : Dev nD) (t : Fin cfg2.N) (h : t.val = 0) :
    accAt V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact absurd h (Nat.succ_ne_zero n)

theorem accAt_pos (c : Dev nD) (t : Fin cfg2.N) (h : t.val ≠ 0) :
    accAt V c t.val t.isLt = k2_pay2 (iblk2 V c 0 t) (iblk2 V c 1 t) (iblk2 V c 2 t) (iblk2 V c 3 t)
      (accAt V c (t.val - 1) (Nat.lt_of_le_of_lt (Nat.sub_le _ _) t.isLt)) := by
  obtain ⟨n, hn⟩ := t
  cases n with
  | zero => exact absurd rfl h
  | succ n => rfl

theorem coverA2 (p0 : Vec F S64x128 .f32) (y : S64x128.Idx) :
    ∃ pc ∈ ([⟨rA2, p0⟩] : List (View.Piece (Elt F) S64x128 .f32)), y ∈ pc.1.set :=
  View.cover_of_tiled [⟨rA2, p0⟩] S64x128.size (by rfl) y

theorem coverA2' (p0 p1 : Vec F S64x128 .f32) (y : S64x128.Idx) :
    ∃ pc ∈ ([⟨rA2, p0⟩, ⟨rA2, p1⟩] : List (View.Piece (Elt F) S64x128 .f32)), y ∈ pc.1.set := by
  obtain ⟨pc, hm, hy⟩ := coverA2 (F := F) p0 y
  rw [List.mem_singleton] at hm; subst hm
  exact ⟨_, List.mem_cons_self, hy⟩

/-! ## The conditions over the grid -/

/-- The first conditional's word: the grid coordinate is zero. -/
abbrev isFirst (i : grid2.Coords) : BitVec 1 :=
  Scalar.cmpi .ne (Scalar.extui (Scalar.cmpi .eq (BitVec.ofNat 32 (i 0).val) 0#32)) 0#32

theorem hFirst : ∀ t : Fin cfg2.N, isFirst (grid2.coords t) = 1#1 ↔ t.val = 0 :=
  (by decide +kernel : ∀ t : Fin grid2.N, isFirst (grid2.coords t) = 1#1 ↔ t.val = 0)
theorem hLast : ∀ t : Fin cfg2.N, k2_cond2 (grid2.coords t) = 1#1 ↔ t.val = 24 :=
  (by decide +kernel : ∀ t : Fin grid2.N, k2_cond2 (grid2.coords t) = 1#1 ↔ t.val = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, t.val ≠ 24 → cfg2.idle 4 (grid2.coords t) = true := by decide +kernel
theorem liveAt2_4 : ∀ t : Fin cfg2.N, t.val = 24 → cfg2.idle 4 (grid2.coords t) = false := by decide +kernel
theorem noFlush2_4 : ∀ t : Fin cfg2.N, t.val ≠ 24 → (cfg2.win 4).flush t = false := by decide +kernel

/-! ## The body's triple, case by case -/

set_option maxHeartbeats 4000000 in
/-- A point that is neither the first nor the last: the accumulator, held at `s`, ends at the sum's next value; the output is not touched. -/
theorem sound_kernel2_M (c : Dev nD) (E : Set ℕ) (i : grid2.Coords) (hc1 : ¬ isFirst i = 1#1) (hc2 : ¬ k2_cond2 i = 1#1)
    (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S64x128 .f32) (harg5 : arg5.IsWhole) (arg6 : Memref sig .tc .vmem S64x128 .f32) (harg6 : arg6.IsWhole)
    (x0 : Vec F S2000x128 .f32) (x1 : Vec F S2000x1 .f32) (x2 : Vec F S1x128 .f32) (x3 : Vec F S2000x1 .i32) (s : Vec F S64x128 .f32) (y : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y ∗ owns (c : Thread nD τ) arg6 fullShare (k2_pay2 x0 x1 x2 x3 s)) -∗ K ⟨⟩))
      ⊢ wp frame (wpE (defs₀ (F := F)) Variants.none c none) E (cc2__pool_kernel i arg1 harg1 arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf5 hf4
  sl_exec (disch := first | sl_exact hc1 | sl_exact hc2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (coverA2 _), View.canon_unit_zero (S := S64x128) hz2]
  simp only [View.readAt_eq_ld, View.ld_unit_zero (S := S2000x128) hz2, View.ld_unit_zero (S := S2000x1) hz2,
    View.ld_unit_zero (S := S1x128) hz2, View.ld_unit_zero (S := S64x128) hz2]

set_option maxHeartbeats 4000000 in
/-- The first point: the accumulator, at anything, is cleared and ends at the first tile's sums; the output is not touched. -/
theorem sound_kernel2_F (c : Dev nD) (E : Set ℕ) (i : grid2.Coords) (hc1 : isFirst i = 1#1) (hc2 : ¬ k2_cond2 i = 1#1)
    (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S64x128 .f32) (harg5 : arg5.IsWhole) (arg6 : Memref sig .tc .vmem S64x128 .f32) (harg6 : arg6.IsWhole)
    (x0 : Vec F S2000x128 .f32) (x1 : Vec F S2000x1 .f32) (x2 : Vec F S1x128 .f32) (x3 : Vec F S2000x1 .i32) (y : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y ∗ (∃ s, owns (c : Thread nD τ) arg6 fullShare s)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y ∗ owns (c : Thread nD τ) arg6 fullShare (k2_pay2 x0 x1 x2 x3 (k2_pay1 (F := F)))) -∗ K ⟨⟩))
      ⊢ wp frame (wpE (defs₀ (F := F)) Variants.none c none) E (cc2__pool_kernel i arg1 harg1 arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%s5, %f5, -, H5⟩, Hk⟩
  subst hf0 hf1 hf2 hf3 hf4
  sl_exec (disch := first | sl_exact hc1 | sl_exact hc2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (coverA2' _ _), View.canon_cons_unit_zero (S := S64x128) hz2,
    View.readCov_unit_zero (S := S64x128) _ hz2]
  simp only [View.readAt_eq_ld, View.ld_unit_zero (S := S2000x128) hz2, View.ld_unit_zero (S := S2000x1) hz2,
    View.ld_unit_zero (S := S1x128) hz2]

set_option maxHeartbeats 4000000 in
/-- The last point: the accumulator, held at `s`, ends at the sum's last value, which the output ends at too. -/
theorem sound_kernel2_L (c : Dev nD) (E : Set ℕ) (i : grid2.Coords) (hc1 : ¬ isFirst i = 1#1) (hc2 : k2_cond2 i = 1#1)
    (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S64x128 .f32) (harg5 : arg5.IsWhole) (arg6 : Memref sig .tc .vmem S64x128 .f32) (harg6 : arg6.IsWhole)
    (x0 : Vec F S2000x128 .f32) (x1 : Vec F S2000x1 .f32) (x2 : Vec F S1x128 .f32) (x3 : Vec F S2000x1 .i32) (s : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 x0 x1 x2 x3 s) ∗ owns (c : Thread nD τ) arg6 fullShare (k2_pay2 x0 x1 x2 x3 s)) -∗ K ⟨⟩))
      ⊢ wp frame (wpE (defs₀ (F := F)) Variants.none c none) E (cc2__pool_kernel i arg1 harg1 arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc1 | sl_exact hc2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverA2 _), View.canon_unit_zero (S := S64x128) hz2,
      View.readCov_unit_zero (S := S64x128) _ hz2]
    simp only [View.readAt_eq_ld, View.ld_unit_zero (S := S2000x128) hz2, View.ld_unit_zero (S := S2000x1) hz2,
      View.ld_unit_zero (S := S1x128) hz2, View.ld_unit_zero (S := S64x128) hz2]
  iexists _; isplitr
  swap; · iexact H5
  ipureintro
  rw [View.read_writes_eq_canon _ _ _ (coverA2 _), View.canon_unit_zero (S := S64x128) hz2]
  simp only [View.readAt_eq_ld, View.ld_unit_zero (S := S2000x128) hz2, View.ld_unit_zero (S := S2000x1) hz2,
    View.ld_unit_zero (S := S1x128) hz2, View.ld_unit_zero (S := S64x128) hz2]

/-! ## The region invariant: the accumulator carried from point to point -/

/-- A scoped buffer of the core's held whole at some contents. -/
abbrev anyAt (c : Dev nD) (b : Ref sig .tc) : sProp 𝕄 :=
  iprop(∃ f : Buf (Elt F) ((c : Thread nD τ).loc b), ((c : Thread nD τ).loc b) ↦{fullShare} f)

/-- What the launch hands the region, with the accumulator's buffer as a memref held at some contents. -/
theorem PhiA2_eq (c : Dev nD) :
    (Pipeline.ΦA spec2 c : sProp 𝕄)
      = iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ (∃ d, owns (c : Thread nD τ) scM2 fullShare d) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r)) := by
  unfold Pipeline.ΦA; rw [scopedRest2_eq]; simp only [scM2, owns_whole]; try rfl

/-- Before position `n`: at the first point what the launch hands over (the accumulator at anything); afterwards the
    same with the accumulator at what the point before left. -/
def PhiS (c : Dev nD) : (n : ℕ) → n ≤ cfg2.N → sProp 𝕄
  | 0, _ => Pipeline.ΦA spec2 c
  | n + 1, hn => iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ owns (c : Thread nD τ) scM2 fullShare (accAt V c n hn) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ owns (c : Thread nD τ) scM2 fullShare (accAt V c n hn) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r)) := rfl
theorem PhiS_pos (c : Dev nD) (n : ℕ) (h : n ≤ cfg2.N) (hz : n ≠ 0) :
    PhiS V c n h = iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ owns (c : Thread nD τ) scM2 fullShare (accAt V c (n - 1) (by omega)) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => accAt V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = accAt V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_in (c : Dev nD) (t : Fin cfg2.N) :
    (dat2 V c).leavesExact 0 t = owns (c : Thread nD τ) (st2_0 t) fullShare (iblk2 V c 0 t)
    ∧ (dat2 V c).leavesExact 1 t = owns (c : Thread nD τ) (st2_1 t) fullShare (iblk2 V c 1 t)
    ∧ (dat2 V c).leavesExact 2 t = owns (c : Thread nD τ) (st2_2 t) fullShare (iblk2 V c 2 t)
    ∧ (dat2 V c).leavesExact 3 t = owns (c : Thread nD τ) (st2_3 t) fullShare (iblk2 V c 3 t) := by
  refine ⟨?_, ?_, ?_, ?_⟩
  · unfold Dat.leavesExact; rw [liveAt2_0 t, after2_0]
  · unfold Dat.leavesExact; rw [liveAt2_1 t, after2_1]
  · unfold Dat.leavesExact; rw [liveAt2_2 t, after2_2]
  · unfold Dat.leavesExact; rw [liveAt2_3 t, after2_3]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  obtain ⟨hl0, hl1, hl2, hl3⟩ := leaves2_in V c t
  rw [hl0, hl1, hl2, hl3]
  have hN : t.val < 25 := lt_of_lt_of_eq t.isLt (show cfg2.N = 25 from N_2)
  by_cases hz : t.val = 0
  · have h24 : t.val ≠ 24 := by omega
    rw [Dat.leavesExact_idle (dat2 V c) 4 t (idleAt2_4 t h24) (noFlush2_4 t h24)]
    rw [accAt_zero V c t hz, PhiS_castSucc V c t, PhiS_zero V c _ _ hz, PhiA2_eq]
    iintro ⟨⟨⟨B0, B1, B2, B3, B4, B5, B6, B7, B8, B9, B10, B11, B12, B13, B14, HS, B16, B17, B18, B19, B20, B21⟩, Hg⟩, Ho, ⟨%d0, H0⟩, ⟨%d1, H1⟩, ⟨%d2, H2⟩, ⟨%d3, H3⟩, ⟨%d4, H4⟩⟩
    iapply (sound_kernel2_F c Set.univ (grid2.coords t) ((hFirst t).mpr hz) (fun h => h24 ((hLast t).mp h)) _ _ _ _ _ _ _ _ _ _ _ _ (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [B0 B1 B2 B3 B4 B5 B6 B7 B8 B9 B10 B11 B12 B13 B14 HS B16 B17 B18 B19 B20 B21 Hg]
    · isplitr [Hg]
      swap; · iexact Hg
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [HS]; · iexact HS
      isplitl [B16]; · iexact B16
      isplitl [B17]; · iexact B17
      isplitl [B18]; · iexact B18
      isplitl [B19]; · iexact B19
      isplitl [B20]; · iexact B20
      iexact B21
    isplitl [Ho]; · iexact Ho
    isplitl [H0]; · iexact H0
    isplitl [H1]; · iexact H1
    isplitl [H2]; · iexact H2
    isplitl [H3]; · iexact H3
    iexists _; iexact H4
  · rw [accAt_pos V c t hz, PhiS_castSucc V c t, PhiS_pos V c _ _ hz]
    by_cases h24 : t.val = 24
    · rw [show (dat2 V c).leavesExact 4 t = owns (c : Thread nD τ) (st2_4 t) fullShare ((dat2 V c).after 4 t) from by
        unfold Dat.leavesExact; rw [liveAt2_4 t h24], after2_4, accAt_pos V c t hz]
      iintro ⟨⟨⟨B0, B1, B2, B3, B4, B5, B6, B7, B8, B9, B10, B11, B12, B13, B14, HS, B16, B17, B18, B19, B20, B21⟩, Hg⟩, Ho, ⟨%d0, H0⟩, ⟨%d1, H1⟩, ⟨%d2, H2⟩, ⟨%d3, H3⟩, ⟨%d4, H4⟩⟩
      iapply (sound_kernel2_L c Set.univ (grid2.coords t) (fun h => hz ((hFirst t).mp h)) ((hLast t).mpr h24) _ _ _ _ _ _ _ _ _ _ _ _ (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [B0 B1 B2 B3 B4 B5 B6 B7 B8 B9 B10 B11 B12 B13 B14 HS B16 B17 B18 B19 B20 B21 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        isplitl [B12]; · iexact B12
        isplitl [B13]; · iexact B13
        isplitl [B14]; · iexact B14
        isplitl [HS]; · iexact HS
        isplitl [B16]; · iexact B16
        isplitl [B17]; · iexact B17
        isplitl [B18]; · iexact B18
        isplitl [B19]; · iexact B19
        isplitl [B20]; · iexact B20
        iexact B21
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t h24) (noFlush2_4 t h24)]
      iintro ⟨⟨⟨B0, B1, B2, B3, B4, B5, B6, B7, B8, B9, B10, B11, B12, B13, B14, HS, B16, B17, B18, B19, B20, B21⟩, Hg⟩, Ho, ⟨%d0, H0⟩, ⟨%d1, H1⟩, ⟨%d2, H2⟩, ⟨%d3, H3⟩, ⟨%d4, H4⟩⟩
      iapply (sound_kernel2_M c Set.univ (grid2.coords t) (fun h => hz ((hFirst t).mp h)) (fun h => h24 ((hLast t).mp h)) _ _ _ _ _ _ _ _ _ _ _ _ (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [B0 B1 B2 B3 B4 B5 B6 B7 B8 B9 B10 B11 B12 B13 B14 HS B16 B17 B18 B19 B20 B21 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        isplitl [B12]; · iexact B12
        isplitl [B13]; · iexact B13
        isplitl [B14]; · iexact B14
        isplitl [HS]; · iexact HS
        isplitl [B16]; · iexact B16
        isplitl [B17]; · iexact B17
        isplitl [B18]; · iexact B18
        isplitl [B19]; · iexact B19
        isplitl [B20]; · iexact B20
        iexact B21
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]

/-- After the last point the invariant gives back what the launch handed over: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 25 := N_2; omega), PhiA2_eq]
  iintro ⟨⟨B0, B1, B2, B3, B4, B5, B6, B7, B8, B9, B10, B11, B12, B13, B14, HS, B16, B17, B18, B19, B20, B21⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [HS]; · iexists _; iexact HS
  isplitl [B16]; · iexact B16
  isplitl [B17]; · iexact B17
  isplitl [B18]; · iexact B18
  isplitl [B19]; · iexact B19
  isplitl [B20]; · iexact B20
  iexact B21

end Cert.Kernel.Reg

end
-- ==== Proof.K.Reg3.lean ====
/-
  The read-out head's kernel (a single grid point): the pooled graph features times the first head matrix plus its
  bias, clipped at zero, times the second head matrix plus its bias, through the logistic function. Stated at the
  buffer contents `V` the kernel region is entered with: the block each window stages, what the one store leaves in
  the output as a function of the five input blocks, the body's triple, and the pipeline's proof data.
-/
import proofs.«425745_j71571335021250_2_alg».proof.Proof.Gen.Kernel.Launch
import proofs.«425745_j71571335021250_2_alg».proof.Proof.Gen.Kernel.Skeleton
import proofs.«425745_j71571335021250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output -/

abbrev rP3 : Rect S64x128 := Rect.unit (s := S64x128) ![0, 0] S64x128.size inb_S64x128_S64x128_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0
abbrev rU3 : Rect S128x1 := Rect.unit (s := S128x1) ![0, 0] S128x1.size inb_S128x1_S128x1_0_0
abbrev rC3 : Rect S1x1 := Rect.unit (s := S1x1) ![0, 0] S1x1.size inb_S1x1_S1x1_0_0
abbrev rO3 : Rect S64x1 := Rect.unit (s := S64x1) ![0, 0] S64x1.size inb_S64x1_S64x1_0_0

def out3_5 (x0 : Vec F S64x128 .f32) (x1 : Vec F S128x128 .f32) (x2 : Vec F S1x128 .f32) (x3 : Vec F S128x1 .f32) (x4 : Vec F S1x1 .f32) : Vec F S64x1 .f32 :=
  View.canon [⟨rO3, k3_pay1 (View.ld x0 rP3) (View.ld x1 rW3) (View.ld x2 rB3) (View.ld x3 rU3) (View.ld x4 rC3)⟩]

theorem cover3_5 (p0 : Vec F S64x1 .f32) (y : S64x1.Idx) :
    ∃ pc ∈ ([⟨rO3, p0⟩] : List (View.Piece (Elt F) S64x1 .f32)), y ∈ pc.1.set :=
  View.cover_of_tiled [⟨rO3, p0⟩] S64x1.size (by rfl) y

/-! ## The body's triple -/

set_option maxHeartbeats 4000000 in
theorem sound_kernel3 (c : Dev nD) (E : Set ℕ) (i : grid3.Coords) (arg1 : Memref sig .tc .vmem S64x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole)
    (x0 : Vec F S64x128 .f32) (x1 : Vec F S128x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Fold.lean ====
/-
  The buffer contents between the items of the program, folded from the launch memory: a stretch of host operations
  applies them in order; a kernel region leaves each of its arrays at what its write-backs fold to and every other
  buffer as it found it.
-/
import proofs.«425745_j71571335021250_2_alg».proof.Proof.Gen.Kernel.Launch
import proofs.«425745_j71571335021250_2_alg».proof.Proof.Gen.Kernel.Skeleton
import proofs.«425745_j71571335021250_2_alg».proof.Proof.Gen.Kernel.Points
import proofs.«425745_j71571335021250_2_alg».proof.Proof.K.Reg0
import proofs.«425745_j71571335021250_2_alg».proof.Proof.K.Reg1
import proofs.«425745_j71571335021250_2_alg».proof.Proof.K.Reg2
import proofs.«425745_j71571335021250_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretches of host operations: the first kernel region's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev E0 : (c : Dev nD) → (b : Ref sig .tc) → Buf (Elt F) ((c : Thread nD τ).loc b) := fun c b => W3 m c b

/-- At kernel region 0's exit. -/
def W4 (c : Dev nD) : Valuation τ sig (Elt F) :=
  Pipeline.withArrays spec0 c (W3 m c) fun w => (dat0 (E0 m) c).arrAt w cfg0.N
theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev X0 : (c : Dev nD) → (b : Ref sig .tc) → Buf (Elt F) ((c : Thread nD τ).loc b) := fun c b => W4 m c b
theorem hF0 (c : Dev nD) (w : Fin cfg0.W) : (dat0 (E0 m) c).arrAt w cfg0.N = X0 m c (Pipeline.arrRef spec0 w) :=
  (W4_arr m c w).symm
theorem hrest0 (c : Dev nD) : ∀ b, b ∉ Finset.univ.image (Pipeline.arrRef spec0) → X0 m c b = E0 m c b :=
  fun b hb => W4_of_ne m c b fun w e => hb (Finset.mem_image.mpr ⟨w, Finset.mem_univ _, e⟩)
/-- After the next stretch of host operations. -/
abbrev W5 : Dev nD → Valuation τ sig (Elt F) := fun c => StableHlo.after hostOps1 (W4 m c)
abbrev E1 : (c : Dev nD) → (b : Ref sig .tc) → Buf (Elt F) ((c : Thread nD τ).loc b) := fun c b => W5 m c b

/-- At kernel region 1's exit. -/
def W6 (c : Dev nD) : Valuation τ sig (Elt F) :=
  Pipeline.withArrays spec1 c (W5 m c) fun w => (dat1 (E1 m) c).arrAt w cfg1.N
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev X1 : (c : Dev nD) → (b : Ref sig .tc) → Buf (Elt F) ((c : Thread nD τ).loc b) := fun c b => W6 m c b
theorem hF1 (c : Dev nD) (w : Fin cfg1.W) : (dat1 (E1 m) c).arrAt w cfg1.N = X1 m c (Pipeline.arrRef spec1 w) :=
  (W6_arr m c w).symm
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)
/-- After the next stretch of host operations. -/
abbrev W7 : Dev nD → Valuation τ sig (Elt F) := fun c => StableHlo.after hostOps2 (W6 m c)
abbrev E2 : (c : Dev nD) → (b : Ref sig .tc) → Buf (Elt F) ((c : Thread nD τ).loc b) := fun c b => W7 m c b

/-- At kernel region 2's exit. -/
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev X2 : (c : Dev nD) → (b : Ref sig .tc) → Buf (Elt F) ((c : Thread nD τ).loc b) := fun c b => W8 m c b
theorem hF2 (c : Dev nD) (w : Fin cfg2.W) : (dat2 (E2 m) c).arrAt w cfg2.N = X2 m c (Pipeline.arrRef spec2 w) :=
  (W8_arr m c w).symm
theorem hrest2 (c : Dev nD) : ∀ b, b ∉ Finset.univ.image (Pipeline.arrRef spec2) → X2 m c b = E2 m c b :=
  fun b hb => W8_of_ne m c b fun w e => hb (Finset.mem_image.mpr ⟨w, Finset.mem_univ _, e⟩)
/-- After the next stretch of host operations. -/
abbrev W9 : Dev nD → Valuation τ sig (Elt F) := fun c => StableHlo.after hostOps3 (W8 m c)
abbrev E3 : (c : Dev nD) → (b : Ref sig .tc) → Buf (Elt F) ((c : Thread nD τ).loc b) := fun c b => W9 m c b

/-- At kernel region 3's exit. -/
def W10 (c : Dev nD) : Valuation τ sig (Elt F) :=
  Pipeline.withArrays spec3 c (W9 m c) fun w => (dat3 (E3 m) c).arrAt w cfg3.N
theorem W10_arr (c : Dev nD) (w : Fin cfg3.W) :
    W10 m c (Proc.devRef .tc (Pipeline.arrRef spec3 w)) = (dat3 (E3 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev X3 : (c : Dev nD) → (b : Ref sig .tc) → Buf (Elt F) ((c : Thread nD τ).loc b) := fun c b => W10 m c b
theorem hF3 (c : Dev nD) (w : Fin cfg3.W) : (dat3 (E3 m) c).arrAt w cfg3.N = X3 m c (Pipeline.arrRef spec3 w) :=
  (W10_arr m c w).symm
theorem hrest3 (c : Dev nD) : ∀ b, b ∉ Finset.univ.image (Pipeline.arrRef spec3) → X3 m c b = E3 m c b :=
  fun b hb => W10_of_ne m c b fun w e => hb (Finset.mem_image.mpr ⟨w, Finset.mem_univ _, e⟩)
/-- After the next stretch of host operations. -/
abbrev W11 : Dev nD → Valuation τ sig (Elt F) := fun c => StableHlo.after hostOps4 (W10 m c)

end Cert.Kernel.Reg

end
-- ==== Proof.K.Run.lean ====
/-
  The whole program's run: its items in order — stretches of host operations and the four kernel regions — from the
  launch memory to the return, every unscoped buffer ending at the contents the fold of the items computes; and, read
  off that, the frame: every argument array ends as launched.
-/
import proofs.«425745_j71571335021250_2_alg».proof.Proof.Gen.Kernel.Launch
import proofs.«425745_j71571335021250_2_alg».proof.Proof.Gen.Kernel.Skeleton
import proofs.«425745_j71571335021250_2_alg».proof.Proof.Gen.Kernel.Points
import proofs.«425745_j71571335021250_2_alg».proof.Proof.K.Fold
import proofs.«425745_j71571335021250_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Kernel region 0 over the thread state: entered from every unscoped buffer at the contents before it, left at the
    contents after it; its arrays split out of the unscoped buffers and put back; the generator register into the
    region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the contents before it, left at the
    contents after it; its arrays split out of the unscoped buffers and put back; the generator register into the
    region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at the contents before it, left at the
    contents after it; its arrays split out of the unscoped buffers and put back; the generator register into the
    region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E2 m) c).Φ 0 from rfl]
    iintro ⟨Hp, -, Hr⟩
    iapply (hin2 (E2 m) c)
    unfold Pipeline.ΦA
    isplitl [Hr]; · iexact Hr
    iexact Hp
  hout c := by
    rw [Pipeline.ownSems0_none, show (pdats m 2 c).Φ (Fin.last _) = (dat2 (E2 m) c).Φ (Fin.last cfg2.N) from rfl]
    have h2 := hout2 (E2 m) c
    iintro HP
    ihave H := h2 $$ HP
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 3 over the thread state: entered from every unscoped buffer at the contents before it, left at the
    contents after it; its arrays split out of the unscoped buffers and put back; the generator register into the
    region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items in order, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

set_option backward.isDefEq.respectTransparency.types false in
/-- From any memory with zero counters every weakly fair execution of the program terminates, nothing faulting, and in
    every final state each unscoped buffer of core `c` holds what the fold of the items leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W11 m c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨Hh, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-! ## The arguments end as launched -/

theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_writes_sub hostOps4 _ hostOps4_writes (by decide)
    _ = W9 m c (Proc.devRef .tc main_arg0) := W10_of_ne m c main_arg0 (by decide)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (E0 m) c).arrAt_in 0 rfl _).trans (A_eq0 (E0 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_writes_sub hostOps4 _ hostOps4_writes (by decide)
    _ = W9 m c (Proc.devRef .tc main_arg1) := W10_of_ne m c main_arg1 (by decide)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W11_main_arg2 (c : Dev nD) : W11 m c (Proc.devRef .tc main_arg2) = m ((c : Thread nD τ).loc main_arg2) :=
  calc W11 m c (Proc.devRef .tc main_arg2)
    _ = W10 m c (Proc.devRef .tc main_arg2) := StableHlo.after_of_writes_sub hostOps4 _ hostOps4_writes (by decide)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W11_main_arg3 (c : Dev nD) : W11 m c (Proc.devRef .tc main_arg3) = m ((c : Thread nD τ).loc main_arg3) :=
  calc W11 m c (Proc.devRef .tc main_arg3)
    _ = W10 m c (Proc.devRef .tc main_arg3) := StableHlo.after_of_writes_sub hostOps4 _ hostOps4_writes (by decide)
    _ = W9 m c (Proc.devRef .tc main_arg3) := W10_of_ne m c main_arg3 (by decide)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := (W4_arr m c 1).trans (((dat0 (E0 m) c).arrAt_in 1 rfl _).trans (A_eq0 (E0 m) c 1))
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W11_main_arg4 (c : Dev nD) : W11 m c (Proc.devRef .tc main_arg4) = m ((c : Thread nD τ).loc main_arg4) :=
  calc W11 m c (Proc.devRef .tc main_arg4)
    _ = W10 m c (Proc.devRef .tc main_arg4) := StableHlo.after_of_writes_sub hostOps4 _ hostOps4_writes (by decide)
    _ = W9 m c (Proc.devRef .tc main_arg4) := W10_of_ne m c main_arg4 (by decide)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W11_main_arg5 (c : Dev nD) : W11 m c (Proc.devRef .tc main_arg5) = m ((c : Thread nD τ).loc main_arg5) :=
  calc W11 m c (Proc.devRef .tc main_arg5)
    _ = W10 m c (Proc.devRef .tc main_arg5) := StableHlo.after_of_writes_sub hostOps4 _ hostOps4_writes (by decide)
    _ = W9 m c (Proc.devRef .tc main_arg5) := W10_of_ne m c main_arg5 (by decide)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := (W6_arr m c 3).trans (((dat1 (E1 m) c).arrAt_in 3 rfl _).trans (A_eq1 (E1 m) c 3))
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

theorem W11_main_arg6 (c : Dev nD) : W11 m c (Proc.devRef .tc main_arg6) = m ((c : Thread nD τ).loc main_arg6) :=
  calc W11 m c (Proc.devRef .tc main_arg6)
    _ = W10 m c (Proc.devRef .tc main_arg6) := StableHlo.after_of_writes_sub hostOps4 _ hostOps4_writes (by decide)
    _ = W9 m c (Proc.devRef .tc main_arg6) := W10_of_ne m c main_arg6 (by decide)
    _ = W8 m c (Proc.devRef .tc main_arg6) := StableHlo.after_of_writes_sub hostOps3 _ hostOps3_writes (by decide)
    _ = W7 m c (Proc.devRef .tc main_arg6) := W8_of_ne m c main_arg6 (by decide)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

theorem W11_main_arg7 (c : Dev nD) : W11 m c (Proc.devRef .tc main_arg7) = m ((c : Thread nD τ).loc main_arg7) :=
  calc W11 m c (Proc.devRef .tc main_arg7)
    _ = W10 m c (Proc.devRef .tc main_arg7) := StableHlo.after_of_writes_sub hostOps4 _ hostOps4_writes (by decide)
    _ = W9 m c (Proc.devRef .tc main_arg7) := (W10_arr m c 1).trans (((dat3 (E3 m) c).arrAt_in 1 rfl _).trans (A_eq3 (E3 m) c 1))
    _ = W8 m c (Proc.devRef .tc main_arg7) := StableHlo.after_of_writes_sub hostOps3 _ hostOps3_writes (by decide)
    _ = W7 m c (Proc.devRef .tc main_arg7) := W8_of_ne m c main_arg7 (by decide)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

theorem W11_main_arg8 (c : Dev nD) : W11 m c (Proc.devRef .tc main_arg8) = m ((c : Thread nD τ).loc main_arg8) :=
  calc W11 m c (Proc.devRef .tc main_arg8)
    _ = W10 m c (Proc.devRef .tc main_arg8) := StableHlo.after_of_writes_sub hostOps4 _ hostOps4_writes (by decide)
    _ = W9 m c (Proc.devRef .tc main_arg8) := W10_of_ne m c main_arg8 (by decide)
    _ = W8 m c (Proc.devRef .tc main_arg8) := StableHlo.after_of_writes_sub hostOps3 _ hostOps3_writes (by decide)
    _ = W7 m c (Proc.devRef .tc main_arg8) := W8_of_ne m c main_arg8 (by decide)
    _ = W6 m c (Proc.devRef .tc main_arg8) := StableHlo.after_of_writes_sub hostOps2 _ hostOps2_writes (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

theorem W11_main_arg9 (c : Dev nD) : W11 m c (Proc.devRef .tc main_arg9) = m ((c : Thread nD τ).loc main_arg9) :=
  calc W11 m c (Proc.devRef .tc main_arg9)
    _ = W10 m c (Proc.devRef .tc main_arg9) := StableHlo.after_of_writes_sub hostOps4 _ hostOps4_writes (by decide)
    _ = W9 m c (Proc.devRef .tc main_arg9) := (W10_arr m c 3).trans (((dat3 (E3 m) c).arrAt_in 3 rfl _).trans (A_eq3 (E3 m) c 3))
    _ = W8 m c (Proc.devRef .tc main_arg9) := StableHlo.after_of_writes_sub hostOps3 _ hostOps3_writes (by decide)
    _ = W7 m c (Proc.devRef .tc main_arg9) := W8_of_ne m c main_arg9 (by decide)
    _ = W6 m c (Proc.devRef .tc main_arg9) := StableHlo.after_of_writes_sub hostOps2 _ hostOps2_writes (by decide)
    _ = W5 m c (Proc.devRef .tc main_arg9) := W6_of_ne m c main_arg9 (by decide)
    _ = W4 m c (Proc.devRef .tc main_arg9) := StableHlo.after_of_writes_sub hostOps1 _ hostOps1_writes (by decide)
    _ = W3 m c (Proc.devRef .tc main_arg9) := W4_of_ne m c main_arg9 (by decide)
    _ = W2 m c (Proc.devRef .tc main_arg9) := StableHlo.after_of_writes_sub hostOps0_2 _ hostOps0_2_writes (by decide)
    _ = W1 m c (Proc.devRef .tc main_arg9) := StableHlo.after_of_writes_sub hostOps0_1 _ hostOps0_1_writes (by decide)
    _ = W0 m c (Proc.devRef .tc main_arg9) := StableHlo.after_of_writes_sub hostOps0 _ hostOps0_writes (by decide)
    _ = m ((c : Thread nD τ).loc main_arg9) := rfl

theorem W11_main_arg10 (c : Dev nD) : W11 m c (Proc.devRef .tc main_arg10) = m ((c : Thread nD τ).loc main_arg10) :=
  calc W11 m c (Proc.devRef .tc main_arg10)
    _ = W10 m c (Proc.devRef .tc main_arg10) := StableHlo.after_of_writes_sub hostOps4 _ hostOps4_writes (by decide)
    _ = W9 m c (Proc.devRef .tc main_arg10) := W10_of_ne m c main_arg10 (by decide)
    _ = W8 m c (Proc.devRef .tc main_arg10) := StableHlo.after_of_writes_sub hostOps3 _ hostOps3_writes (by decide)
    _ = W7 m c (Proc.devRef .tc main_arg10) := W8_of_ne m c main_arg10 (by decide)
    _ = W6 m c (Proc.devRef .tc main_arg10) := StableHlo.after_of_writes_sub hostOps2 _ hostOps2_writes (by decide)
    _ = W5 m c (Proc.devRef .tc main_arg10) := W6_of_ne m c main_arg10 (by decide)
    _ = W4 m c (Proc.devRef .tc main_arg10) := StableHlo.after_of_writes_sub hostOps1 _ hostOps1_writes (by decide)
    _ = W3 m c (Proc.devRef .tc main_arg10) := W4_of_ne m c main_arg10 (by decide)
    _ = W2 m c (Proc.devRef .tc main_arg10) := StableHlo.after_of_writes_sub hostOps0_2 _ hostOps0_2_writes (by decide)
    _ = W1 m c (Proc.devRef .tc main_arg10) := StableHlo.after_of_writes_sub hostOps0_1 _ hostOps0_1_writes (by decide)
    _ = W0 m c (Proc.devRef .tc main_arg10) := StableHlo.after_of_writes_sub hostOps0 _ hostOps0_writes (by decide)
    _ = m ((c : Thread nD τ).loc main_arg10) := rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c),
    (h c _ (mem_uc main_arg9 (by decide))).trans (W11_main_arg9 m c),
    (h c _ (mem_uc main_arg10 (by decide))).trans (W11_main_arg10 m c)⟩) (run_all m ρ)

end Cert.Kernel.Reg

end
-- ==== Proof.KI.Reg0.lean ====
/-
  The first dense layer's kernel, one grid point at a time: a row tile of the node features times the whole weight
  matrix, each row then scaled by that node's inverse square-root degree. Stated at the buffer contents `V` the
  kernel region is entered with: the block each window stages at a point, what the one store leaves in the output
  tile as a function of the three input blocks, the body's triple, and the pipeline's proof data built from them.
-/
import proofs.«425745_j71571335021250_2_alg».proof.Proof.Gen.KernelIdeal.Launch
import proofs.«425745_j71571335021250_2_alg».proof.Proof.Gen.KernelIdeal.Skeleton
import proofs.«425745_j71571335021250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output tile -/

abbrev rX0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rD0 : Rect S2000x1 := Rect.unit (s := S2000x1) ![0, 0] S2000x1.size inb_S2000x1_S2000x1_0_0

/-- The output tile after the body: the one whole-tile store of the scaled product of the three loaded blocks. -/
def out0_3 (x0 : Vec F S2000x128 .f32) (x1 : Vec F S128x128 .f32) (x2 : Vec F S2000x1 .f32) : Vec F S2000x128 .bf16 :=
  View.canon [⟨rX0, k0_pay1 (View.ld x0 rX0) (View.ld x1 rW0) (View.ld x2 rD0)⟩]

theorem cover0_3 (p0 : Vec F S2000x128 .bf16) (y : S2000x128.Idx) :
    ∃ pc ∈ ([⟨rX0, p0⟩] : List (View.Piece (Elt F) S2000x128 .bf16)), y ∈ pc.1.set :=
  View.cover_of_tiled [⟨rX0, p0⟩] S2000x128.size (by rfl) y

/-! ## The body's triple -/

set_option maxHeartbeats 4000000 in
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_prescale_kernel i arg1 harg1 arg2 harg2 arg3 harg3 arg4 harg4) K := by
  simp only [cc0__linear_prescale_kernel_eq_skeleton]; unfold cc0__linear_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t`
    each input's buffer at its block and the output's at `out0_3` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg1.lean ====
/-
  The second dense layer's kernel, one grid point at a time: a row tile of the aggregated messages is scaled by the
  node's inverse square-root degree, shifted by the bias and clipped at zero; the result times the whole weight matrix,
  each row scaled again by the same degree factor. Stated at the buffer contents `V` the kernel region is entered
  with: the block each window stages at a point, what the one store leaves in the output tile as a function of the four
  input blocks, the body's triple, and the pipeline's proof data built from them.
-/
import proofs.«425745_j71571335021250_2_alg».proof.Proof.Gen.KernelIdeal.Launch
import proofs.«425745_j71571335021250_2_alg».proof.Proof.Gen.KernelIdeal.Skeleton
import proofs.«425745_j71571335021250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output tile -/

abbrev rX1 : Rect S2000x128 := Rect.unit (s := S2000x128) ![0, 0] S2000x128.size inb_S2000x128_S2000x128_0_0
abbrev rD1 : Rect S2000x1 := Rect.unit (s := S2000x1) ![0, 0] S2000x1.size inb_S2000x1_S2000x1_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output tile after the body: the one whole-tile store, over the loaded blocks (the degree column is loaded twice). -/
def out1_4 (x0 : Vec F S2000x128 .f32) (x1 : Vec F S2000x1 .f32) (x2 : Vec F S1x128 .f32) (x3 : Vec F S128x128 .f32) : Vec F S2000x128 .bf16 :=
  View.canon [⟨rX1, k1_pay1 (View.ld x0 rX1) (View.ld x1 rD1) (View.ld x2 rB1) (View.ld x3 rW1) (View.ld x1 rD1)⟩]

theorem cover1_4 (p0 : Vec F S2000x128 .bf16) (y : S2000x128.Idx) :
    ∃ pc ∈ ([⟨rX1, p0⟩] : List (View.Piece (Elt F) S2000x128 .bf16)), y ∈ pc.1.set :=
  View.cover_of_tiled [⟨rX1, p0⟩] S2000x128.size (by rfl) y

/-! ## The body's triple -/

set_option maxHeartbeats 4000000 in
theorem sound_kernel1 (c : Dev nD) (E : Set ℕ) (i : grid1.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S2000x128 .bf16) (harg5 : arg5.IsWhole)
    (x0 : Vec F S2000x128 .f32) (x1 : Vec F S2000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__affine_linear_prescale_kernel i arg1 harg1 arg2 harg2 arg3 harg3 arg4 harg4 arg5 harg5) K := by
  simp only [cc1__affine_linear_prescale_kernel_eq_skeleton]; unfold cc1__affine_linear_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Reg2.lean ====
/-
  The pooling kernel, one grid point at a time. A scratch accumulator of one row per graph is cleared at the first
  point; at every point a row tile of aggregated messages is scaled by the node's inverse square-root degree, shifted
  by the bias and clipped at zero, and the rows are summed into the accumulator by graph (a 0/1 membership matrix times
  the tile); at the last point the accumulator is copied to the output. Stated at the buffer contents `V` the kernel
  region is entered with: the blocks staged at a point, the accumulator after each point by recursion on the point,
  the body's triple in its three cases (first point, last point, the points between), and the pipeline's proof data,
  whose invariant carries the accumulator from point to point.
-/
import proofs.«425745_j71571335021250_2_alg».proof.Proof.Gen.KernelIdeal.Launch
import proofs.«425745_j71571335021250_2_alg».proof.Proof.Gen.KernelIdeal.Skeleton
import proofs.«425745_j71571335021250_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator -/

abbrev rX2 : Rect S2000x128 := Rect.unit (s := S2000x128) ![0, 0] S2000x128.size inb_S2000x128_S2000x128_0_0
abbrev rD2 : Rect S2000x1 := Rect.unit (s := S2000x1) ![0, 0] S2000x1.size inb_S2000x1_S2000x1_0_0
abbrev rB2 : Rect S1x128 := Rect.unit (s := S1x128) ![0, 0] S1x128.size inb_S1x128_S1x128_0_0
abbrev rA2 : Rect S64x128 := Rect.unit (s := S64x128) ![0, 0] S64x128.size inb_S64x128_S64x128_0_0

theorem hz2 : (![0, 0] : Fin 2 → ℕ) = fun _ => 0 := by funext a; fin_cases a <;> rfl

/-- The scratch accumulator as the body is called with it. -/
abbrev scM2 : Memref sig .tc .vmem S64x128 .f32 := Memref.whole cc2_scratch0

/-- The accumulator after the body at position `n`: cleared and added to at the first point, added to at the others. -/
def accAt (c : Dev nD) : (n : ℕ) → n < cfg2.N → Vec F S64x128 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (accAt c n (Nat.lt_of_succ_lt hn))

theorem accAt_zero (c : Dev nD) (t : Fin cfg2.N) (h : t.val = 0) :
    accAt V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact absurd h (Nat.succ_ne_zero n)

theorem accAt_pos (c : Dev nD) (t : Fin cfg2.N) (h : t.val ≠ 0) :
    accAt V c t.val t.isLt = k2_pay2 (iblk2 V c 0 t) (iblk2 V c 1 t) (iblk2 V c 2 t) (iblk2 V c 3 t)
      (accAt V c (t.val - 1) (Nat.lt_of_le_of_lt (Nat.sub_le _ _) t.isLt)) := by
  obtain ⟨n, hn⟩ := t
  cases n with
  | zero => exact absurd rfl h
  | succ n => rfl

theorem coverA2 (p0 : Vec F S64x128 .f32) (y : S64x128.Idx) :
    ∃ pc ∈ ([⟨rA2, p0⟩] : List (View.Piece (Elt F) S64x128 .f32)), y ∈ pc.1.set :=
  View.cover_of_tiled [⟨rA2, p0⟩] S64x128.size (by rfl) y

theorem coverA2' (p0 p1 : Vec F S64x128 .f32) (y : S64x128.Idx) :
    ∃ pc ∈ ([⟨rA2, p0⟩, ⟨rA2, p1⟩] : List (View.Piece (Elt F) S64x128 .f32)), y ∈ pc.1.set := by
  obtain ⟨pc, hm, hy⟩ := coverA2 (F := F) p0 y
  rw [List.mem_singleton] at hm; subst hm
  exact ⟨_, List.mem_cons_self, hy⟩

/-! ## The conditions over the grid -/

/-- The first conditional's word: the grid coordinate is zero. -/
abbrev isFirst (i : grid2.Coords) : BitVec 1 :=
  Scalar.cmpi .ne (Scalar.extui (Scalar.cmpi .eq (BitVec.ofNat 32 (i 0).val) 0#32)) 0#32

theorem hFirst : ∀ t : Fin cfg2.N, isFirst (grid2.coords t) = 1#1 ↔ t.val = 0 :=
  (by decide +kernel : ∀ t : Fin grid2.N, isFirst (grid2.coords t) = 1#1 ↔ t.val = 0)
theorem hLast : ∀ t : Fin cfg2.N, k2_cond2 (grid2.coords t) = 1#1 ↔ t.val = 24 :=
  (by decide +kernel : ∀ t : Fin grid2.N, k2_cond2 (grid2.coords t) = 1#1 ↔ t.val = 24)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, t.val ≠ 24 → cfg2.idle 4 (grid2.coords t) = true := by decide +kernel
theorem liveAt2_4 : ∀ t : Fin cfg2.N, t.val = 24 → cfg2.idle 4 (grid2.coords t) = false := by decide +kernel
theorem noFlush2_4 : ∀ t : Fin cfg2.N, t.val ≠ 24 → (cfg2.win 4).flush t = false := by decide +kernel

/-! ## The body's triple, case by case -/

set_option maxHeartbeats 4000000 in
/-- A point that is neither the first nor the last: the accumulator, held at `s`, ends at the sum's next value; the output is not touched. -/
theorem sound_kernel2_M (c : Dev nD) (E : Set ℕ) (i : grid2.Coords) (hc1 : ¬ isFirst i = 1#1) (hc2 : ¬ k2_cond2 i = 1#1)
    (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S64x128 .f32) (harg5 : arg5.IsWhole) (arg6 : Memref sig .tc .vmem S64x128 .f32) (harg6 : arg6.IsWhole)
    (x0 : Vec F S2000x128 .f32) (x1 : Vec F S2000x1 .f32) (x2 : Vec F S1x128 .f32) (x3 : Vec F S2000x1 .i32) (s : Vec F S64x128 .f32) (y : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y ∗ owns (c : Thread nD τ) arg6 fullShare (k2_pay2 x0 x1 x2 x3 s)) -∗ K ⟨⟩))
      ⊢ wp frame (wpE (defs₀ (F := F)) Variants.none c none) E (cc2__pool_kernel i arg1 harg1 arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf5 hf4
  sl_exec (disch := first | sl_exact hc1 | sl_exact hc2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (coverA2 _), View.canon_unit_zero (S := S64x128) hz2]
  simp only [View.readAt_eq_ld, View.ld_unit_zero (S := S2000x128) hz2, View.ld_unit_zero (S := S2000x1) hz2,
    View.ld_unit_zero (S := S1x128) hz2, View.ld_unit_zero (S := S64x128) hz2]

set_option maxHeartbeats 4000000 in
/-- The first point: the accumulator, at anything, is cleared and ends at the first tile's sums; the output is not touched. -/
theorem sound_kernel2_F (c : Dev nD) (E : Set ℕ) (i : grid2.Coords) (hc1 : isFirst i = 1#1) (hc2 : ¬ k2_cond2 i = 1#1)
    (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S64x128 .f32) (harg5 : arg5.IsWhole) (arg6 : Memref sig .tc .vmem S64x128 .f32) (harg6 : arg6.IsWhole)
    (x0 : Vec F S2000x128 .f32) (x1 : Vec F S2000x1 .f32) (x2 : Vec F S1x128 .f32) (x3 : Vec F S2000x1 .i32) (y : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y ∗ (∃ s, owns (c : Thread nD τ) arg6 fullShare s)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y ∗ owns (c : Thread nD τ) arg6 fullShare (k2_pay2 x0 x1 x2 x3 (k2_pay1 (F := F)))) -∗ K ⟨⟩))
      ⊢ wp frame (wpE (defs₀ (F := F)) Variants.none c none) E (cc2__pool_kernel i arg1 harg1 arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%s5, %f5, -, H5⟩, Hk⟩
  subst hf0 hf1 hf2 hf3 hf4
  sl_exec (disch := first | sl_exact hc1 | sl_exact hc2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (coverA2' _ _), View.canon_cons_unit_zero (S := S64x128) hz2,
    View.readCov_unit_zero (S := S64x128) _ hz2]
  simp only [View.readAt_eq_ld, View.ld_unit_zero (S := S2000x128) hz2, View.ld_unit_zero (S := S2000x1) hz2,
    View.ld_unit_zero (S := S1x128) hz2]

set_option maxHeartbeats 4000000 in
/-- The last point: the accumulator, held at `s`, ends at the sum's last value, which the output ends at too. -/
theorem sound_kernel2_L (c : Dev nD) (E : Set ℕ) (i : grid2.Coords) (hc1 : ¬ isFirst i = 1#1) (hc2 : k2_cond2 i = 1#1)
    (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S64x128 .f32) (harg5 : arg5.IsWhole) (arg6 : Memref sig .tc .vmem S64x128 .f32) (harg6 : arg6.IsWhole)
    (x0 : Vec F S2000x128 .f32) (x1 : Vec F S2000x1 .f32) (x2 : Vec F S1x128 .f32) (x3 : Vec F S2000x1 .i32) (s : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay2 x0 x1 x2 x3 s) ∗ owns (c : Thread nD τ) arg6 fullShare (k2_pay2 x0 x1 x2 x3 s)) -∗ K ⟨⟩))
      ⊢ wp frame (wpE (defs₀ (F := F)) Variants.none c none) E (cc2__pool_kernel i arg1 harg1 arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc1 | sl_exact hc2)
  sl_step
  sl_unfold_words
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverA2 _), View.canon_unit_zero (S := S64x128) hz2,
      View.readCov_unit_zero (S := S64x128) _ hz2]
    simp only [View.readAt_eq_ld, View.ld_unit_zero (S := S2000x128) hz2, View.ld_unit_zero (S := S2000x1) hz2,
      View.ld_unit_zero (S := S1x128) hz2, View.ld_unit_zero (S := S64x128) hz2]
  iexists _; isplitr
  swap; · iexact H5
  ipureintro
  rw [View.read_writes_eq_canon _ _ _ (coverA2 _), View.canon_unit_zero (S := S64x128) hz2]
  simp only [View.readAt_eq_ld, View.ld_unit_zero (S := S2000x128) hz2, View.ld_unit_zero (S := S2000x1) hz2,
    View.ld_unit_zero (S := S1x128) hz2, View.ld_unit_zero (S := S64x128) hz2]

/-! ## The region invariant: the accumulator carried from point to point -/

/-- A scoped buffer of the core's held whole at some contents. -/
abbrev anyAt (c : Dev nD) (b : Ref sig .tc) : sProp 𝕄 :=
  iprop(∃ f : Buf (Elt F) ((c : Thread nD τ).loc b), ((c : Thread nD τ).loc b) ↦{fullShare} f)

/-- What the launch hands the region, with the accumulator's buffer as a memref held at some contents. -/
theorem PhiA2_eq (c : Dev nD) :
    (Pipeline.ΦA spec2 c : sProp 𝕄)
      = iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ (∃ d, owns (c : Thread nD τ) scM2 fullShare d) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r)) := by
  unfold Pipeline.ΦA; rw [scopedRest2_eq]; simp only [scM2, owns_whole]; try rfl

/-- Before position `n`: at the first point what the launch hands over (the accumulator at anything); afterwards the
    same with the accumulator at what the point before left. -/
def PhiS (c : Dev nD) : (n : ℕ) → n ≤ cfg2.N → sProp 𝕄
  | 0, _ => Pipeline.ΦA spec2 c
  | n + 1, hn => iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ owns (c : Thread nD τ) scM2 fullShare (accAt V c n hn) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ owns (c : Thread nD τ) scM2 fullShare (accAt V c n hn) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r)) := rfl
theorem PhiS_pos (c : Dev nD) (n : ℕ) (h : n ≤ cfg2.N) (hz : n ≠ 0) :
    PhiS V c n h = iprop(iprop(anyAt c cc0_stg0_0 ∗ anyAt c cc0_stg0_1 ∗ anyAt c cc0_stg1_0 ∗ anyAt c cc0_stg2_0 ∗ anyAt c cc0_stg2_1 ∗ anyAt c cc0_stg3_0 ∗ anyAt c cc0_stg3_1 ∗ anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg4_0 ∗ anyAt c cc1_stg4_1 ∗ owns (c : Thread nD τ) scM2 fullShare (accAt V c (n - 1) (by omega)) ∗ anyAt c cc3_stg0_0 ∗ anyAt c cc3_stg1_0 ∗ anyAt c cc3_stg2_0 ∗ anyAt c cc3_stg3_0 ∗ anyAt c cc3_stg4_0 ∗ anyAt c cc3_stg5_0) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => accAt V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = accAt V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_in (c : Dev nD) (t : Fin cfg2.N) :
    (dat2 V c).leavesExact 0 t = owns (c : Thread nD τ) (st2_0 t) fullShare (iblk2 V c 0 t)
    ∧ (dat2 V c).leavesExact 1 t = owns (c : Thread nD τ) (st2_1 t) fullShare (iblk2 V c 1 t)
    ∧ (dat2 V c).leavesExact 2 t = owns (c : Thread nD τ) (st2_2 t) fullShare (iblk2 V c 2 t)
    ∧ (dat2 V c).leavesExact 3 t = owns (c : Thread nD τ) (st2_3 t) fullShare (iblk2 V c 3 t) := by
  refine ⟨?_, ?_, ?_, ?_⟩
  · unfold Dat.leavesExact; rw [liveAt2_0 t, after2_0]
  · unfold Dat.leavesExact; rw [liveAt2_1 t, after2_1]
  · unfold Dat.leavesExact; rw [liveAt2_2 t, after2_2]
  · unfold Dat.leavesExact; rw [liveAt2_3 t, after2_3]

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  obtain ⟨hl0, hl1, hl2, hl3⟩ := leaves2_in V c t
  rw [hl0, hl1, hl2, hl3]
  have hN : t.val < 25 := lt_of_lt_of_eq t.isLt (show cfg2.N = 25 from N_2)
  by_cases hz : t.val = 0
  · have h24 : t.val ≠ 24 := by omega
    rw [Dat.leavesExact_idle (dat2 V c) 4 t (idleAt2_4 t h24) (noFlush2_4 t h24)]
    rw [accAt_zero V c t hz, PhiS_castSucc V c t, PhiS_zero V c _ _ hz, PhiA2_eq]
    iintro ⟨⟨⟨B0, B1, B2, B3, B4, B5, B6, B7, B8, B9, B10, B11, B12, B13, B14, HS, B16, B17, B18, B19, B20, B21⟩, Hg⟩, Ho, ⟨%d0, H0⟩, ⟨%d1, H1⟩, ⟨%d2, H2⟩, ⟨%d3, H3⟩, ⟨%d4, H4⟩⟩
    iapply (sound_kernel2_F c Set.univ (grid2.coords t) ((hFirst t).mpr hz) (fun h => h24 ((hLast t).mp h)) _ _ _ _ _ _ _ _ _ _ _ _ (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [B0 B1 B2 B3 B4 B5 B6 B7 B8 B9 B10 B11 B12 B13 B14 HS B16 B17 B18 B19 B20 B21 Hg]
    · isplitr [Hg]
      swap; · iexact Hg
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [HS]; · iexact HS
      isplitl [B16]; · iexact B16
      isplitl [B17]; · iexact B17
      isplitl [B18]; · iexact B18
      isplitl [B19]; · iexact B19
      isplitl [B20]; · iexact B20
      iexact B21
    isplitl [Ho]; · iexact Ho
    isplitl [H0]; · iexact H0
    isplitl [H1]; · iexact H1
    isplitl [H2]; · iexact H2
    isplitl [H3]; · iexact H3
    iexists _; iexact H4
  · rw [accAt_pos V c t hz, PhiS_castSucc V c t, PhiS_pos V c _ _ hz]
    by_cases h24 : t.val = 24
    · rw [show (dat2 V c).leavesExact 4 t = owns (c : Thread nD τ) (st2_4 t) fullShare ((dat2 V c).after 4 t) from by
        unfold Dat.leavesExact; rw [liveAt2_4 t h24], after2_4, accAt_pos V c t hz]
      iintro ⟨⟨⟨B0, B1, B2, B3, B4, B5, B6, B7, B8, B9, B10, B11, B12, B13, B14, HS, B16, B17, B18, B19, B20, B21⟩, Hg⟩, Ho, ⟨%d0, H0⟩, ⟨%d1, H1⟩, ⟨%d2, H2⟩, ⟨%d3, H3⟩, ⟨%d4, H4⟩⟩
      iapply (sound_kernel2_L c Set.univ (grid2.coords t) (fun h => hz ((hFirst t).mp h)) ((hLast t).mpr h24) _ _ _ _ _ _ _ _ _ _ _ _ (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [B0 B1 B2 B3 B4 B5 B6 B7 B8 B9 B10 B11 B12 B13 B14 HS B16 B17 B18 B19 B20 B21 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        isplitl [B12]; · iexact B12
        isplitl [B13]; · iexact B13
        isplitl [B14]; · iexact B14
        isplitl [HS]; · iexact HS
        isplitl [B16]; · iexact B16
        isplitl [B17]; · iexact B17
        isplitl [B18]; · iexact B18
        isplitl [B19]; · iexact B19
        isplitl [B20]; · iexact B20
        iexact B21
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t h24) (noFlush2_4 t h24)]
      iintro ⟨⟨⟨B0, B1, B2, B3, B4, B5, B6, B7, B8, B9, B10, B11, B12, B13, B14, HS, B16, B17, B18, B19, B20, B21⟩, Hg⟩, Ho, ⟨%d0, H0⟩, ⟨%d1, H1⟩, ⟨%d2, H2⟩, ⟨%d3, H3⟩, ⟨%d4, H4⟩⟩
      iapply (sound_kernel2_M c Set.univ (grid2.coords t) (fun h => hz ((hFirst t).mp h)) (fun h => h24 ((hLast t).mp h)) _ _ _ _ _ _ _ _ _ _ _ _ (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [B0 B1 B2 B3 B4 B5 B6 B7 B8 B9 B10 B11 B12 B13 B14 HS B16 B17 B18 B19 B20 B21 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        isplitl [B12]; · iexact B12
        isplitl [B13]; · iexact B13
        isplitl [B14]; · iexact B14
        isplitl [HS]; · iexact HS
        isplitl [B16]; · iexact B16
        isplitl [B17]; · iexact B17
        isplitl [B18]; · iexact B18
        isplitl [B19]; · iexact B19
        isplitl [B20]; · iexact B20
        iexact B21
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]

/-- After the last point the invariant gives back what the launch handed over: the accumulator's contents are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 25 := N_2; omega), PhiA2_eq]
  iintro ⟨⟨B0, B1, B2, B3, B4, B5, B6, B7, B8, B9, B10, B11, B12, B13, B14, HS, B16, B17, B18, B19, B20, B21⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [HS]; · iexists _; iexact HS
  isplitl [B16]; · iexact B16
  isplitl [B17]; · iexact B17
  isplitl [B18]; · iexact B18
  isplitl [B19]; · iexact B19
  isplitl [B20]; · iexact B20
  iexact B21

end Cert.KernelIdeal.Reg

end
-- ==== Proof.KI.Reg3.lean ====
/-
  The read-out head's kernel (a single grid point): the pooled graph features times the first head matrix plus its
  bias, clipped at zero, times the second head matrix plus its bias, through the logistic function. Stated at the
  buffer contents `V` the kernel region is entered with: the block each window stages, what the one store leaves in
  the output as a function of the five input blocks, the body's triple, and the pipeline's proof data.
-/
import proofs.«425745_j71571335021250_2_alg».proof.Proof.Gen.KernelIdeal.Launch
import proofs.«425745_j71571335021250_2_alg».proof.Proof.Gen.KernelIdeal.Skeleton
import proofs.«425745_j71571335021250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output -/

abbrev rP3 : Rect S64x128 := Rect.unit (s := S64x128) ![0, 0] S64x128.size inb_S64x128_S64x128_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0
abbrev rU3 : Rect S128x1 := Rect.unit (s := S128x1) ![0, 0] S128x1.size inb_S128x1_S128x1_0_0
abbrev rC3 : Rect S1x1 := Rect.unit (s := S1x1) ![0, 0] S1x1.size inb_S1x1_S1x1_0_0
abbrev rO3 : Rect S64x1 := Rect.unit (s := S64x1) ![0, 0] S64x1.size inb_S64x1_S64x1_0_0

def out3_5 (x0 : Vec F S64x128 .f32) (x1 : Vec F S128x128 .f32) (x2 : Vec F S1x128 .f32) (x3 : Vec F S128x1 .f32) (x4 : Vec F S1x1 .f32) : Vec F S64x1 .f32 :=
  View.canon [⟨rO3, k3_pay1 (View.ld x0 rP3) (View.ld x1 rW3) (View.ld x2 rB3) (View.ld x3 rU3) (View.ld x4 rC3)⟩]

theorem cover3_5 (p0 : Vec F S64x1 .f32) (y : S64x1.Idx) :
    ∃ pc ∈ ([⟨rO3, p0⟩] : List (View.Piece (Elt F) S64x1 .f32)), y ∈ pc.1.set :=
  View.cover_of_tiled [⟨rO3, p0⟩] S64x1.size (by rfl) y

/-! ## The body's triple -/

set_option maxHeartbeats 4000000 in
theorem sound_kernel3 (c : Dev nD) (E : Set ℕ) (i : grid3.Coords) (arg1 : Memref sig .tc .vmem S64x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole)
    (x0 : Vec F S64x128 .f32) (x1 : Vec F S128x128 .f32) (x2 : Vec F S1x128 .f32) (x3 : Vec F S128x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Fold.lean ====
/-
  The buffer contents between the items of the program, folded from the launch memory: a stretch of host operations
  applies them in order; a kernel region leaves each of its arrays at what its write-backs fold to and every other
  buffer as it found it.
-/
import proofs.«425745_j71571335021250_2_alg».proof.Proof.Gen.KernelIdeal.Launch
import proofs.«425745_j71571335021250_2_alg».proof.Proof.Gen.KernelIdeal.Skeleton
import proofs.«425745_j71571335021250_2_alg».proof.Proof.Gen.KernelIdeal.Points
import proofs.«425745_j71571335021250_2_alg».proof.Proof.KI.Reg0
import proofs.«425745_j71571335021250_2_alg».proof.Proof.KI.Reg1
import proofs.«425745_j71571335021250_2_alg».proof.Proof.KI.Reg2
import proofs.«425745_j71571335021250_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretches of host operations: the first kernel region's entry. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev E0 : (c : Dev nD) → (b : Ref sig .tc) → Buf (Elt F) ((c : Thread nD τ).loc b) := fun c b => W3 m c b

/-- At kernel region 0's exit. -/
def W4 (c : Dev nD) : Valuation τ sig (Elt F) :=
  Pipeline.withArrays spec0 c (W3 m c) fun w => (dat0 (E0 m) c).arrAt w cfg0.N
theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev X0 : (c : Dev nD) → (b : Ref sig .tc) → Buf (Elt F) ((c : Thread nD τ).loc b) := fun c b => W4 m c b
theorem hF0 (c : Dev nD) (w : Fin cfg0.W) : (dat0 (E0 m) c).arrAt w cfg0.N = X0 m c (Pipeline.arrRef spec0 w) :=
  (W4_arr m c w).symm
theorem hrest0 (c : Dev nD) : ∀ b, b ∉ Finset.univ.image (Pipeline.arrRef spec0) → X0 m c b = E0 m c b :=
  fun b hb => W4_of_ne m c b fun w e => hb (Finset.mem_image.mpr ⟨w, Finset.mem_univ _, e⟩)
/-- After the next stretch of host operations. -/
abbrev W5 : Dev nD → Valuation τ sig (Elt F) := fun c => StableHlo.after hostOps1 (W4 m c)
abbrev E1 : (c : Dev nD) → (b : Ref sig .tc) → Buf (Elt F) ((c : Thread nD τ).loc b) := fun c b => W5 m c b

/-- At kernel region 1's exit. -/
def W6 (c : Dev nD) : Valuation τ sig (Elt F) :=
  Pipeline.withArrays spec1 c (W5 m c) fun w => (dat1 (E1 m) c).arrAt w cfg1.N
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev X1 : (c : Dev nD) → (b : Ref sig .tc) → Buf (Elt F) ((c : Thread nD τ).loc b) := fun c b => W6 m c b
theorem hF1 (c : Dev nD) (w : Fin cfg1.W) : (dat1 (E1 m) c).arrAt w cfg1.N = X1 m c (Pipeline.arrRef spec1 w) :=
  (W6_arr m c w).symm
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)
/-- After the next stretch of host operations. -/
abbrev W7 : Dev nD → Valuation τ sig (Elt F) := fun c => StableHlo.after hostOps2 (W6 m c)
abbrev E2 : (c : Dev nD) → (b : Ref sig .tc) → Buf (Elt F) ((c : Thread nD τ).loc b) := fun c b => W7 m c b

/-- At kernel region 2's exit. -/
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev X2 : (c : Dev nD) → (b : Ref sig .tc) → Buf (Elt F) ((c : Thread nD τ).loc b) := fun c b => W8 m c b
theorem hF2 (c : Dev nD) (w : Fin cfg2.W) : (dat2 (E2 m) c).arrAt w cfg2.N = X2 m c (Pipeline.arrRef spec2 w) :=
  (W8_arr m c w).symm
theorem hrest2 (c : Dev nD) : ∀ b, b ∉ Finset.univ.image (Pipeline.arrRef spec2) → X2 m c b = E2 m c b :=
  fun b hb => W8_of_ne m c b fun w e => hb (Finset.mem_image.mpr ⟨w, Finset.mem_univ _, e⟩)
/-- After the next stretch of host operations. -/
abbrev W9 : Dev nD → Valuation τ sig (Elt F) := fun c => StableHlo.after hostOps3 (W8 m c)
abbrev E3 : (c : Dev nD) → (b : Ref sig .tc) → Buf (Elt F) ((c : Thread nD τ).loc b) := fun c b => W9 m c b

/-- At kernel region 3's exit. -/
def W10 (c : Dev nD) : Valuation τ sig (Elt F) :=
  Pipeline.withArrays spec3 c (W9 m c) fun w => (dat3 (E3 m) c).arrAt w cfg3.N
theorem W10_arr (c : Dev nD) (w : Fin cfg3.W) :
    W10 m c (Proc.devRef .tc (Pipeline.arrRef spec3 w)) = (dat3 (E3 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev X3 : (c : Dev nD) → (b : Ref sig .tc) → Buf (Elt F) ((c : Thread nD τ).loc b) := fun c b => W10 m c b
theorem hF3 (c : Dev nD) (w : Fin cfg3.W) : (dat3 (E3 m) c).arrAt w cfg3.N = X3 m c (Pipeline.arrRef spec3 w) :=
  (W10_arr m c w).symm
theorem hrest3 (c : Dev nD) : ∀ b, b ∉ Finset.univ.image (Pipeline.arrRef spec3) → X3 m c b = E3 m c b :=
  fun b hb => W10_of_ne m c b fun w e => hb (Finset.mem_image.mpr ⟨w, Finset.mem_univ _, e⟩)
/-- After the next stretch of host operations. -/
abbrev W11 : Dev nD → Valuation τ sig (Elt F) := fun c => StableHlo.after hostOps4 (W10 m c)

end Cert.KernelIdeal.Reg

end
-- ==== Proof.KI.Run.lean ====
/-
  The whole program's run: its items in order — stretches of host operations and the four kernel regions — from the
  launch memory to the return, every unscoped buffer ending at the contents the fold of the items computes; and, read
  off that, the frame: every argument array ends as launched.
-/
import proofs.«425745_j71571335021250_2_alg».proof.Proof.Gen.KernelIdeal.Launch
import proofs.«425745_j71571335021250_2_alg».proof.Proof.Gen.KernelIdeal.Skeleton
import proofs.«425745_j71571335021250_2_alg».proof.Proof.Gen.KernelIdeal.Points
import proofs.«425745_j71571335021250_2_alg».proof.Proof.KI.Fold
import proofs.«425745_j71571335021250_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Kernel region 0 over the thread state: entered from every unscoped buffer at the contents before it, left at the
    contents after it; its arrays split out of the unscoped buffers and put back; the generator register into the
    region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the contents before it, left at the
    contents after it; its arrays split out of the unscoped buffers and put back; the generator register into the
    region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at the contents before it, left at the
    contents after it; its arrays split out of the unscoped buffers and put back; the generator register into the
    region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E2 m) c).Φ 0 from rfl]
    iintro ⟨Hp, -, Hr⟩
    iapply (hin2 (E2 m) c)
    unfold Pipeline.ΦA
    isplitl [Hr]; · iexact Hr
    iexact Hp
  hout c := by
    rw [Pipeline.ownSems0_none, show (pdats m 2 c).Φ (Fin.last _) = (dat2 (E2 m) c).Φ (Fin.last cfg2.N) from rfl]
    have h2 := hout2 (E2 m) c
    iintro HP
    ihave H := h2 $$ HP
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 3 over the thread state: entered from every unscoped buffer at the contents before it, left at the
    contents after it; its arrays split out of the unscoped buffers and put back; the generator register into the
    region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items in order, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

set_option backward.isDefEq.respectTransparency.types false in
/-- From any memory with zero counters every weakly fair execution of the program terminates, nothing faulting, and in
    every final state each unscoped buffer of core `c` holds what the fold of the items leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W11 m c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨Hh, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-! ## The arguments end as launched -/

theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_writes_sub hostOps4 _ hostOps4_writes (by decide)
    _ = W9 m c (Proc.devRef .tc main_arg0) := W10_of_ne m c main_arg0 (by decide)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (E0 m) c).arrAt_in 0 rfl _).trans (A_eq0 (E0 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_writes_sub hostOps4 _ hostOps4_writes (by decide)
    _ = W9 m c (Proc.devRef .tc main_arg1) := W10_of_ne m c main_arg1 (by decide)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W11_main_arg2 (c : Dev nD) : W11 m c (Proc.devRef .tc main_arg2) = m ((c : Thread nD τ).loc main_arg2) :=
  calc W11 m c (Proc.devRef .tc main_arg2)
    _ = W10 m c (Proc.devRef .tc main_arg2) := StableHlo.after_of_writes_sub hostOps4 _ hostOps4_writes (by decide)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W11_main_arg3 (c : Dev nD) : W11 m c (Proc.devRef .tc main_arg3) = m ((c : Thread nD τ).loc main_arg3) :=
  calc W11 m c (Proc.devRef .tc main_arg3)
    _ = W10 m c (Proc.devRef .tc main_arg3) := StableHlo.after_of_writes_sub hostOps4 _ hostOps4_writes (by decide)
    _ = W9 m c (Proc.devRef .tc main_arg3) := W10_of_ne m c main_arg3 (by decide)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := (W4_arr m c 1).trans (((dat0 (E0 m) c).arrAt_in 1 rfl _).trans (A_eq0 (E0 m) c 1))
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W11_main_arg4 (c : Dev nD) : W11 m c (Proc.devRef .tc main_arg4) = m ((c : Thread nD τ).loc main_arg4) :=
  calc W11 m c (Proc.devRef .tc main_arg4)
    _ = W10 m c (Proc.devRef .tc main_arg4) := StableHlo.after_of_writes_sub hostOps4 _ hostOps4_writes (by decide)
    _ = W9 m c (Proc.devRef .tc main_arg4) := W10_of_ne m c main_arg4 (by decide)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W11_main_arg5 (c : Dev nD) : W11 m c (Proc.devRef .tc main_arg5) = m ((c : Thread nD τ).loc main_arg5) :=
  calc W11 m c (Proc.devRef .tc main_arg5)
    _ = W10 m c (Proc.devRef .tc main_arg5) := StableHlo.after_of_writes_sub hostOps4 _ hostOps4_writes (by decide)
    _ = W9 m c (Proc.devRef .tc main_arg5) := W10_of_ne m c main_arg5 (by decide)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := (W6_arr m c 3).trans (((dat1 (E1 m) c).arrAt_in 3 rfl _).trans (A_eq1 (E1 m) c 3))
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

theorem W11_main_arg6 (c : Dev nD) : W11 m c (Proc.devRef .tc main_arg6) = m ((c : Thread nD τ).loc main_arg6) :=
  calc W11 m c (Proc.devRef .tc main_arg6)
    _ = W10 m c (Proc.devRef .tc main_arg6) := StableHlo.after_of_writes_sub hostOps4 _ hostOps4_writes (by decide)
    _ = W9 m c (Proc.devRef .tc main_arg6) := W10_of_ne m c main_arg6 (by decide)
    _ = W8 m c (Proc.devRef .tc main_arg6) := StableHlo.after_of_writes_sub hostOps3 _ hostOps3_writes (by decide)
    _ = W7 m c (Proc.devRef .tc main_arg6) := W8_of_ne m c main_arg6 (by decide)
    _ = W6 m c (Proc.devRef .tc main_arg6) := StableHlo.after_of_writes_sub hostOps2 _ hostOps2_writes (by decide)
    _ = W5 m c (Proc.devRef .tc main_arg6) := W6_of_ne m c main_arg6 (by decide)
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl

theorem W11_main_arg7 (c : Dev nD) : W11 m c (Proc.devRef .tc main_arg7) = m ((c : Thread nD τ).loc main_arg7) :=
  calc W11 m c (Proc.devRef .tc main_arg7)
    _ = W10 m c (Proc.devRef .tc main_arg7) := StableHlo.after_of_writes_sub hostOps4 _ hostOps4_writes (by decide)
    _ = W9 m c (Proc.devRef .tc main_arg7) := (W10_arr m c 1).trans (((dat3 (E3 m) c).arrAt_in 1 rfl _).trans (A_eq3 (E3 m) c 1))
    _ = W8 m c (Proc.devRef .tc main_arg7) := StableHlo.after_of_writes_sub hostOps3 _ hostOps3_writes (by decide)
    _ = W7 m c (Proc.devRef .tc main_arg7) := W8_of_ne m c main_arg7 (by decide)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl

theorem W11_main_arg8 (c : Dev nD) : W11 m c (Proc.devRef .tc main_arg8) = m ((c : Thread nD τ).loc main_arg8) :=
  calc W11 m c (Proc.devRef .tc main_arg8)
    _ = W10 m c (Proc.devRef .tc main_arg8) := StableHlo.after_of_writes_sub hostOps4 _ hostOps4_writes (by decide)
    _ = W9 m c (Proc.devRef .tc main_arg8) := W10_of_ne m c main_arg8 (by decide)
    _ = W8 m c (Proc.devRef .tc main_arg8) := StableHlo.after_of_writes_sub hostOps3 _ hostOps3_writes (by decide)
    _ = W7 m c (Proc.devRef .tc main_arg8) := W8_of_ne m c main_arg8 (by decide)
    _ = W6 m c (Proc.devRef .tc main_arg8) := StableHlo.after_of_writes_sub hostOps2 _ hostOps2_writes (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl

theorem W11_main_arg9 (c : Dev nD) : W11 m c (Proc.devRef .tc main_arg9) = m ((c : Thread nD τ).loc main_arg9) :=
  calc W11 m c (Proc.devRef .tc main_arg9)
    _ = W10 m c (Proc.devRef .tc main_arg9) := StableHlo.after_of_writes_sub hostOps4 _ hostOps4_writes (by decide)
    _ = W9 m c (Proc.devRef .tc main_arg9) := (W10_arr m c 3).trans (((dat3 (E3 m) c).arrAt_in 3 rfl _).trans (A_eq3 (E3 m) c 3))
    _ = W8 m c (Proc.devRef .tc main_arg9) := StableHlo.after_of_writes_sub hostOps3 _ hostOps3_writes (by decide)
    _ = W7 m c (Proc.devRef .tc main_arg9) := W8_of_ne m c main_arg9 (by decide)
    _ = W6 m c (Proc.devRef .tc main_arg9) := StableHlo.after_of_writes_sub hostOps2 _ hostOps2_writes (by decide)
    _ = W5 m c (Proc.devRef .tc main_arg9) := W6_of_ne m c main_arg9 (by decide)
    _ = W4 m c (Proc.devRef .tc main_arg9) := StableHlo.after_of_writes_sub hostOps1 _ hostOps1_writes (by decide)
    _ = W3 m c (Proc.devRef .tc main_arg9) := W4_of_ne m c main_arg9 (by decide)
    _ = W2 m c (Proc.devRef .tc main_arg9) := StableHlo.after_of_writes_sub hostOps0_2 _ hostOps0_2_writes (by decide)
    _ = W1 m c (Proc.devRef .tc main_arg9) := StableHlo.after_of_writes_sub hostOps0_1 _ hostOps0_1_writes (by decide)
    _ = W0 m c (Proc.devRef .tc main_arg9) := StableHlo.after_of_writes_sub hostOps0 _ hostOps0_writes (by decide)
    _ = m ((c : Thread nD τ).loc main_arg9) := rfl

theorem W11_main_arg10 (c : Dev nD) : W11 m c (Proc.devRef .tc main_arg10) = m ((c : Thread nD τ).loc main_arg10) :=
  calc W11 m c (Proc.devRef .tc main_arg10)
    _ = W10 m c (Proc.devRef .tc main_arg10) := StableHlo.after_of_writes_sub hostOps4 _ hostOps4_writes (by decide)
    _ = W9 m c (Proc.devRef .tc main_arg10) := W10_of_ne m c main_arg10 (by decide)
    _ = W8 m c (Proc.devRef .tc main_arg10) := StableHlo.after_of_writes_sub hostOps3 _ hostOps3_writes (by decide)
    _ = W7 m c (Proc.devRef .tc main_arg10) := W8_of_ne m c main_arg10 (by decide)
    _ = W6 m c (Proc.devRef .tc main_arg10) := StableHlo.after_of_writes_sub hostOps2 _ hostOps2_writes (by decide)
    _ = W5 m c (Proc.devRef .tc main_arg10) := W6_of_ne m c main_arg10 (by decide)
    _ = W4 m c (Proc.devRef .tc main_arg10) := StableHlo.after_of_writes_sub hostOps1 _ hostOps1_writes (by decide)
    _ = W3 m c (Proc.devRef .tc main_arg10) := W4_of_ne m c main_arg10 (by decide)
    _ = W2 m c (Proc.devRef .tc main_arg10) := StableHlo.after_of_writes_sub hostOps0_2 _ hostOps0_2_writes (by decide)
    _ = W1 m c (Proc.devRef .tc main_arg10) := StableHlo.after_of_writes_sub hostOps0_1 _ hostOps0_1_writes (by decide)
    _ = W0 m c (Proc.devRef .tc main_arg10) := StableHlo.after_of_writes_sub hostOps0 _ hostOps0_writes (by decide)
    _ = m ((c : Thread nD τ).loc main_arg10) := rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => ⟨(h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c),
    (h c _ (mem_uc main_arg9 (by decide))).trans (W11_main_arg9 m c),
    (h c _ (mem_uc main_arg10 (by decide))).trans (W11_main_arg10 m c)⟩) (run_all m ρ)

end Cert.KernelIdeal.Reg

end
-- ==== Proof.KI.HostVal.lean ====
/-
  What the stretches of host operations between the kernel regions leave in the buffers the regions read: the edge
  lists with their self loops, the degree factors, the gathered and summed messages, the pooled means. Where a stretch
  applies the very operations the reference program applies to the same arguments, the contents are stated through the
  reference's own stage functions.

  A stretch's result is read by rewriting each operation's result at its own buffer to its function's value; a buffer a
  stretch does not write, and a buffer a region only reads or does not touch, keeps its contents, so what an early
  stretch computed (the edge lists, the degree factors) and the program's arguments are carried forward unchanged to
  every later point.
-/
import proofs.«425745_j71571335021250_2_alg».proof.Proof.KI.Fold
import proofs.«425745_j71571335021250_2_alg».proof.Proof.Gen.KernelIdeal.Regions
import proofs.«425745_j71571335021250_2_alg».proof.Proof.RefRead
import Idealize.ShloMosaic.Lib.StableHlo.Run
import Idealize.ShloMosaic.Lib.ValueIdx

set_option maxRecDepth 16384

noncomputable section

namespace Cert.KernelIdeal.HostVal

open Cert.KernelIdeal Cert.KernelIdeal.Gen Cert.KernelIdeal.Reg
open Idealize.ShloMosaic Idealize.ShloMosaic.TcCoe Idealize.SL.Sem Idealize.ShloMosaic.StableHlo
open Cert.ReferenceIdeal.Read (val_main_v3 val_main_v6 val_main_v17 val_main_v38 val_main_v43 val_main_v44 val_main_v103)

variable (m : (ℓ : Loc nD τ sig) → Buf (Elt Ideal) ℓ) (c : Dev nD)

/-- The program's arguments on core `c`, at launch. -/
abbrev a0 : (⟨S50000x128, .f32⟩ : BufTy).Contents (Elt Ideal) := m ((c.tc : Thread nD τ).loc main_arg0)
abbrev a1 : (⟨S2x800000, .i32⟩ : BufTy).Contents (Elt Ideal) := m ((c.tc : Thread nD τ).loc main_arg1)
abbrev a2 : (⟨S50000, .i32⟩ : BufTy).Contents (Elt Ideal) := m ((c.tc : Thread nD τ).loc main_arg2)
abbrev a3 : (⟨S128x128, .f32⟩ : BufTy).Contents (Elt Ideal) := m ((c.tc : Thread nD τ).loc main_arg3)
abbrev a4 : (⟨S128, .f32⟩ : BufTy).Contents (Elt Ideal) := m ((c.tc : Thread nD τ).loc main_arg4)
abbrev a5 : (⟨S128x128, .f32⟩ : BufTy).Contents (Elt Ideal) := m ((c.tc : Thread nD τ).loc main_arg5)
abbrev a6 : (⟨S128, .f32⟩ : BufTy).Contents (Elt Ideal) := m ((c.tc : Thread nD τ).loc main_arg6)
abbrev a7 : (⟨S128x128, .f32⟩ : BufTy).Contents (Elt Ideal) := m ((c.tc : Thread nD τ).loc main_arg7)
abbrev a8 : (⟨S128, .f32⟩ : BufTy).Contents (Elt Ideal) := m ((c.tc : Thread nD τ).loc main_arg8)
abbrev a9 : (⟨S128x1, .f32⟩ : BufTy).Contents (Elt Ideal) := m ((c.tc : Thread nD τ).loc main_arg9)
abbrev a10 : (⟨S1, .f32⟩ : BufTy).Contents (Elt Ideal) := m ((c.tc : Thread nD τ).loc main_arg10)

/-- The degree factors as a column. -/
def dinvCol (x1 : (⟨S2x800000, .i32⟩ : BufTy).Contents (Elt Ideal)) : (⟨S50000x1, .f32⟩ : BufTy).Contents (Elt Ideal) :=
  shapeCast _ (val_main_v17 (F := Ideal) x1) shapeCasts_S50000_S50000x1

/-- The messages gathered along the edges' sources and summed at their targets. -/
def aggrOf (feat : (⟨S50000x128, .bf16⟩ : BufTy).Contents (Elt Ideal)) (x1 : (⟨S2x800000, .i32⟩ : BufTy).Contents (Elt Ideal)) :
    (⟨S50000x128, .f32⟩ : BufTy).Contents (Elt Ideal) :=
  Host.scatterAdd (F := Ideal) scatter_S50000x128_S850000x1_S850000x128_1_0_0_1 (val_main_v43 (F := Ideal)) (val_main_v44 (F := Ideal) x1)
    (extf .f32 (Host.gather gather_S50000x128_S850000x1_S850000x128_1_0_n_n_0_1_1128 feat (val_main_v38 (F := Ideal) x1)) bitsLt_bf16_f32)

/-! ## What each stretch and each region leaves alone -/

theorem W1_keep (r : Ref sig .tc) (h : r ∉ hostOps0_W) : W1 m c (Proc.devRef .tc r) = W0 m c (Proc.devRef .tc r) :=
  StableHlo.after_of_writes_sub hostOps0 _ hostOps0_writes h
theorem W2_keep (r : Ref sig .tc) (h : r ∉ hostOps0_1_W) : W2 m c (Proc.devRef .tc r) = W1 m c (Proc.devRef .tc r) :=
  StableHlo.after_of_writes_sub hostOps0_1 _ hostOps0_1_writes h
theorem W3_keep (r : Ref sig .tc) (h : r ∉ hostOps0_2_W) : W3 m c (Proc.devRef .tc r) = W2 m c (Proc.devRef .tc r) :=
  StableHlo.after_of_writes_sub hostOps0_2 _ hostOps0_2_writes h
theorem W5_keep (r : Ref sig .tc) (h : r ∉ hostOps1_W) : W5 m c (Proc.devRef .tc r) = W4 m c (Proc.devRef .tc r) :=
  StableHlo.after_of_writes_sub hostOps1 _ hostOps1_writes h
theorem W7_keep (r : Ref sig .tc) (h : r ∉ hostOps2_W) : W7 m c (Proc.devRef .tc r) = W6 m c (Proc.devRef .tc r) :=
  StableHlo.after_of_writes_sub hostOps2 _ hostOps2_writes h
theorem W9_keep (r : Ref sig .tc) (h : r ∉ hostOps3_W) : W9 m c (Proc.devRef .tc r) = W8 m c (Proc.devRef .tc r) :=
  StableHlo.after_of_writes_sub hostOps3 _ hostOps3_writes h

/-- A reference no stretch before the first region writes holds its launch contents at that region's entry. -/
theorem W3_launch (r : Ref sig .tc) (h0 : r ∉ hostOps0_W) (h1 : r ∉ hostOps0_1_W) (h2 : r ∉ hostOps0_2_W) :
    W3 m c (Proc.devRef .tc r) = m (c, Proc.devRef .tc r) :=
  (W3_keep m c r h2).trans ((W2_keep m c r h1).trans (W1_keep m c r h0))
/-- … and, when the first region does not write it either and the next stretch does not, at the second region's entry. -/
theorem W5_launch (r : Ref sig .tc) (h0 : r ∉ hostOps0_W) (h1 : r ∉ hostOps0_1_W) (h2 : r ∉ hostOps0_2_W)
    (h4 : ∀ w, Pipeline.arrRef spec0 w ≠ r) (h5 : r ∉ hostOps1_W) :
    W5 m c (Proc.devRef .tc r) = m (c, Proc.devRef .tc r) :=
  (W5_keep m c r h5).trans ((W4_of_ne m c r h4).trans (W3_launch m c r h0 h1 h2))
theorem W7_launch (r : Ref sig .tc) (h0 : r ∉ hostOps0_W) (h1 : r ∉ hostOps0_1_W) (h2 : r ∉ hostOps0_2_W)
    (h4 : ∀ w, Pipeline.arrRef spec0 w ≠ r) (h5 : r ∉ hostOps1_W)
    (h6 : ∀ w, Pipeline.arrRef spec1 w ≠ r) (h7 : r ∉ hostOps2_W) :
    W7 m c (Proc.devRef .tc r) = m (c, Proc.devRef .tc r) :=
  (W7_keep m c r h7).trans ((W6_of_ne m c r h6).trans (W5_launch m c r h0 h1 h2 h4 h5))
theorem W9_launch (r : Ref sig .tc) (h0 : r ∉ hostOps0_W) (h1 : r ∉ hostOps0_1_W) (h2 : r ∉ hostOps0_2_W)
    (h4 : ∀ w, Pipeline.arrRef spec0 w ≠ r) (h5 : r ∉ hostOps1_W)
    (h6 : ∀ w, Pipeline.arrRef spec1 w ≠ r) (h7 : r ∉ hostOps2_W)
    (h8 : ∀ w, Pipeline.arrRef spec2 w ≠ r) (h9 : r ∉ hostOps3_W) :
    W9 m c (Proc.devRef .tc r) = m (c, Proc.devRef .tc r) :=
  (W9_keep m c r h9).trans ((W8_of_ne m c r h8).trans (W7_launch m c r h0 h1 h2 h4 h5 h6 h7))

/-! ## The first stretches: the edge lists and the degree factors -/

theorem W1_v3 : (W1 m c main_v3 : (⟨S850000, .i32⟩ : BufTy).Contents (Elt Ideal)) = val_main_v3 (F := Ideal) (a1 m c) := by
  show StableHlo.after hostOps0 _ (Proc.devRef .tc main_v3) = _
  after_results
  rfl
theorem W1_v6 : (W1 m c main_v6 : (⟨S850000, .i32⟩ : BufTy).Contents (Elt Ideal)) = val_main_v6 (F := Ideal) (a1 m c) := by
  show StableHlo.after hostOps0 _ (Proc.devRef .tc main_v6) = _
  after_results
  rfl
theorem W1_v12 : (W1 m c main_v12 : (⟨S50000, .i1⟩ : BufTy).Contents (Elt Ideal)) = Cert.ReferenceIdeal.Read.val_main_v13 (F := Ideal) (a1 m c) := by
  show StableHlo.after hostOps0 _ (Proc.devRef .tc main_v12) = _
  after_results
  rfl
theorem W1_v15 : (W1 m c main_v15 : (⟨S50000, .f32⟩ : BufTy).Contents (Elt Ideal)) = Cert.ReferenceIdeal.Read.val_main_v16 (F := Ideal) (a1 m c) := by
  show StableHlo.after hostOps0 _ (Proc.devRef .tc main_v15) = _
  after_results
  rfl
theorem W1_cst_3 : (W1 m c main_cst_3 : (⟨S_, .f32⟩ : BufTy).Contents (Elt Ideal)) = Cert.ReferenceIdeal.Read.val_main_cst_3 (F := Ideal) := by
  show StableHlo.after hostOps0 _ (Proc.devRef .tc main_cst_3) = _
  after_results
  rfl

/-- A region leaves the array of a window it only reads as it found it. -/
theorem W4_in (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (E0 m) c).arrAt_in w hin cfg0.N).trans (A_eq0 (E0 m) c w))
theorem W6_in (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (E1 m) c).arrAt_in w hin cfg1.N).trans (A_eq1 (E1 m) c w))

/-- The degree factors, before they are laid out as a column. -/
theorem ops0_1_v16 (V : Valuation τ sig (Elt Ideal)) :
    (StableHlo.after hostOps0_1 V (Proc.devRef .tc main_v16) : (⟨S50000, .f32⟩ : BufTy).Contents (Elt Ideal))
      = select (V (Proc.devRef .tc main_v12) : (⟨S50000, .i1⟩ : BufTy).Contents (Elt Ideal)) (V (Proc.devRef .tc main_v15) : (⟨S50000, .f32⟩ : BufTy).Contents (Elt Ideal))
          (broadcastInDim S50000 ![] bcast_S_S50000 (id (V (Proc.devRef .tc main_cst_3) : (⟨S_, .f32⟩ : BufTy).Contents (Elt Ideal)))) := by
  after_results
  rfl
theorem W2_v16 : (W2 m c main_v16 : (⟨S50000, .f32⟩ : BufTy).Contents (Elt Ideal)) = val_main_v17 (F := Ideal) (a1 m c) := by
  refine (ops0_1_v16 (W1 m c)).trans ?_
  rw [W1_v12, W1_v15, W1_cst_3]
  rfl
theorem ops0_2_v17 (V : Valuation τ sig (Elt Ideal)) :
    (StableHlo.after hostOps0_2 V (Proc.devRef .tc main_v17) : (⟨S50000x1, .f32⟩ : BufTy).Contents (Elt Ideal))
      = shapeCast _ (V (Proc.devRef .tc main_v16) : (⟨S50000, .f32⟩ : BufTy).Contents (Elt Ideal)) shapeCasts_S50000_S50000x1 := by
  after_results
  rfl

/-- The edge lists reach every later point unchanged. -/
theorem W3_v3 : (W3 m c main_v3 : (⟨S850000, .i32⟩ : BufTy).Contents (Elt Ideal)) = val_main_v3 (F := Ideal) (a1 m c) :=
  (W3_keep m c main_v3 (by decide)).trans ((W2_keep m c main_v3 (by decide)).trans (W1_v3 m c))
theorem W3_v6 : (W3 m c main_v6 : (⟨S850000, .i32⟩ : BufTy).Contents (Elt Ideal)) = val_main_v6 (F := Ideal) (a1 m c) :=
  (W3_keep m c main_v6 (by decide)).trans ((W2_keep m c main_v6 (by decide)).trans (W1_v6 m c))
theorem W4_v3 : (W4 m c main_v3 : (⟨S850000, .i32⟩ : BufTy).Contents (Elt Ideal)) = val_main_v3 (F := Ideal) (a1 m c) :=
  (W4_of_ne m c main_v3 (by decide)).trans (W3_v3 m c)
theorem W4_v6 : (W4 m c main_v6 : (⟨S850000, .i32⟩ : BufTy).Contents (Elt Ideal)) = val_main_v6 (F := Ideal) (a1 m c) :=
  (W4_of_ne m c main_v6 (by decide)).trans (W3_v6 m c)

/-! ## At the first kernel region's entry -/

theorem W3_dinv : (W3 m c main_v17 : (⟨S50000x1, .f32⟩ : BufTy).Contents (Elt Ideal)) = dinvCol (a1 m c) := by
  refine (ops0_2_v17 (W2 m c)).trans ?_
  rw [W2_v16]
  rfl
theorem W3_arg0 : (W3 m c main_arg0 : (⟨S50000x128, .f32⟩ : BufTy).Contents (Elt Ideal)) = a0 m c :=
  W3_launch m c main_arg0 (by decide) (by decide) (by decide)
theorem W3_arg3 : (W3 m c main_arg3 : (⟨S128x128, .f32⟩ : BufTy).Contents (Elt Ideal)) = a3 m c :=
  W3_launch m c main_arg3 (by decide) (by decide) (by decide)

/-! ## At the second kernel region's entry -/

theorem W5_aggr : (W5 m c main_v29 : (⟨S50000x128, .f32⟩ : BufTy).Contents (Elt Ideal)) = aggrOf (W4 m c main_v18) (a1 m c) := by
  show StableHlo.after hostOps1 (W4 m c) (Proc.devRef .tc main_v29) = _
  after_results
  rw [W4_v3, W4_v6]
  rfl
theorem W5_dinv : (W5 m c main_v17 : (⟨S50000x1, .f32⟩ : BufTy).Contents (Elt Ideal)) = dinvCol (a1 m c) :=
  (W5_keep m c main_v17 (by decide)).trans ((W4_in m c 2 (by decide)).trans (W3_dinv m c))
theorem W4_arg4 : (W4 m c main_arg4 : (⟨S128, .f32⟩ : BufTy).Contents (Elt Ideal)) = a4 m c :=
  (W4_of_ne m c main_arg4 (by decide)).trans (W3_launch m c main_arg4 (by decide) (by decide) (by decide))
theorem W5_bias : (W5 m c main_v30 : (⟨S1x128, .f32⟩ : BufTy).Contents (Elt Ideal)) = shapeCast _ (a4 m c) shapeCasts_S128_S1x128 := by
  show StableHlo.after hostOps1 (W4 m c) (Proc.devRef .tc main_v30) = _
  after_results
  rw [W4_arg4]
  rfl
theorem W5_arg5 : (W5 m c main_arg5 : (⟨S128x128, .f32⟩ : BufTy).Contents (Elt Ideal)) = a5 m c :=
  W5_launch m c main_arg5 (by decide) (by decide) (by decide) (by decide) (by decide)

/-! ## At the third kernel region's entry -/

theorem W6_v3 : (W6 m c main_v3 : (⟨S850000, .i32⟩ : BufTy).Contents (Elt Ideal)) = val_main_v3 (F := Ideal) (a1 m c) :=
  (W6_of_ne m c main_v3 (by decide)).trans ((W5_keep m c main_v3 (by decide)).trans (W4_v3 m c))
theorem W6_v6 : (W6 m c main_v6 : (⟨S850000, .i32⟩ : BufTy).Contents (Elt Ideal)) = val_main_v6 (F := Ideal) (a1 m c) :=
  (W6_of_ne m c main_v6 (by decide)).trans ((W5_keep m c main_v6 (by decide)).trans (W4_v6 m c))
theorem W6_arg6 : (W6 m c main_arg6 : (⟨S128, .f32⟩ : BufTy).Contents (Elt Ideal)) = a6 m c :=
  (W6_of_ne m c main_arg6 (by decide)).trans (W5_launch m c main_arg6 (by decide) (by decide) (by decide) (by decide) (by decide))
theorem W6_arg2 : (W6 m c main_arg2 : (⟨S50000, .i32⟩ : BufTy).Contents (Elt Ideal)) = a2 m c :=
  (W6_of_ne m c main_arg2 (by decide)).trans (W5_launch m c main_arg2 (by decide) (by decide) (by decide) (by decide) (by decide))
theorem W7_aggr : (W7 m c main_v42 : (⟨S50000x128, .f32⟩ : BufTy).Contents (Elt Ideal)) = aggrOf (W6 m c main_v31) (a1 m c) := by
  show StableHlo.after hostOps2 (W6 m c) (Proc.devRef .tc main_v42) = _
  after_results
  rw [W6_v3, W6_v6]
  rfl
theorem W7_dinv : (W7 m c main_v17 : (⟨S50000x1, .f32⟩ : BufTy).Contents (Elt Ideal)) = dinvCol (a1 m c) :=
  (W7_keep m c main_v17 (by decide)).trans ((W6_in m c 1 (by decide)).trans (W5_dinv m c))
theorem W7_bias : (W7 m c main_v43 : (⟨S1x128, .f32⟩ : BufTy).Contents (Elt Ideal)) = shapeCast _ (a6 m c) shapeCasts_S128_S1x128 := by
  show StableHlo.after hostOps2 (W6 m c) (Proc.devRef .tc main_v43) = _
  after_results
  rw [W6_arg6]
  rfl
theorem W7_batch : (W7 m c main_v44 : (⟨S50000x1, .i32⟩ : BufTy).Contents (Elt Ideal)) = shapeCast _ (a2 m c) shapeCasts_S50000_S50000x1 := by
  show StableHlo.after hostOps2 (W6 m c) (Proc.devRef .tc main_v44) = _
  after_results
  rw [W6_arg2]
  rfl

/-! ## At the fourth kernel region's entry -/

theorem W8_arg2 : (W8 m c main_arg2 : (⟨S50000, .i32⟩ : BufTy).Contents (Elt Ideal)) = a2 m c :=
  (W8_of_ne m c main_arg2 (by decide)).trans (W7_launch m c main_arg2 (by decide) (by decide) (by decide) (by decide) (by decide) (by decide) (by decide))
theorem W8_arg8 : (W8 m c main_arg8 : (⟨S128, .f32⟩ : BufTy).Contents (Elt Ideal)) = a8 m c :=
  (W8_of_ne m c main_arg8 (by decide)).trans (W7_launch m c main_arg8 (by decide) (by decide) (by decide) (by decide) (by decide) (by decide) (by decide))
theorem W8_arg10 : (W8 m c main_arg10 : (⟨S1, .f32⟩ : BufTy).Contents (Elt Ideal)) = a10 m c :=
  (W8_of_ne m c main_arg10 (by decide)).trans (W7_launch m c main_arg10 (by decide) (by decide) (by decide) (by decide) (by decide) (by decide) (by decide))
theorem W9_pooled : (W9 m c main_v54 : (⟨S64x128, .f32⟩ : BufTy).Contents (Elt Ideal))
    = Host.divf (F := Ideal) (s := S64x128) (φ := .f32) (W8 m c main_v45 : (⟨S64x128, .f32⟩ : BufTy).Contents (Elt Ideal)) (val_main_v103 (F := Ideal) (a2 m c)) := by
  show StableHlo.after hostOps3 (W8 m c) (Proc.devRef .tc main_v54) = _
  after_results
  rw [W8_arg2]
  rfl
theorem W9_arg7 : (W9 m c main_arg7 : (⟨S128x128, .f32⟩ : BufTy).Contents (Elt Ideal)) = a7 m c :=
  W9_launch m c main_arg7 (by decide) (by decide) (by decide) (by decide) (by decide) (by decide) (by decide) (by decide) (by decide)
theorem W9_bias : (W9 m c main_v55 : (⟨S1x128, .f32⟩ : BufTy).Contents (Elt Ideal)) = shapeCast _ (a8 m c) shapeCasts_S128_S1x128 := by
  show StableHlo.after hostOps3 (W8 m c) (Proc.devRef .tc main_v55) = _
  after_results
  rw [W8_arg8]
  rfl
theorem W9_arg9 : (W9 m c main_arg9 : (⟨S128x1, .f32⟩ : BufTy).Contents (Elt Ideal)) = a9 m c :=
  W9_launch m c main_arg9 (by decide) (by decide) (by decide) (by decide) (by decide) (by decide) (by decide) (by decide) (by decide)
theorem W9_c : (W9 m c main_v56 : (⟨S1x1, .f32⟩ : BufTy).Contents (Elt Ideal)) = shapeCast _ (a10 m c) shapeCasts_S1_S1x1 := by
  show StableHlo.after hostOps3 (W8 m c) (Proc.devRef .tc main_v56) = _
  after_results
  rw [W8_arg10]
  rfl

/-! ## At the return -/

theorem W11_out : (W11 m c main_v58 : (⟨S64, .f32⟩ : BufTy).Contents (Elt Ideal))
    = shapeCast _ (W10 m c main_v57 : (⟨S64x1, .f32⟩ : BufTy).Contents (Elt Ideal)) shapeCasts_S64x1_S64 := by
  show StableHlo.after hostOps4 (W10 m c) (Proc.devRef .tc main_v58) = _
  after_results
  rfl

end Cert.KernelIdeal.HostVal

end
-- ==== Proof.KI.Val01.lean ====
/-
  What the two dense-layer kernels leave in their output arrays, entry by entry, over the extended reals.
-/
import proofs.«425745_j71571335021250_2_alg».proof.Proof.KI.Reg0
import proofs.«425745_j71571335021250_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- An array of the region's entry contents read as a function of its index. -/
abbrev arr (c : Dev nD) (b : Ref sig .tc) : Buf (Elt Ideal) ((c : Thread nD τ).loc b) := V c b

/-! The arrays the two regions read, named at their literal types. -/
abbrev xin0 (c : Dev nD) : S50000x128.Idx → EReal := V c main_arg0
abbrev win0 (c : Dev nD) : S128x128.Idx → EReal := V c main_arg3
abbrev dcol (c : Dev nD) : S50000x1.Idx → EReal := V c main_v17
abbrev agg1 (c : Dev nD) : S50000x128.Idx → EReal := V c main_v29
abbrev brow1 (c : Dev nD) : S1x128.Idx → EReal := V c main_v30
abbrev win1 (c : Dev nD) : S128x128.Idx → EReal := V c main_arg5
/-- The output arrays after the regions' write-backs. -/
abbrev fin0 (c : Dev nD) : S50000x128.Idx → EReal := (dat0 V c).arrAt 3 cfg0.N
abbrev fin1 (c : Dev nD) : S50000x128.Idx → EReal := (dat1 V c).arrAt 4 cfg1.N

/-! ## Layer one -/

/-- The zero offsets of a whole-tile load or store, as a constant function. -/
theorem zeros01 : (![0, 0] : Fin 2 → ℕ) = fun _ => 0 := funext fun a => by fin_cases a <;> rfl

/-! The tile product's operand indices: row of the output with the contraction coordinate on the left, contraction coordinate with
    the output's column on the right. -/
theorem lhs01_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs01_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs01_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs01_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile product into the zero accumulator, read at an entry: row r of the left tile times column q of the right. -/
theorem matmul01_apply (a : FVec Ideal S2000x128 .bf16) (b : FVec Ideal S128x128 .bf16) (r : Fin 2000) (q : Fin 128) :
    matmul dot_S2000x128_S128x128_S2000x128_1_0_0_1_n_n none a b (constant (F := Ideal) S2000x128 .f32 0x00000000#32) (ix2 r q)
      = ∑ k : Fin 128, a (ix2 r k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact lhs01_0 _ _
    | ⟨1, _⟩ => exact (lhs01_1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (rhs01_0 _ _).trans hk
    | ⟨1, _⟩ => exact rhs01_1 _ _)
  rw [el, er]

/-- The degree column as the tile sees it: cast to its own shape and spread along the row. -/
theorem dcol01_apply (x : Vec Ideal S2000x1 .f32) (r : Fin 2000) (q : Fin 128) :
    broadcastTo S2000x128 (shapeCast S2000x1 x shapeCasts_S2000x1_S2000x1) broadcasts_S2000x1_S2000x128 (ix2 r q) = x (ix2 r 0) := by
  rw [shapeCast_self]
  refine broadcastTo_apply x broadcasts_S2000x1_S2000x128 (ix2 r q) (ix2 r 0) fun a => ?_
  match a with
  | ⟨0, _⟩ => rfl
  | ⟨1, _⟩ => rfl

/-- Layer one's tile, entry by entry. -/
theorem out0_apply (x0 : Vec Ideal S2000x128 .f32) (x1 : Vec Ideal S128x128 .f32) (x2 : Vec Ideal S2000x1 .f32)
    (r : Fin 2000) (q : Fin 128) :
    out0_3 x0 x1 x2 (ix2 r q) = (∑ k : Fin 128, x0 (ix2 r k) * x1 (ix2 k q)) * x2 (ix2 r 0) := by
  unfold out0_3
  rw [View.canon_unit_zero zeros01]
  simp only [View.ld_unit_zero (S := S2000x128) zeros01, View.ld_unit_zero (S := S128x128) zeros01, View.ld_unit_zero (S := S2000x1) zeros01]
  unfold k0_pay1
  refine (truncf_apply (ψ := .bf16) _ bitsLt_bf16_f32 (ix2 r q)).trans ?_
  refine (mulf_apply _ _ _).trans ?_
  refine congrArg₂ (· * ·) ?_ ?_
  · refine (matmul01_apply _ _ r q).trans ?_
    exact Finset.sum_congr rfl fun k _ => rfl
  · exact dcol01_apply x2 r q

/-- Layer one's output array, entry by entry, as one function of the arrays the region reads. -/
abbrev H0 (c : Dev nD) (p : Fin 50000) (q : Fin 128) : EReal :=
  (∑ k : Fin 128, xin0 V c (ix2 p k) * win0 V c (ix2 k q)) * dcol V c (ix2 p 0)
abbrev G0 (c : Dev nD) : S50000x128.Idx → EReal := fun i => H0 V c (i 0) (i 1)

/-- The block indices of layer one's windows at a grid point: the row windows sit at the point's own block, the weights at block zero. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of the feature window's block at point t is row 2000 t + r of the features. -/
theorem xblk0_apply (c : Dev nD) (t : Fin cfg0.N) (r : Fin 2000) (k : Fin 128) (p : Fin 50000) (hp : p.val = t.val * 2000 + r.val) :
    (iblk0 V c 0 t : Vec Ideal S2000x128 .f32) (ix2 r k) = xin0 V c (ix2 p k) := by
  obtain ⟨e0, e1, -⟩ := blocks0 t
  unfold iblk0
  rw [View.read_apply]
  show V c main_arg0 _ = V c main_arg0 _
  congr 1
  funext a
  apply Fin.ext
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- The weight window's one block is the weights. -/
theorem wblk0_apply (c : Dev nD) (t : Fin cfg0.N) (k : Fin 128) (q : Fin 128) :
    (iblk0 V c 1 t : Vec Ideal S128x128 .f32) (ix2 k q) = win0 V c (ix2 k q) := by
  obtain ⟨-, -, e0, e1, -⟩ := blocks0 t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Row r of the degree window's block at point t is row 2000 t + r of the degree column. -/
theorem dblk0_apply (c : Dev nD) (t : Fin cfg0.N) (r : Fin 2000) (p : Fin 50000) (hp : p.val = t.val * 2000 + r.val) :
    (iblk0 V c 2 t : Vec Ideal S2000x1 .f32) (ix2 r 0) = dcol V c (ix2 p 0) := by
  obtain ⟨-, -, -, -, e0, e1, -⟩ := blocks0 t
  unfold iblk0
  rw [View.read_apply]
  show V c main_v17 _ = V c main_v17 _
  congr 1
  funext a
  apply Fin.ext
  match a with
  | ⟨0, _⟩ => show win0_2.index t (0 : Fin 2) * 2000 + 1 * r.val = p.val; rw [e0, hp]; omega
  | ⟨1, _⟩ => show win0_2.index t (1 : Fin 2) * 1 + 1 * 0 = 0; rw [e1]

/-- The tile a grid point leaves is the matching rows of the whole-array function. -/
theorem tile0_eq (c : Dev nD) (t : Fin cfg0.N) (r : Fin 2000) (q : Fin 128) (p : Fin 50000) (hp : p.val = t.val * 2000 + r.val) :
    out0_3 (iblk0 V c 0 t) (iblk0 V c 1 t) (iblk0 V c 2 t) (ix2 r q) = H0 V c p q := by
  refine (out0_apply (iblk0 V c 0 t) (iblk0 V c 1 t) (iblk0 V c 2 t) r q).trans ?_
  refine congrArg₂ (· * ·) (Finset.sum_congr rfl fun k _ => congrArg₂ (· * ·) ?_ ?_) ?_
  · exact xblk0_apply V c t r k p hp
  · exact wblk0_apply V c t k q
  · exact dblk0_apply V c t r p hp

/-- What a grid point writes back is its block of the whole-array function. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  obtain ⟨-, -, -, -, -, -, e0, e1⟩ := blocks0 t
  refine funext fun (j : S2000x128.Idx) => ?_
  obtain ⟨r, q, rfl⟩ : ∃ (r : Fin 2000) (q : Fin 128), j = ix2 r q := ⟨j 0, j 1, eq_ix2 j⟩
  have ht : t.val < 25 := t.isLt
  have hr : r.val < 2000 := r.isLt
  rw [View.read_apply]
  refine (tile0_eq V c t r q ⟨t.val * 2000 + r.val, by omega⟩ rfl).trans ?_
  have h0 : (⟨t.val * 2000 + r.val, by omega⟩ : Fin 50000) = ((cfg0.win 3).blk t).view.emb (ix2 r q : S2000x128.Idx) 0 :=
    Fin.ext (by show t.val * 2000 + r.val = win0_3.index t (0 : Fin 2) * 2000 + 1 * r.val; rw [e0]; omega)
  have h1 : q = ((cfg0.win 3).blk t).view.emb (ix2 r q : S2000x128.Idx) 1 :=
    Fin.ext (by show q.val = win0_3.index t (1 : Fin 2) * 128 + 1 * q.val; rw [e1]; omega)
  exact congrArg₂ (H0 V c) h0 h1

/-- A row of the output lies in the block of the grid point that is the row's number divided by the block's height. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by show (i 0).val / 2000 < 25; omega⟩, rfl⟩
  refine ⟨t, flush0_3 t, ?_⟩
  obtain ⟨-, -, -, -, -, -, e0, e1⟩ := blocks0 t
  show i ∈ ((View.whole main_v18).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 128 ≤ (i 1).val ∧ (i 1).val < win0_3.index t (1 : Fin 2) * 128 + 128
    rw [e1]; omega

/-- The blocks tile the output, so the array ends holding the whole-array function. -/
theorem fin0_eq (c : Dev nD) : fin0 V c = G0 V c :=
  (dat0 V c).arrAt_eq_of_cover 3 (G0 V c) (fun t _ => flushed0_eq V c t) cover0

/-- Layer one: entry (p, q) of the output is row p of the features times column q of the weights, scaled by node p's degree factor. -/
theorem final0 (c : Dev nD) (p : Fin 50000) (q : Fin 128) :
    fin0 V c (ix2 p q) = (∑ k : Fin 128, xin0 V c (ix2 p k) * win0 V c (ix2 k q)) * dcol V c (ix2 p 0) :=
  congrFun (fin0_eq V c) (ix2 p q)

/-! ## Layer two -/

/-- The bias row as the tile sees it: cast to its own shape and spread down the rows. -/
theorem brow01_apply (x : Vec Ideal S1x128 .f32) (r : Fin 2000) (k : Fin 128) :
    broadcastTo S2000x128 (shapeCast S1x128 x shapeCasts_S1x128_S1x128) broadcasts_S1x128_S2000x128 (ix2 r k) = x (ix2 0 k) := by
  rw [shapeCast_self]
  refine broadcastTo_apply x broadcasts_S1x128_S2000x128 (ix2 r k) (ix2 0 k) fun a => ?_
  match a with
  | ⟨0, _⟩ => rfl
  | ⟨1, _⟩ => rfl

/-- The activation tile, entry by entry: the aggregated row scaled by the degree factor, shifted by the bias and clipped at zero. -/
theorem act1_apply (x0 : Vec Ideal S2000x128 .f32) (x1 : Vec Ideal S2000x1 .f32) (x2 : Vec Ideal S1x128 .f32) (r : Fin 2000) (k : Fin 128) :
    (truncf .bf16 (maximumf (addf (mulf (shapeCast S2000x128 x0 shapeCasts_S2000x128_S2000x128)
          (broadcastTo S2000x128 (shapeCast S2000x1 x1 shapeCasts_S2000x1_S2000x1) broadcasts_S2000x1_S2000x128))
        (broadcastTo S2000x128 (shapeCast S1x128 x2 shapeCasts_S1x128_S1x128) broadcasts_S1x128_S2000x128))
      (broadcast S2000x128 (Scalar.ofBits (F := Ideal) .f32 0x00000000#32))) bitsLt_bf16_f32 : FVec Ideal S2000x128 .bf16) (ix2 r k)
      = max (x0 (ix2 r k) * x1 (ix2 r 0) + x2 (ix2 0 k)) 0 := by
  refine (truncf_apply (ψ := .bf16) _ bitsLt_bf16_f32 (ix2 r k)).trans ?_
  refine (maximumf_apply _ _ _).trans ?_
  refine congrArg₂ max ?_ ?_
  · refine (addf_apply _ _ _).trans ?_
    refine congrArg₂ (· + ·) ?_ (brow01_apply x2 r k)
    refine (mulf_apply _ _ _).trans ?_
    refine congrArg₂ (· * ·) ?_ (dcol01_apply x1 r k)
    exact congrFun (shapeCast_self x0 shapeCasts_S2000x128_S2000x128) (ix2 r k)
  · exact Ideal.ofBits_zero_f32

/-- Layer two's tile, entry by entry. -/
theorem out1_apply (x0 : Vec Ideal S2000x128 .f32) (x1 : Vec Ideal S2000x1 .f32) (x2 : Vec Ideal S1x128 .f32) (x3 : Vec Ideal S128x128 .f32)
    (r : Fin 2000) (q : Fin 128) :
    out1_4 x0 x1 x2 x3 (ix2 r q)
      = (∑ k : Fin 128, max (x0 (ix2 r k) * x1 (ix2 r 0) + x2 (ix2 0 k)) 0 * x3 (ix2 k q)) * x1 (ix2 r 0) := by
  unfold out1_4
  rw [View.canon_unit_zero zeros01]
  simp only [View.ld_unit_zero (S := S2000x128) zeros01, View.ld_unit_zero (S := S128x128) zeros01, View.ld_unit_zero (S := S2000x1) zeros01,
    View.ld_unit_zero (S := S1x128) zeros01]
  unfold k1_pay1
  refine (truncf_apply (ψ := .bf16) _ bitsLt_bf16_f32 (ix2 r q)).trans ?_
  refine (mulf_apply _ _ _).trans ?_
  refine congrArg₂ (· * ·) ?_ (dcol01_apply x1 r q)
  refine (matmul01_apply _ _ r q).trans ?_
  exact Finset.sum_congr rfl fun k _ => congrArg₂ (· * ·) (act1_apply x0 x1 x2 r k) rfl

/-- Layer two's output array, entry by entry, as one function of the arrays the region reads. -/
abbrev H1 (c : Dev nD) (p : Fin 50000) (q : Fin 128) : EReal :=
  (∑ k : Fin 128, max (agg1 V c (ix2 p k) * dcol V c (ix2 p 0) + brow1 V c (ix2 0 k)) 0 * win1 V c (ix2 k q)) * dcol V c (ix2 p 0)
abbrev G1 (c : Dev nD) : S50000x128.Idx → EReal := fun i => H1 V c (i 0) (i 1)

/-- The block indices of layer two's windows at a grid point: the row windows sit at the point's own block, the bias row and the
    weights at block zero. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of the aggregate window's block at point t is row 2000 t + r of the aggregate. -/
theorem xblk1_apply (c : Dev nD) (t : Fin cfg1.N) (r : Fin 2000) (k : Fin 128) (p : Fin 50000) (hp : p.val = t.val * 2000 + r.val) :
    (iblk1 V c 0 t : Vec Ideal S2000x128 .f32) (ix2 r k) = agg1 V c (ix2 p k) := by
  obtain ⟨e0, e1, -⟩ := blocks1 t
  unfold iblk1
  rw [View.read_apply]
  show V c main_v29 _ = V c main_v29 _
  congr 1
  funext a
  apply Fin.ext
  match a with
  | ⟨0, _⟩ => show win1_0.index t (0 : Fin 2) * 2000 + 1 * r.val = p.val; rw [e0, hp]; omega
  | ⟨1, _⟩ => show win1_0.index t (1 : Fin 2) * 128 + 1 * k.val = k.val; rw [e1]; omega

/-- Row r of the degree window's block at point t is row 2000 t + r of the degree column. -/
theorem dblk1_apply (c : Dev nD) (t : Fin cfg1.N) (r : Fin 2000) (p : Fin 50000) (hp : p.val = t.val * 2000 + r.val) :
    (iblk1 V c 1 t : Vec Ideal S2000x1 .f32) (ix2 r 0) = dcol V c (ix2 p 0) := by
  obtain ⟨-, -, e0, e1, -⟩ := blocks1 t
  unfold iblk1
  rw [View.read_apply]
  show V c main_v17 _ = V c main_v17 _
  congr 1
  funext a
  apply Fin.ext
  match a with
  | ⟨0, _⟩ => show win1_1.index t (0 : Fin 2) * 2000 + 1 * r.val = p.val; rw [e0, hp]; omega
  | ⟨1, _⟩ => show win1_1.index t (1 : Fin 2) * 1 + 1 * 0 = 0; rw [e1]

/-- The bias window's one block is the bias row. -/
theorem bblk1_apply (c : Dev nD) (t : Fin cfg1.N) (k : Fin 128) :
    (iblk1 V c 2 t : Vec Ideal S1x128 .f32) (ix2 0 k) = brow1 V c (ix2 0 k) := by
  obtain ⟨-, -, -, -, e0, e1, -⟩ := blocks1 t
  unfold iblk1
  rw [View.read_apply]
  show V c main_v30 _ = V c main_v30 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The weight window's one block is the weights. -/
theorem wblk1_apply (c : Dev nD) (t : Fin cfg1.N) (k : Fin 128) (q : Fin 128) :
    (iblk1 V c 3 t : Vec Ideal S128x128 .f32) (ix2 k q) = win1 V c (ix2 k q) := by
  obtain ⟨-, -, -, -, -, -, e0, e1, -⟩ := blocks1 t
  unfold iblk1
  rw [View.read_apply]
  show V c main_arg5 _ = V c main_arg5 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The tile a grid point leaves is the matching rows of the whole-array function. -/
theorem tile1_eq (c : Dev nD) (t : Fin cfg1.N) (r : Fin 2000) (q : Fin 128) (p : Fin 50000) (hp : p.val = t.val * 2000 + r.val) :
    out1_4 (iblk1 V c 0 t) (iblk1 V c 1 t) (iblk1 V c 2 t) (iblk1 V c 3 t) (ix2 r q) = H1 V c p q := by
  refine (out1_apply (iblk1 V c 0 t) (iblk1 V c 1 t) (iblk1 V c 2 t) (iblk1 V c 3 t) r q).trans ?_
  refine congrArg₂ (· * ·) (Finset.sum_congr rfl fun k _ => congrArg₂ (· * ·) (congrArg₂ max (congrArg₂ (· + ·) (congrArg₂ (· * ·) ?_ ?_) ?_) rfl) ?_) ?_
  · exact xblk1_apply V c t r k p hp
  · exact dblk1_apply V c t r p hp
  · exact bblk1_apply V c t k
  · exact wblk1_apply V c t k q
  · exact dblk1_apply V c t r p hp

/-- What a grid point writes back is its block of the whole-array function. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  obtain ⟨-, -, -, -, -, -, -, -, e0, e1⟩ := blocks1 t
  refine funext fun (j : S2000x128.Idx) => ?_
  obtain ⟨r, q, rfl⟩ : ∃ (r : Fin 2000) (q : Fin 128), j = ix2 r q := ⟨j 0, j 1, eq_ix2 j⟩
  have ht : t.val < 25 := t.isLt
  have hr : r.val < 2000 := r.isLt
  rw [View.read_apply]
  refine (tile1_eq V c t r q ⟨t.val * 2000 + r.val, by omega⟩ rfl).trans ?_
  have h0 : (⟨t.val * 2000 + r.val, by omega⟩ : Fin 50000) = ((cfg1.win 4).blk t).view.emb (ix2 r q : S2000x128.Idx) 0 :=
    Fin.ext (by show t.val * 2000 + r.val = win1_4.index t (0 : Fin 2) * 2000 + 1 * r.val; rw [e0]; omega)
  have h1 : q = ((cfg1.win 4).blk t).view.emb (ix2 r q : S2000x128.Idx) 1 :=
    Fin.ext (by show q.val = win1_4.index t (1 : Fin 2) * 128 + 1 * q.val; rw [e1]; omega)
  exact congrArg₂ (H1 V c) h0 h1

/-- A row of the output lies in the block of the grid point that is the row's number divided by the block's height. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by show (i 0).val / 2000 < 25; omega⟩, rfl⟩
  refine ⟨t, flush1_4 t, ?_⟩
  obtain ⟨-, -, -, -, -, -, -, -, e0, e1⟩ := blocks1 t
  show i ∈ ((View.whole main_v31).slice (win1_4.rect t)).set
  rw [View.set_slice_whole, Rect.mem_set_unit]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 128 ≤ (i 1).val ∧ (i 1).val < win1_4.index t (1 : Fin 2) * 128 + 128
    rw [e1]; omega

/-- The blocks tile the output, so the array ends holding the whole-array function. -/
theorem fin1_eq (c : Dev nD) : fin1 V c = G1 V c :=
  (dat1 V c).arrAt_eq_of_cover 4 (G1 V c) (fun t _ => flushed1_eq V c t) cover1

/-- Layer two: the aggregated row p, scaled by the degree factor, shifted by the bias and clipped at zero, times column q of the
    weights, scaled again by the degree factor. -/
theorem final1 (c : Dev nD) (p : Fin 50000) (q : Fin 128) :
    fin1 V c (ix2 p q)
      = (∑ k : Fin 128, max (agg1 V c (ix2 p k) * dcol V c (ix2 p 0) + brow1 V c (ix2 0 k)) 0 * win1 V c (ix2 k q)) * dcol V c (ix2 p 0) :=
  congrFun (fin1_eq V c) (ix2 p q)

end Cert.KernelIdeal.Val

end
-- ==== Proof.KI.EdgeIdx.lean ====
/-
  Where the edge-indexed gathers read and where the edge-indexed sums land, as facts about indices: the row gather of
  a feature matrix and the gather of a per-node vector along one index column read the same (normalised, clamped) row;
  an update that the target-indexed sum adds into an entry comes from that entry's column and from an edge whose
  target, read as a gather index, is that entry's row.
-/
import proofs.«425745_j71571335021250_2_alg».proof.Proof.KI.HostVal
import Idealize.ShloMosaic.Lib.ValueIdx
import Idealize.ShloMosaic.Lib.StableHlo.Predicate

set_option maxRecDepth 16384

noncomputable section

namespace Cert.KernelIdeal.EdgeIdx

open Cert.KernelIdeal Cert.KernelIdeal.Gen
open Idealize.ShloMosaic Idealize.ShloMosaic.ValueIdx

/-- The row gather of a feature matrix, the target-indexed sum of rows, and the gather of a per-node vector. -/
abbrev gd2 : GatherDims S50000x128 S850000x1 S850000x128 := gather_S50000x128_S850000x1_S850000x128_1_0_n_n_0_1_1128
abbrev sd2 : ScatterDims S50000x128 S850000x1 S850000x128 := scatter_S50000x128_S850000x1_S850000x128_1_0_0_1
abbrev gd1 : GatherDims S50000 S850000x1 S850000 := Cert.ReferenceIdeal.gather_S50000_S850000x1_S850000_n_0_n_n_0_1_1

/-- An index list as a column. -/
abbrev col (t : IVec S850000 32) : IVec S850000x1 32 := broadcastInDim S850000x1 ![0] bcast_S850000_S850000x1_0 t
/-- An index list with its negative entries wrapped around, as array indexing does before a gather. -/
abbrev wrap (t : IVec S850000 32) : IVec S850000 32 :=
  select (cmpi .slt t (broadcastInDim S850000 ![] bcast_S_S850000 (constantI S_ 32 0#32)))
    (addi t (broadcastInDim S850000 ![] bcast_S_S850000 (constantI S_ 32 50000#32))) t

/-- The row a start index names: its signed value, clamped into the table's fifty thousand rows. -/
def rowOf (b : BitVec 32) : Fin 50000 := ⟨min b.toInt.toNat 49999, by omega⟩

/-- The two ways of writing a rank-1 index from its coordinate agree. -/
theorem ofFin_eq_ix1 {n : Nat} (p : Fin n) : Shape.Idx.ofFin p = ix1 p := by
  funext a; match a with | ⟨0, _⟩ => rfl

/-- The two ways of writing row `p` of a one-column table agree. -/
theorem ixP_eq_ix2 {n : Nat} (p : Fin n) : StableHlo.Predicate.ixP p = ix2 p (0 : Fin 1) := by
  funext a; match a with | ⟨0, _⟩ => rfl | ⟨1, _⟩ => rfl

/-- The gather of a per-node vector reads, at edge `e`, the row the index column names at `e`. -/
theorem gather1_apply (g : S50000.Idx → EReal) (idx : IVec S850000x1 32) (e : Fin 850000) :
    Host.gather gd1 g idx (ix1 e) = g (ix1 (rowOf (idx (ix2 e 0)))) := by
  have h := StableHlo.Predicate.gather_take gd1 rfl rfl rfl rfl g idx e (by norm_num)
  rw [← ofFin_eq_ix1, h]
  congr 1
  funext a
  match a with
  | ⟨0, _⟩ =>
    apply Fin.ext
    show min (idx (StableHlo.Predicate.ixP e)).toInt.toNat (50000 - 1) = min (idx (ix2 e 0)).toInt.toNat 49999
    rw [ixP_eq_ix2]

/-- The row gather reads, at edge `e` and column `q`, column `q` of the row the index column names at `e`:
    axis 0 is collapsed and start-indexed, axis 1 is the one offset axis. -/
theorem gather2_idx (idx : IVec S850000x1 32) (e : Fin 850000) (q : Fin 128) :
    gd2.operandIdx (ix2 e q) idx = ix2 (rowOf (idx (ix2 e 0))) q := by
  funext a
  match a with
  | ⟨0, _⟩ =>
    apply Fin.ext
    show gd2.start (ix2 e q) idx 0 + gd2.batchCoord (ix2 e q) 0 + gd2.offCoord (ix2 e q) 0 = min (idx (ix2 e 0)).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd2.startIndexMap from List.mem_singleton.mpr rfl)]
    have hsi : gd2.siIdx (ix2 e q) ⟨List.idxOf (0 : Fin 2) gd2.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    apply Fin.ext
    show gd2.start (ix2 e q) idx 1 + gd2.batchCoord (ix2 e q) 1 + gd2.offCoord (ix2 e q) 1 = q.val
    rw [GatherDims.batchCoord_eq_zero _ _ _ List.not_mem_nil]
    have hs : gd2.start (ix2 e q) idx 1 = 0 := by
      unfold GatherDims.start
      rw [dif_neg (show (1 : Fin 2) ∉ gd2.startIndexMap by decide)]
    rw [hs]
    simp only [Nat.add_zero, Nat.zero_add]
    unfold GatherDims.offCoord
    rw [dif_pos (show (1 : Fin 2) ∈ gd2.sKept by decide)]
    rfl

/-- An index list as a column reads, at row `e`, the list at `e`. -/
theorem col_apply (t : IVec S850000 32) (e : Fin 850000) : col t (ix2 e 0) = t (ix1 e) := by
  have h := StableHlo.Predicate.bcast_col1 bcast_S850000_S850000x1_0 t e
  rw [ixP_eq_ix2, ofFin_eq_ix1] at h
  exact h

/-- Wrapping leaves a non-negative entry as it is. -/
theorem wrap_apply_nonneg (t : IVec S850000 32) (e : Fin 850000) (h : 0 ≤ (t (ix1 e)).toInt) :
    wrap t (ix1 e) = t (ix1 e) := by
  show Scalar.select (IntOp.cmpi .slt (t (ix1 e)) 0#32) (IntOp.addi (t (ix1 e)) 50000#32) (t (ix1 e)) = t (ix1 e)
  unfold Scalar.select
  rw [if_neg]
  intro hc
  have hs : (t (ix1 e)).slt 0#32 = true := (StableHlo.Predicate.ofBool_eq_one_iff _).1 hc
  rw [BitVec.slt, decide_eq_true_iff] at hs
  have hz : (0#32 : BitVec 32).toInt = 0 := by decide
  omega

/-- The target-indexed sum's window starts, on axis 0, at the signed value of the index column at the edge. -/
theorem sd2_start0 (idx : IVec S850000x1 32) (e : Fin 850000) (q : Fin 128) :
    sd2.start (ix2 e q) idx 0 = (idx (ix2 e 0)).toInt := by
  unfold ScatterDims.start
  rw [dif_pos (show (0 : Fin 2) ∈ sd2.scatterDimsToOperandDims from List.mem_singleton.mpr rfl)]
  have hsi : sd2.siIdx (ix2 e q) ⟨List.idxOf (0 : Fin 2) sd2.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1, which the index map does not name, the window starts at 0. -/
theorem sd2_start1 (idx : IVec S850000x1 32) (e : Fin 850000) (q : Fin 128) : sd2.start (ix2 e q) idx 1 = 0 := by
  unfold ScatterDims.start
  rw [dif_neg (show (1 : Fin 2) ∉ sd2.scatterDimsToOperandDims by decide)]

/-- Axis 0 is an inserted window axis: its window coordinate is 0. -/
theorem sd2_window0 (e : Fin 850000) (q : Fin 128) : sd2.window (ix2 e q) 0 = 0 := by
  unfold ScatterDims.window
  rw [dif_neg (show (0 : Fin 2) ∉ sd2.sKept by decide)]

/-- Axis 1 carries the update's window axis: its window coordinate is the update's column. -/
theorem sd2_window1 (e : Fin 850000) (q : Fin 128) : sd2.window (ix2 e q) 1 = q.val := by
  unfold ScatterDims.window
  rw [dif_pos (show (1 : Fin 2) ∈ sd2.sKept by decide)]
  rfl

/-- Along one index column the two gathers read the same row. -/
theorem gather_row (idx : IVec S850000x1 32) :
    ∃ ρ : Fin 850000 → Fin 50000,
      (∀ (f : S50000x128.Idx → EReal) (e : Fin 850000) (q : Fin 128), Host.gather gd2 f idx (ix2 e q) = f (ix2 (ρ e) q))
      ∧ (∀ (g : S50000.Idx → EReal) (e : Fin 850000), Host.gather gd1 g idx (ix1 e) = g (ix1 (ρ e))) := by
  refine ⟨fun e => rowOf (idx (ix2 e 0)), ?_, ?_⟩
  · intro f e q
    show f (gd2.operandIdx (ix2 e q) idx) = _
    rw [gather2_idx]
  · intro g e
    exact gather1_apply g idx e

/-- An update the target-indexed sum adds into entry `i` comes from `i`'s column, and its edge's target, wrapped and read
    as a gather index, is `i`'s row. -/
theorem scatter_lands (t : IVec S850000 32) (e : Fin 850000) (q : Fin 128) (i : S50000x128.Idx)
    (h : sd2.resultIdx? (ix2 e q) (col t) = some i) :
    ∃ r : Fin 50000, i = ix2 r q ∧ ∀ g : S50000.Idx → EReal, Host.gather gd1 g (col (wrap t)) (ix1 e) = g (ix1 r) := by
  unfold ScatterDims.resultIdx? at h
  split at h
  · next hc =>
    have hi := (Option.some.inj h).symm
    have h0 := hc 0
    rw [sd2_start0, sd2_window0, col_apply] at h0
    have hsz : S50000x128.size 0 = 50000 := rfl
    rw [hsz] at h0
    obtain ⟨h0a, h0b⟩ := h0
    refine ⟨⟨(t (ix1 e)).toInt.toNat, by omega⟩, ?_, ?_⟩
    · rw [hi]
      funext a
      match a with
      | ⟨0, _⟩ =>
        apply Fin.ext
        show (sd2.start (ix2 e q) (col t) 0 + (sd2.window (ix2 e q) 0 : Nat)).toNat = (t (ix1 e)).toInt.toNat
        rw [sd2_start0, sd2_window0, col_apply]
        omega
      | ⟨1, _⟩ =>
        apply Fin.ext
        show (sd2.start (ix2 e q) (col t) 1 + (sd2.window (ix2 e q) 1 : Nat)).toNat = q.val
        rw [sd2_start1, sd2_window1]
        omega
    · intro g
      rw [gather1_apply, col_apply, wrap_apply_nonneg t e (by omega)]
      congr 2
      apply Fin.ext
      show min (t (ix1 e)).toInt.toNat 49999 = (t (ix1 e)).toInt.toNat
      omega
  · exact absurd h (by simp)

end Cert.KernelIdeal.EdgeIdx

end
-- ==== Proof.KI.BridgeGcn.lean ====
/-
  The two graph-convolution layers, kernel against reference. The kernel scales each node's transformed features by
  its degree factor before the edges gather them, sums them at the targets, and scales the sums by the target's factor;
  the reference scales every message by the product of the two factors before the sum. On real numbers the two agree,
  since a finite sum of reals times a real is the sum of the products; the inputs being finite, every intermediate
  value is a real.
-/
import proofs.«425745_j71571335021250_2_alg».proof.Proof.KI.HostVal
import proofs.«425745_j71571335021250_2_alg».proof.Proof.KI.Val01
import proofs.«425745_j71571335021250_2_alg».proof.Proof.KI.EdgeIdx
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Bridge

open Cert.KernelIdeal Cert.KernelIdeal.Gen Cert.KernelIdeal.Reg Cert.KernelIdeal.HostVal Cert.KernelIdeal.EdgeIdx
open Cert.ReferenceIdeal.Read
open Idealize.ShloMosaic Idealize.ShloMosaic.TcCoe Idealize.SL.Sem Idealize.ShloMosaic.ValueIdx

variable (m : (ℓ : Loc nD τ sig) → Buf (Elt Ideal) ℓ) (c : Dev nD)

/-- Every entry of an array is a real number. -/
abbrev IsReal {S : Shape} (x : S.Idx → EReal) : Prop := ∀ i, ∃ r : ℝ, x i = (r : EReal)

/-- The second layer's output as the pooling kernel clips it, at node `p` and feature `q`. -/
abbrev agg2 : S50000x128.Idx → EReal := W7 m c main_v42
abbrev dcol2 : S50000x1.Idx → EReal := W7 m c main_v17
abbrev brow2 : S1x128.Idx → EReal := W7 m c main_v43

/-! The argument arrays' types, by name. -/
abbrev TX0 := (⟨S50000x128, .f32⟩ : BufTy).Contents (Elt Ideal)
abbrev TX1 := (⟨S2x800000, .i32⟩ : BufTy).Contents (Elt Ideal)
abbrev TW := (⟨S128x128, .f32⟩ : BufTy).Contents (Elt Ideal)
abbrev TB := (⟨S128, .f32⟩ : BufTy).Contents (Elt Ideal)

/-- A finite sum of reals is a real. -/
theorem sum_real {ι : Type} (F : Finset ι) (A : ι → EReal) (hA : ∀ j ∈ F, ∃ r : ℝ, A j = (r : EReal)) :
    ∃ R : ℝ, ∑ j ∈ F, A j = (R : EReal) := by
  classical
  induction F using Finset.induction_on with
  | empty => exact ⟨0, by simp⟩
  | insert a s ha ih =>
    obtain ⟨R, hR⟩ := ih (fun j hj => hA j (Finset.mem_insert_of_mem hj))
    obtain ⟨r, hr⟩ := hA a (Finset.mem_insert_self a s)
    exact ⟨r + R, by rw [Finset.sum_insert ha, hR, hr, EReal.coe_add]⟩

/-- A real factor goes through a finite sum of reals. -/
theorem sum_mul_real {ι : Type} (F : Finset ι) (A : ι → EReal) (hA : ∀ j ∈ F, ∃ r : ℝ, A j = (r : EReal)) (c : ℝ) :
    (∑ j ∈ F, A j) * (c : EReal) = ∑ j ∈ F, A j * (c : EReal) := by
  classical
  induction F using Finset.induction_on with
  | empty => simp
  | insert a s ha ih =>
    have hs : ∀ j ∈ s, ∃ r : ℝ, A j = (r : EReal) := fun j hj => hA j (Finset.mem_insert_of_mem hj)
    obtain ⟨R, hR⟩ := sum_real s A hs
    obtain ⟨r, hr⟩ := hA a (Finset.mem_insert_self a s)
    rw [Finset.sum_insert ha, Finset.sum_insert ha, ← ih hs, hR, hr, ← EReal.coe_add, ← EReal.coe_mul, ← EReal.coe_mul,
      ← EReal.coe_mul, ← EReal.coe_add, add_mul]

/-- One layer's sums: scaling the gathered rows by the source's factor before the sum and the sum by the target's factor
    after it gives what scaling every message by both factors before the sum gives. -/
theorem layer (g feat : S50000x128.Idx → EReal) (dv : S50000.Idx → EReal) (hg : IsReal g) (hd : IsReal dv)
    (s t : IVec S850000 32) (hfeat : ∀ (p : Fin 50000) (q : Fin 128), feat (ix2 p q) = g (ix2 p q) * dv (ix1 p))
    (z : S50000x128.Idx → EReal) (hz : ∀ i, z i = 0) (upd : S850000x128.Idx → EReal)
    (hupd : ∀ (e : Fin 850000) (q : Fin 128), upd (ix2 e q)
      = Host.gather gd2 g (col s) (ix2 e q) * (Host.gather gd1 dv (col s) (ix1 e) * Host.gather gd1 dv (col (wrap t)) (ix1 e)))
    (p : Fin 50000) (q : Fin 128) :
    Ideal.hostScatterAdd sd2 z (col t) (Host.gather gd2 feat (col s)) (ix2 p q) * dv (ix1 p)
      = Ideal.hostScatterAdd sd2 z (col t) upd (ix2 p q) := by
  obtain ⟨ρ, hρ2, hρ1⟩ := gather_row (col s)
  obtain ⟨c, hc⟩ := hd (ix1 p)
  unfold Ideal.hostScatterAdd
  rw [hz, zero_add, zero_add, hc]
  have hterm : ∀ (e : Fin 850000) (q' : Fin 128), sd2.resultIdx? (ix2 e q') (col t) = some (ix2 p q) →
      Host.gather gd2 feat (col s) (ix2 e q') = (g (ix2 (ρ e) q') * dv (ix1 (ρ e))) ∧
      upd (ix2 e q') = (g (ix2 (ρ e) q') * dv (ix1 (ρ e))) * (c : EReal) := by
    intro e q' hj'
    obtain ⟨r, hr, hg1⟩ := scatter_lands t e q' _ hj'
    have hrp : r = p := (congrFun hr 0).symm
    subst hrp
    exact ⟨by rw [hρ2, hfeat], by rw [hupd, hρ2, hρ1, hg1, hc, mul_assoc]⟩
  have hsplit : ∀ j : S850000x128.Idx, ∃ (e : Fin 850000) (q' : Fin 128), j = ix2 e q' := fun j => ⟨j 0, j 1, eq_ix2 j⟩
  rw [sum_mul_real]
  · refine Finset.sum_congr rfl fun j hj => ?_
    obtain ⟨e, q', rfl⟩ := hsplit j
    have h := hterm e q' (Finset.mem_filter.1 hj).2
    rw [h.1, h.2]
  · intro j hj
    obtain ⟨e, q', rfl⟩ := hsplit j
    rw [(hterm e q' (Finset.mem_filter.1 hj).2).1]
    obtain ⟨a, ha⟩ := hg (ix2 (ρ e) q')
    obtain ⟨b, hb⟩ := hd (ix1 (ρ e))
    exact ⟨a * b, by rw [ha, hb, EReal.coe_mul]⟩

/-! ## Reals -/

theorem mul_real {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, (EReal.coe_mul r s).symm⟩
theorem add_real {a b : EReal} (ha : ∃ r : ℝ, a = (r : EReal)) (hb : ∃ r : ℝ, b = (r : EReal)) : ∃ r : ℝ, a + b = (r : EReal) := by
  obtain ⟨r, rfl⟩ := ha; obtain ⟨s, rfl⟩ := hb; exact ⟨r + s, (EReal.coe_add r s).symm⟩
theorem max_zero_real {a : EReal} (ha : ∃ r : ℝ, a = (r : EReal)) : ∃ r : ℝ, max a 0 = (r : EReal) := by
  obtain ⟨r, rfl⟩ := ha
  rcases le_total (r : EReal) 0 with h | h
  · exact ⟨0, by rw [max_eq_right h, EReal.coe_zero]⟩
  · exact ⟨r, max_eq_left h⟩

/-- The reciprocal square root of a positive extended real is a real. -/
theorem rsqrt_real_of_pos (y : EReal) (hy : 0 < y) : ∃ r : ℝ, Ideal.rsqrt y = (r : EReal) := by
  induction y with
  | bot => exact absurd hy not_lt_bot
  | coe r =>
    have hr : 0 < r := by exact_mod_cast hy
    refine ⟨(Real.sqrt r)⁻¹, ?_⟩
    rw [Ideal.rsqrt_coe, if_neg (not_lt.2 hr.le), if_neg hr.ne']
  | top => exact ⟨0, by rw [Ideal.rsqrt_top, EReal.coe_zero]⟩

/-- A sum of scattered reals onto reals is real. -/
theorem scatter_real {s si su : Shape} (d : ScatterDims s si su) {w : Nat} (z : s.Idx → EReal) (idx : IVec si w) (upd : su.Idx → EReal)
    (hz : IsReal z) (hu : IsReal upd) : IsReal (Ideal.hostScatterAdd d z idx upd) := fun i =>
  add_real (hz i) (sum_real _ _ fun j _ => hu j)

theorem split2 {n0 n1 : Nat} (j : (⟨2, ![n0, n1]⟩ : Shape).Idx) : ∃ (a : Fin n0) (b : Fin n1), j = ix2 a b := ⟨j 0, j 1, eq_ix2 j⟩
theorem split1 {n : Nat} (j : (⟨1, ![n]⟩ : Shape).Idx) : ∃ (a : Fin n), j = ix1 a := ⟨j 0, eq_ix1 j⟩

section Ref
variable (x0 : TX0) (x1 : TX1) (x3 : TW) (x4 : TB) (x5 : TW) (x6 : TB)

theorem zero_f32 : FloatOps.ofBits (F := Ideal) .f32 0x00000000#32 = 0 := Ideal.ofBits_zero_f32

/-- A choice between the reciprocal square root of something above a positive number and zero is a real. -/
theorem sel_real (y eps : EReal) : ∃ r : ℝ, Scalar.select (FloatOps.cmpf (F := Ideal) (φ := .f32) .ogt y 0)
    (FloatOps.hostUnary (F := Ideal) (φ := .f32) .rsqrt (FloatOps.maximumf (F := Ideal) (φ := .f32) y eps)) (0 : EReal) = (r : EReal) := by
  unfold Scalar.select
  split
  · next h =>
    have hpos : (0 : EReal) < y := by
      by_contra hn
      have h0 : FloatOps.cmpf (F := Ideal) (φ := .f32) .ogt y 0 = 0#1 := by
        show BitVec.ofBool (decide ((0 : EReal) < y)) = 0#1
        rw [decide_eq_false hn]; rfl
      rw [h0] at h; exact absurd h (by decide)
    exact rsqrt_real_of_pos _ (lt_of_lt_of_le hpos (le_max_left _ _))
  · exact ⟨0, EReal.coe_zero.symm⟩

/-- Every node's degree factor is a real: zero, or the reciprocal square root of a positive number. -/
theorem dv_real : IsReal (val_main_v17 (F := Ideal) x1) := by
  intro i
  have h12 : val_main_v12 (F := Ideal) i = 0 := by
    rw [val_main_v12_apply, val_main_cst_1_apply]; exact zero_f32
  have hc0 : val_main_call0_v1 (F := Ideal) i = 0 := by
    rw [val_main_call0_v1_apply, val_main_call0_v0_apply, val_main_cst_3_apply]; exact zero_f32
  rw [val_main_v17_apply, val_main_v13_apply, val_main_v16_apply, val_main_v15_apply, h12, hc0]
  generalize val_main_v11 (F := Ideal) x1 i = y
  generalize val_main_v14 (F := Ideal) i = eps
  exact sel_real y eps

theorem v7_at (p : Fin 50000) (q : Fin 128) :
    val_main_v7 (F := Ideal) x0 x3 (ix2 p q) = ∑ k : Fin 128, x0 (ix2 p k) * x3 (ix2 k q) := by
  rw [val_main_v7_apply]
  refine Finset.sum_congr rfl fun k _ => ?_
  have e1 : lidx_main_v7 (ix2 p q) k = ix2 p k := by funext a; match a with | ⟨0, _⟩ => rfl | ⟨1, _⟩ => rfl
  have e2 : ridx_main_v7 (ix2 p q) k = ix2 k q := by funext a; match a with | ⟨0, _⟩ => rfl | ⟨1, _⟩ => rfl
  rw [e1, e2]

theorem v7_real (hx : IsReal x0) (hW : IsReal x3) : IsReal (val_main_v7 (F := Ideal) x0 x3) := by
  intro i
  obtain ⟨p, q, rfl⟩ := split2 i
  rw [v7_at]
  exact sum_real _ _ fun k _ => mul_real (hx _) (hW _)

theorem v43_zero (i : S50000x128.Idx) : val_main_v43 (F := Ideal) i = 0 := by
  rw [val_main_v43_apply, val_main_cst_9_apply]; exact zero_f32

theorem v39_fn : val_main_v39 (F := Ideal) x0 x1 x3
    = Host.gather gd2 (val_main_v7 (F := Ideal) x0 x3) (col (wrap (val_main_v3 (F := Ideal) x1))) := rfl
theorem v24_fn : val_main_v24 (F := Ideal) x1
    = Host.gather gd1 (val_main_v17 (F := Ideal) x1) (col (wrap (val_main_v3 (F := Ideal) x1))) := rfl
theorem v31_fn : val_main_v31 (F := Ideal) x1
    = Host.gather gd1 (val_main_v17 (F := Ideal) x1) (col (wrap (val_main_v6 (F := Ideal) x1))) := rfl
theorem v45_fn : val_main_v45 (F := Ideal) x0 x1 x3
    = Ideal.hostScatterAdd sd2 (val_main_v43 (F := Ideal)) (col (val_main_v6 (F := Ideal) x1)) (val_main_v42 (F := Ideal) x0 x1 x3) := rfl

theorem v42_at (e : Fin 850000) (q : Fin 128) : val_main_v42 (F := Ideal) x0 x1 x3 (ix2 e q)
    = Host.gather gd2 (val_main_v7 (F := Ideal) x0 x3) (col (wrap (val_main_v3 (F := Ideal) x1))) (ix2 e q)
      * (Host.gather gd1 (val_main_v17 (F := Ideal) x1) (col (wrap (val_main_v3 (F := Ideal) x1))) (ix1 e)
        * Host.gather gd1 (val_main_v17 (F := Ideal) x1) (col (wrap (val_main_v6 (F := Ideal) x1))) (ix1 e)) := by
  have e1 : idx_main_v40 (idx_main_v41 (ix2 e q)) = ix1 e := by funext a; match a with | ⟨0, _⟩ => rfl
  rw [val_main_v42_apply, val_main_v41_apply, val_main_v40_apply, e1, val_main_v32_apply, v39_fn, v24_fn, v31_fn]
  generalize Host.gather gd2 (val_main_v7 (F := Ideal) x0 x3) (col (wrap (val_main_v3 (F := Ideal) x1))) (ix2 e q) = A
  generalize Host.gather gd1 (val_main_v17 (F := Ideal) x1) (col (wrap (val_main_v3 (F := Ideal) x1))) (ix1 e) = B
  generalize Host.gather gd1 (val_main_v17 (F := Ideal) x1) (col (wrap (val_main_v6 (F := Ideal) x1))) (ix1 e) = C
  rfl

/-- The first layer: the kernel's sums, scaled, are the reference's. -/
theorem layer1 (hx : IsReal x0) (hW : IsReal x3) (feat : S50000x128.Idx → EReal)
    (hfeat : ∀ (p : Fin 50000) (q : Fin 128), feat (ix2 p q) = val_main_v7 (F := Ideal) x0 x3 (ix2 p q) * val_main_v17 (F := Ideal) x1 (ix1 p))
    (p : Fin 50000) (q : Fin 128) :
    Ideal.hostScatterAdd sd2 (val_main_v43 (F := Ideal)) (col (val_main_v6 (F := Ideal) x1))
        (Host.gather gd2 feat (col (wrap (val_main_v3 (F := Ideal) x1)))) (ix2 p q) * val_main_v17 (F := Ideal) x1 (ix1 p)
      = val_main_v45 (F := Ideal) x0 x1 x3 (ix2 p q) := by
  rw [v45_fn]
  exact layer (val_main_v7 (F := Ideal) x0 x3) feat (val_main_v17 (F := Ideal) x1) (v7_real x0 x3 hx hW) (dv_real x1)
    (wrap (val_main_v3 (F := Ideal) x1)) (val_main_v6 (F := Ideal) x1) hfeat (val_main_v43 (F := Ideal)) v43_zero
    (val_main_v42 (F := Ideal) x0 x1 x3) (v42_at x0 x1 x3) p q

theorem call1_zero (i : S50000x128.Idx) : val_main_call1_v0 (F := Ideal) i = 0 := by
  rw [val_main_call1_v0_apply, val_main_call1_cst_apply]; exact zero_f32

theorem v47_at (p : Fin 50000) (k : Fin 128) : val_main_v47 (F := Ideal) x4 (ix2 p k) = x4 (ix1 k) := by
  have e1 : idx_main_v46 (idx_main_v47 (ix2 p k)) = ix1 k := by funext a; match a with | ⟨0, _⟩ => rfl
  rw [val_main_v47_apply, val_main_v46_apply, e1]

/-- The reference's first hidden layer at an entry. -/
theorem v49_at (p : Fin 50000) (k : Fin 128) : val_main_v49 (F := Ideal) x0 x1 x3 x4 (ix2 p k)
    = max (val_main_v45 (F := Ideal) x0 x1 x3 (ix2 p k) + x4 (ix1 k)) 0 := by
  rw [val_main_v49_apply, val_main_v48_apply, call1_zero, v47_at]
  generalize val_main_v45 (F := Ideal) x0 x1 x3 (ix2 p k) = A
  rfl

theorem v42_real (hx : IsReal x0) (hW : IsReal x3) : IsReal (val_main_v42 (F := Ideal) x0 x1 x3) := by
  intro j
  obtain ⟨e, q, rfl⟩ := split2 j
  rw [v42_at]
  exact mul_real (v7_real x0 x3 hx hW _) (mul_real (dv_real x1 _) (dv_real x1 _))

theorem v45_real (hx : IsReal x0) (hW : IsReal x3) : IsReal (val_main_v45 (F := Ideal) x0 x1 x3) := by
  rw [v45_fn]
  exact scatter_real _ _ _ _ (fun i => ⟨0, by rw [v43_zero, EReal.coe_zero]⟩) (v42_real x0 x1 x3 hx hW)

theorem v49_real (hx : IsReal x0) (hW : IsReal x3) (hb : IsReal x4) : IsReal (val_main_v49 (F := Ideal) x0 x1 x3 x4) := by
  intro i
  obtain ⟨p, k, rfl⟩ := split2 i
  rw [v49_at]
  exact max_zero_real (add_real (v45_real x0 x1 x3 hx hW _) (hb _))

theorem v50_at (p : Fin 50000) (q : Fin 128) : val_main_v50 (F := Ideal) x0 x1 x3 x4 x5 (ix2 p q)
    = ∑ k : Fin 128, val_main_v49 (F := Ideal) x0 x1 x3 x4 (ix2 p k) * x5 (ix2 k q) := by
  rw [val_main_v50_apply]
  refine Finset.sum_congr rfl fun k _ => ?_
  have e1 : lidx_main_v50 (ix2 p q) k = ix2 p k := by funext a; match a with | ⟨0, _⟩ => rfl | ⟨1, _⟩ => rfl
  have e2 : ridx_main_v50 (ix2 p q) k = ix2 k q := by funext a; match a with | ⟨0, _⟩ => rfl | ⟨1, _⟩ => rfl
  rw [e1, e2]

theorem v50_real (hx : IsReal x0) (hW : IsReal x3) (hb : IsReal x4) (hW2 : IsReal x5) :
    IsReal (val_main_v50 (F := Ideal) x0 x1 x3 x4 x5) := by
  intro i
  obtain ⟨p, q, rfl⟩ := split2 i
  rw [v50_at]
  exact sum_real _ _ fun k _ => mul_real (v49_real x0 x1 x3 x4 hx hW hb _) (hW2 _)

theorem v82_fn : val_main_v82 (F := Ideal) x0 x1 x3 x4 x5
    = Host.gather gd2 (val_main_v50 (F := Ideal) x0 x1 x3 x4 x5) (col (wrap (val_main_v3 (F := Ideal) x1))) := rfl
theorem v67_fn : val_main_v67 (F := Ideal) x1
    = Host.gather gd1 (val_main_v17 (F := Ideal) x1) (col (wrap (val_main_v3 (F := Ideal) x1))) := rfl
theorem v74_fn : val_main_v74 (F := Ideal) x1
    = Host.gather gd1 (val_main_v17 (F := Ideal) x1) (col (wrap (val_main_v6 (F := Ideal) x1))) := rfl
theorem v88_fn : val_main_v88 (F := Ideal) x0 x1 x3 x4 x5
    = Ideal.hostScatterAdd sd2 (val_main_v86 (F := Ideal)) (col (val_main_v6 (F := Ideal) x1)) (val_main_v85 (F := Ideal) x0 x1 x3 x4 x5) := rfl

theorem v86_zero (i : S50000x128.Idx) : val_main_v86 (F := Ideal) i = 0 := by
  rw [val_main_v86_apply, val_main_cst_21_apply]; exact zero_f32

theorem v85_at (e : Fin 850000) (q : Fin 128) : val_main_v85 (F := Ideal) x0 x1 x3 x4 x5 (ix2 e q)
    = Host.gather gd2 (val_main_v50 (F := Ideal) x0 x1 x3 x4 x5) (col (wrap (val_main_v3 (F := Ideal) x1))) (ix2 e q)
      * (Host.gather gd1 (val_main_v17 (F := Ideal) x1) (col (wrap (val_main_v3 (F := Ideal) x1))) (ix1 e)
        * Host.gather gd1 (val_main_v17 (F := Ideal) x1) (col (wrap (val_main_v6 (F := Ideal) x1))) (ix1 e)) := by
  have e1 : idx_main_v83 (idx_main_v84 (ix2 e q)) = ix1 e := by funext a; match a with | ⟨0, _⟩ => rfl
  rw [val_main_v85_apply, val_main_v84_apply, val_main_v83_apply, e1, val_main_v75_apply, v82_fn, v67_fn, v74_fn]
  generalize Host.gather gd2 (val_main_v50 (F := Ideal) x0 x1 x3 x4 x5) (col (wrap (val_main_v3 (F := Ideal) x1))) (ix2 e q) = A
  generalize Host.gather gd1 (val_main_v17 (F := Ideal) x1) (col (wrap (val_main_v3 (F := Ideal) x1))) (ix1 e) = B
  generalize Host.gather gd1 (val_main_v17 (F := Ideal) x1) (col (wrap (val_main_v6 (F := Ideal) x1))) (ix1 e) = C
  rfl

/-- The second layer: the kernel's sums, scaled, are the reference's. -/
theorem layer2 (hx : IsReal x0) (hW : IsReal x3) (hb : IsReal x4) (hW2 : IsReal x5) (feat : S50000x128.Idx → EReal)
    (hfeat : ∀ (p : Fin 50000) (q : Fin 128),
      feat (ix2 p q) = val_main_v50 (F := Ideal) x0 x1 x3 x4 x5 (ix2 p q) * val_main_v17 (F := Ideal) x1 (ix1 p))
    (p : Fin 50000) (q : Fin 128) :
    Ideal.hostScatterAdd sd2 (val_main_v43 (F := Ideal)) (col (val_main_v6 (F := Ideal) x1))
        (Host.gather gd2 feat (col (wrap (val_main_v3 (F := Ideal) x1)))) (ix2 p q) * val_main_v17 (F := Ideal) x1 (ix1 p)
      = val_main_v88 (F := Ideal) x0 x1 x3 x4 x5 (ix2 p q) := by
  rw [v88_fn]
  have h := layer (val_main_v50 (F := Ideal) x0 x1 x3 x4 x5) feat (val_main_v17 (F := Ideal) x1) (v50_real x0 x1 x3 x4 x5 hx hW hb hW2)
    (dv_real x1) (wrap (val_main_v3 (F := Ideal) x1)) (val_main_v6 (F := Ideal) x1) hfeat (val_main_v43 (F := Ideal)) v43_zero
    (val_main_v85 (F := Ideal) x0 x1 x3 x4 x5) (v85_at x0 x1 x3 x4 x5) p q
  rw [h]
  unfold Ideal.hostScatterAdd
  rw [v43_zero, v86_zero]

theorem call3_zero (i : S50000x128.Idx) : val_main_call3_v0 (F := Ideal) i = 0 := by
  rw [val_main_call3_v0_apply, val_main_call3_cst_apply]; exact zero_f32

theorem v90_at (p : Fin 50000) (k : Fin 128) : val_main_v90 (F := Ideal) x6 (ix2 p k) = x6 (ix1 k) := by
  have e1 : idx_main_v89 (idx_main_v90 (ix2 p k)) = ix1 k := by funext a; match a with | ⟨0, _⟩ => rfl
  rw [val_main_v90_apply, val_main_v89_apply, e1]

/-- The reference's second hidden layer at an entry. -/
theorem v92_at (p : Fin 50000) (q : Fin 128) : val_main_v92 (F := Ideal) x0 x1 x3 x4 x5 x6 (ix2 p q)
    = max (val_main_v88 (F := Ideal) x0 x1 x3 x4 x5 (ix2 p q) + x6 (ix1 q)) 0 := by
  rw [val_main_v92_apply, val_main_v91_apply, call3_zero, v90_at]
  generalize val_main_v88 (F := Ideal) x0 x1 x3 x4 x5 (ix2 p q) = A
  rfl

end Ref

/-! ## The kernel's side -/

theorem dinv_at (x1 : TX1) (p : Fin 50000) : dinvCol x1 (ix2 p 0) = val_main_v17 (F := Ideal) x1 (ix1 p) := by
  unfold dinvCol
  exact shapeCast_apply _ _ (ix2 p 0) (ix1 p) (by
    rw [Shape.rowMajor_val_two, Shape.rowMajor_val_one]; show p.val = p.val * 1 + 0; omega)

theorem bias_at (x4 : TB) (k : Fin 128) : shapeCast S1x128 x4 shapeCasts_S128_S1x128 (ix2 0 k) = x4 (ix1 k) := by
  exact shapeCast_apply _ _ (ix2 0 k) (ix1 k) (by
    rw [Shape.rowMajor_val_two, Shape.rowMajor_val_one]; show k.val = 0 * 128 + k.val; omega)

theorem aggr_fn (feat : (⟨S50000x128, .bf16⟩ : BufTy).Contents (Elt Ideal)) (x1 : TX1) : aggrOf feat x1
    = Ideal.hostScatterAdd sd2 (val_main_v43 (F := Ideal)) (col (val_main_v6 (F := Ideal) x1))
        (Host.gather gd2 feat (col (wrap (val_main_v3 (F := Ideal) x1)))) := rfl

/-- What the first kernel writes: the reference's transformed features, scaled by the node's degree factor. -/
theorem feat1_at (p : Fin 50000) (q : Fin 128) :
    (W4 m c main_v18 : (⟨S50000x128, .bf16⟩ : BufTy).Contents (Elt Ideal)) (ix2 p q)
      = val_main_v7 (F := Ideal) (a0 m c) (a3 m c) (ix2 p q) * val_main_v17 (F := Ideal) (a1 m c) (ix1 p) := by
  have h4 : (W4 m c main_v18 : (⟨S50000x128, .bf16⟩ : BufTy).Contents (Elt Ideal)) = Val.fin0 (E0 m) c := W4_arr m c 3
  have hx : Val.xin0 (E0 m) c = a0 m c := W3_arg0 m c
  have hw : Val.win0 (E0 m) c = a3 m c := W3_arg3 m c
  have hd : Val.dcol (E0 m) c = dinvCol (a1 m c) := W3_dinv m c
  rw [h4, Val.final0, hx, hw, hd, dinv_at, v7_at]

/-- The first layer's sums at the second kernel's entry, scaled, are the reference's. -/
theorem agg1_scaled (hx : IsReal (a0 m c)) (hW1 : IsReal (a3 m c)) (p : Fin 50000) (k : Fin 128) :
    Val.agg1 (E1 m) c (ix2 p k) * Val.dcol (E1 m) c (ix2 p 0)
      = val_main_v45 (F := Ideal) (a0 m c) (a1 m c) (a3 m c) (ix2 p k) := by
  have hA : Val.agg1 (E1 m) c = aggrOf (W4 m c main_v18) (a1 m c) := W5_aggr m c
  have hd : Val.dcol (E1 m) c = dinvCol (a1 m c) := W5_dinv m c
  rw [hA, hd, dinv_at, aggr_fn]
  exact layer1 (a0 m c) (a1 m c) (a3 m c) hx hW1 _ (feat1_at m c) p k

/-- The first hidden layer as the second kernel forms it is the reference's. -/
theorem h1_at (hx : IsReal (a0 m c)) (hW1 : IsReal (a3 m c)) (p : Fin 50000) (k : Fin 128) :
    max (Val.agg1 (E1 m) c (ix2 p k) * Val.dcol (E1 m) c (ix2 p 0) + Val.brow1 (E1 m) c (ix2 0 k)) 0
      = val_main_v49 (F := Ideal) (a0 m c) (a1 m c) (a3 m c) (a4 m c) (ix2 p k) := by
  have hb : Val.brow1 (E1 m) c = shapeCast S1x128 (a4 m c) shapeCasts_S128_S1x128 := W5_bias m c
  rw [agg1_scaled m c hx hW1, hb, bias_at, v49_at]

/-- What the second kernel writes: the reference's second transformed features, scaled by the node's degree factor. -/
theorem feat2_at (hx : IsReal (a0 m c)) (hW1 : IsReal (a3 m c)) (p : Fin 50000) (q : Fin 128) :
    (W6 m c main_v31 : (⟨S50000x128, .bf16⟩ : BufTy).Contents (Elt Ideal)) (ix2 p q)
      = val_main_v50 (F := Ideal) (a0 m c) (a1 m c) (a3 m c) (a4 m c) (a5 m c) (ix2 p q) * val_main_v17 (F := Ideal) (a1 m c) (ix1 p) := by
  have h6 : (W6 m c main_v31 : (⟨S50000x128, .bf16⟩ : BufTy).Contents (Elt Ideal)) = Val.fin1 (E1 m) c := W6_arr m c 4
  have hw : Val.win1 (E1 m) c = a5 m c := W5_arg5 m c
  have hd : Val.dcol (E1 m) c = dinvCol (a1 m c) := W5_dinv m c
  have hs : (∑ k : Fin 128, max (Val.agg1 (E1 m) c (ix2 p k) * Val.dcol (E1 m) c (ix2 p 0) + Val.brow1 (E1 m) c (ix2 0 k)) 0
        * Val.win1 (E1 m) c (ix2 k q))
      = ∑ k : Fin 128, val_main_v49 (F := Ideal) (a0 m c) (a1 m c) (a3 m c) (a4 m c) (ix2 p k) * a5 m c (ix2 k q) :=
    Finset.sum_congr rfl fun k _ => by rw [h1_at m c hx hW1, hw]
  rw [h6, Val.final1, v50_at, hs, hd, dinv_at]

/-- After both layers the kernel's clipped, shifted, scaled sums are the reference's second hidden layer. -/
theorem h2_eq (hx : IsReal (a0 m c)) (hW1 : IsReal (a3 m c)) (hb1 : IsReal (a4 m c)) (hW2 : IsReal (a5 m c))
    (p : Fin 50000) (q : Fin 128) :
    max (agg2 m c (ix2 p q) * dcol2 m c (ix2 p 0) + brow2 m c (ix2 0 q)) 0
      = Cert.ReferenceIdeal.Read.val_main_v92 (F := Ideal) (a0 m c) (a1 m c) (a3 m c) (a4 m c) (a5 m c) (a6 m c) (ix2 p q) := by
  have hA : agg2 m c = aggrOf (W6 m c main_v31) (a1 m c) := W7_aggr m c
  have hd : dcol2 m c = dinvCol (a1 m c) := W7_dinv m c
  have hb : brow2 m c = shapeCast S1x128 (a6 m c) shapeCasts_S128_S1x128 := W7_bias m c
  rw [hA, hd, hb, dinv_at, bias_at, aggr_fn, v92_at,
    layer2 (a0 m c) (a1 m c) (a3 m c) (a4 m c) (a5 m c) hx hW1 hb1 hW2 _ (feat2_at m c hx hW1) p q]

end Cert.KernelIdeal.Bridge

end
-- ==== Proof.KI.Val2.lean ====
/-
  What the pooling kernel leaves in its output array: for each graph, the sum over its nodes of the clipped, shifted, scaled rows.
-/
import proofs.«425745_j71571335021250_2_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! The arrays the region reads, named at their literal types. -/
abbrev agg2 (c : Dev nD) : S50000x128.Idx → EReal := V c main_v42
abbrev dcol2 (c : Dev nD) : S50000x1.Idx → EReal := V c main_v17
abbrev brow2 (c : Dev nD) : S1x128.Idx → EReal := V c main_v43
abbrev bat2 (c : Dev nD) : S50000x1.Idx → BitVec 32 := V c main_v44
abbrev fin2 (c : Dev nD) : S64x128.Idx → EReal := (dat2 V c).arrAt 4 cfg2.N

/-! ## One point's step, read at an entry -/

/-- A column broadcast along the lanes reads, at row p and any lane, the column's entry at row p. -/
theorem bcastCol2_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The membership word: the integer comparison's bit, widened and converted, is 1 on equal words and 0 otherwise. -/
theorem onehot2_word (a b : BitVec 32) :
    (FloatOps.sitofp (F := Ideal) .f32 ((IntOp.cmpi .eq a b).setWidth 32) : EReal) = if a = b then 1 else 0 := by
  have hc : IntOp.cmpi .eq a b = BitVec.ofBool (a == b) := rfl
  rw [hc]
  by_cases h : a = b
  · subst h
    rw [if_pos rfl, beq_self_eq_true]
    show (((BitVec.setWidth 32 (BitVec.ofBool true)).toInt : ℝ) : EReal) = 1
    rw [show (BitVec.setWidth 32 (BitVec.ofBool true)).toInt = 1 from by decide]
    norm_num
  · rw [if_neg h, show (a == b) = false from beq_false_of_ne h]
    show (((BitVec.setWidth 32 (BitVec.ofBool false)).toInt : ℝ) : EReal) = 0
    rw [show (BitVec.setWidth 32 (BitVec.ofBool false)).toInt = 0 from by decide]
    norm_num

theorem lhs2_0 (i : S64x128.Idx) (k : dot_S64x2000_S2000x128_S64x128_1_0_0_1_n_n.contr.Idx) :
    (dot_S64x2000_S2000x128_S64x128_1_0_0_1_n_n.lhsIdx i k 0).val = (i 0).val := by
  unfold DotDims.lhsIdx
  rw [dif_neg (show ¬(0 : Fin S64x2000.rank) ∈ dot_S64x2000_S2000x128_S64x128_1_0_0_1_n_n.lhsBatch by decide),
    dif_pos (show (0 : Fin S64x2000.rank) ∈ dot_S64x2000_S2000x128_S64x128_1_0_0_1_n_n.lhsNonContracting by decide)]
  rfl
theorem lhs2_1 (i : S64x128.Idx) (k : dot_S64x2000_S2000x128_S64x128_1_0_0_1_n_n.contr.Idx) :
    (dot_S64x2000_S2000x128_S64x128_1_0_0_1_n_n.lhsIdx i k 1).val = (k ⟨0, by decide⟩).val :=
  dot_S64x2000_S2000x128_S64x128_1_0_0_1_n_n.lhsIdx_val_of_single rfl i k
theorem rhs2_0 (i : S64x128.Idx) (k : dot_S64x2000_S2000x128_S64x128_1_0_0_1_n_n.contr.Idx) :
    (dot_S64x2000_S2000x128_S64x128_1_0_0_1_n_n.rhsIdx i k 0).val = (k ⟨0, by decide⟩).val :=
  dot_S64x2000_S2000x128_S64x128_1_0_0_1_n_n.rhsIdx_val_of_single rfl i k
theorem rhs2_1 (i : S64x128.Idx) (k : dot_S64x2000_S2000x128_S64x128_1_0_0_1_n_n.contr.Idx) :
    (dot_S64x2000_S2000x128_S64x128_1_0_0_1_n_n.rhsIdx i k 1).val = (i 1).val := by
  unfold DotDims.rhsIdx
  rw [dif_neg (show ¬(1 : Fin S2000x128.rank) ∈ dot_S64x2000_S2000x128_S64x128_1_0_0_1_n_n.rhsBatch by decide),
    dif_pos (show (1 : Fin S2000x128.rank) ∈ dot_S64x2000_S2000x128_S64x128_1_0_0_1_n_n.rhsNonContracting by decide)]
  rfl

/-- One point's step at an entry: the accumulator's entry plus, over the tile's rows, the membership of the row in
    graph g times the row's scaled, shifted and clipped entry. -/
theorem pay2_apply (x0 : Vec Ideal S2000x128 .f32) (x1 : Vec Ideal S2000x1 .f32) (x2 : Vec Ideal S1x128 .f32)
    (x3 : Vec Ideal S2000x1 .i32) (s : Vec Ideal S64x128 .f32) (g : Fin 64) (q : Fin 128) :
    k2_pay2 x0 x1 x2 x3 s (ix2 g q)
      = s (ix2 g q) + ∑ r : Fin 2000, (if x3 (ix2 r 0) = BitVec.ofNat 32 g.val then (1 : EReal) else 0)
          * max (x0 (ix2 r q) * x1 (ix2 r 0) + x2 (ix2 0 q)) 0 := by
  unfold k2_pay2
  simp only [shapeCast_self]
  rw [addf_apply]
  congr 1
  simp only [matmul]
  rw [Ideal.matmul_constant_zero_apply,
    ← Equiv.sum_comp (contrEquiv1 dot_S64x2000_S2000x128_S64x128_1_0_0_1_n_n 2000 rfl rfl).symm]
  refine Finset.sum_congr rfl fun r _ => ?_
  have hk := contrEquiv1_symm_val dot_S64x2000_S2000x128_S64x128_1_0_0_1_n_n 2000 rfl rfl r
  have el : dot_S64x2000_S2000x128_S64x128_1_0_0_1_n_n.lhsIdx (ix2 g q)
      ((contrEquiv1 dot_S64x2000_S2000x128_S64x128_1_0_0_1_n_n 2000 rfl rfl).symm r) = ix2 g r :=
    funext fun a => Fin.ext (by
      match a with
      | ⟨0, _⟩ => exact lhs2_0 _ _
      | ⟨1, _⟩ => exact (lhs2_1 _ _).trans hk)
  have er : dot_S64x2000_S2000x128_S64x128_1_0_0_1_n_n.rhsIdx (ix2 g q)
      ((contrEquiv1 dot_S64x2000_S2000x128_S64x128_1_0_0_1_n_n 2000 rfl rfl).symm r) = ix2 r q :=
    funext fun a => Fin.ext (by
      match a with
      | ⟨0, _⟩ => exact (rhs2_0 _ _).trans hk
      | ⟨1, _⟩ => exact rhs2_1 _ _)
  rw [el, er, transpose_ix2_apply, sitofp_apply, extui_apply]
  rw [show cmpi CmpIPredicate.eq (broadcastTo S2000x64 x3 broadcasts_S2000x1_S2000x64)
        (iota Kind.tc S2000x64 32 [1] iota_S2000x64_d1_w32) (ix2 r g)
      = IntOp.cmpi .eq (broadcastTo S2000x64 x3 broadcasts_S2000x1_S2000x64 (ix2 r g))
          (iota Kind.tc S2000x64 32 [1] iota_S2000x64_d1_w32 (ix2 r g)) from rfl,
    bcastCol2_apply, iota_single_apply, onehot2_word,
    maximumf_apply, addf_apply, mulf_apply, bcastCol2_apply, broadcastTo_1b_ab_apply, broadcast_apply,
    show (FloatOps.ofBits (F := Ideal) FTy.f32 0#32 : EReal) = 0 from Ideal.ofBits_zero_f32]

/-! ## The output array after the run is the accumulator after the last point -/

theorem lt24_2 : 24 < cfg2.N := by rw [show cfg2.N = 25 from N_2]; decide

/-- The accumulator after the last point, as contents of the output array. -/
abbrev res2 (c : Dev nD) : Buf (Elt Ideal) ((c : Thread nD τ).loc main_v45) := accAt V c 24 lt24_2

/-- The last point's block of the output starts at the array's origin and has the array's own extents. -/
theorem blk2_4_off : ∀ a : Fin 2, win2_4.index ⟨24, lt24_2⟩ a * win2_4.size a = 0 := by decide +kernel
theorem blk2_4_ext : ∀ a : Fin 2, win2_4.xsize (grid2.coords ⟨24, lt24_2⟩) a = S64x128.size a := by decide +kernel

/-- Only the last point writes the output back, and what it writes is the accumulator it leaves, read through a block
    that is the whole array. -/
theorem flushed2_4 (c : Dev nD) (t : Fin cfg2.N) (hf : (cfg2.win 4).flush t = true) :
    (dat2 V c).flushed 4 t = ((cfg2.win 4).blk t).view.read (Elt Ideal) (res2 V c) := by
  have hN : cfg2.N = 25 := N_2
  have h24 : t.val = 24 := by have := (flush2_4 t).mp hf; have := t.isLt; omega
  obtain rfl : t = ⟨24, lt24_2⟩ := Fin.ext h24
  have hoff : (fun a => win2_4.index ⟨24, lt24_2⟩ a * main_v45.ty.shape.size a) = fun _ => 0 := funext blk2_4_off
  show (cfg2.win 4).cut (grid2.coords ⟨24, lt24_2⟩) ((dat2 V c).after 4 ⟨24, lt24_2⟩) = _
  rw [after2_4]
  exact (Memref.read_access_unit_zero (Elt Ideal) main_v45 hoff (fun a => by rw [congrFun hoff a, Nat.zero_add]) (res2 V c)).symm

/-- So the output array ends holding the accumulator the last point leaves: that point's block covers every entry. -/
theorem final2_arr (c : Dev nD) : fin2 V c = res2 V c := by
  refine (dat2 V c).arrAt_eq_of_cover 4 (res2 V c) (flushed2_4 V c) fun i => ⟨⟨24, lt24_2⟩, (flush2_4 _).mpr rfl, ?_⟩
  show i ∈ ((View.whole main_v45).slice (win2_4.rect ⟨24, lt24_2⟩)).set
  rw [View.set_slice_whole, Rect.mem_set_unit]
  intro a
  have hi : (i a : ℕ) < S64x128.size a := (i a).isLt
  have ho := blk2_4_off a
  have he := blk2_4_ext a
  constructor
  · exact ho ▸ Nat.zero_le _
  · rw [ho, he, Nat.zero_add]; exact hi

/-! ## The blocks the points read -/

/-! The block of each input at a point: rows 2000·t … 2000·t + 1999 of the array (the bias row whole). -/

theorem idx2_0_0 : ∀ t : Fin cfg2.N, win2_0.index t 0 = t.val :=
  (by decide +kernel : ∀ t : Fin grid2.N, win2_0.index t 0 = t.val)
theorem idx2_0_1 : ∀ t : Fin cfg2.N, win2_0.index t 1 = 0 :=
  (by decide +kernel : ∀ t : Fin grid2.N, win2_0.index t 1 = 0)
theorem idx2_1_0 : ∀ t : Fin cfg2.N, win2_1.index t 0 = t.val :=
  (by decide +kernel : ∀ t : Fin grid2.N, win2_1.index t 0 = t.val)
theorem idx2_1_1 : ∀ t : Fin cfg2.N, win2_1.index t 1 = 0 :=
  (by decide +kernel : ∀ t : Fin grid2.N, win2_1.index t 1 = 0)
theorem idx2_2_0 : ∀ t : Fin cfg2.N, win2_2.index t 0 = 0 :=
  (by decide +kernel : ∀ t : Fin grid2.N, win2_2.index t 0 = 0)
theorem idx2_2_1 : ∀ t : Fin cfg2.N, win2_2.index t 1 = 0 :=
  (by decide +kernel : ∀ t : Fin grid2.N, win2_2.index t 1 = 0)
theorem idx2_3_0 : ∀ t : Fin cfg2.N, win2_3.index t 0 = t.val :=
  (by decide +kernel : ∀ t : Fin grid2.N, win2_3.index t 0 = t.val)
theorem idx2_3_1 : ∀ t : Fin cfg2.N, win2_3.index t 1 = 0 :=
  (by decide +kernel : ∀ t : Fin grid2.N, win2_3.index t 1 = 0)

theorem iblk2_0_apply (c : Dev nD) (t : Fin cfg2.N) (r : Fin 2000) (q : Fin 128) (h : 2000 * t.val + r.val < 50000) :
    (iblk2 V c 0 t : Vec Ideal S2000x128 .f32) (ix2 r q) = agg2 V c (ix2 ⟨2000 * t.val + r.val, h⟩ q) := by
  unfold iblk2
  rw [View.read_apply]
  show V c main_v42 _ = V c main_v42 _
  congr 1
  funext a
  apply Fin.ext
  match a with
  | ⟨0, _⟩ =>
    show win2_0.index t 0 * 2000 + 1 * r.val = 2000 * t.val + r.val
    rw [idx2_0_0]; omega
  | ⟨1, _⟩ =>
    show win2_0.index t 1 * 128 + 1 * q.val = q.val
    rw [idx2_0_1]; omega

theorem iblk2_1_apply (c : Dev nD) (t : Fin cfg2.N) (r : Fin 2000) (h : 2000 * t.val + r.val < 50000) :
    (iblk2 V c 1 t : Vec Ideal S2000x1 .f32) (ix2 r 0) = dcol2 V c (ix2 ⟨2000 * t.val + r.val, h⟩ 0) := by
  unfold iblk2
  rw [View.read_apply]
  show V c main_v17 _ = V c main_v17 _
  congr 1
  funext a
  apply Fin.ext
  match a with
  | ⟨0, _⟩ =>
    show win2_1.index t 0 * 2000 + 1 * r.val = 2000 * t.val + r.val
    rw [idx2_1_0]; omega
  | ⟨1, _⟩ =>
    show win2_1.index t 1 * 1 + 1 * 0 = 0
    rw [idx2_1_1]

theorem iblk2_2_apply (c : Dev nD) (t : Fin cfg2.N) (q : Fin 128) :
    (iblk2 V c 2 t : Vec Ideal S1x128 .f32) (ix2 0 q) = brow2 V c (ix2 0 q) := by
  unfold iblk2
  rw [View.read_apply]
  show V c main_v43 _ = V c main_v43 _
  congr 1
  funext a
  apply Fin.ext
  match a with
  | ⟨0, _⟩ =>
    show win2_2.index t 0 * 1 + 1 * 0 = 0
    rw [idx2_2_0]
  | ⟨1, _⟩ =>
    show win2_2.index t 1 * 128 + 1 * q.val = q.val
    rw [idx2_2_1]; omega

theorem iblk2_3_apply (c : Dev nD) (t : Fin cfg2.N) (r : Fin 2000) (h : 2000 * t.val + r.val < 50000) :
    (iblk2 V c 3 t : Vec Ideal S2000x1 .i32) (ix2 r 0) = bat2 V c (ix2 ⟨2000 * t.val + r.val, h⟩ 0) := by
  unfold iblk2
  rw [View.read_apply]
  show V c main_v44 _ = V c main_v44 _
  congr 1
  funext a
  apply Fin.ext
  match a with
  | ⟨0, _⟩ =>
    show win2_3.index t 0 * 2000 + 1 * r.val = 2000 * t.val + r.val
    rw [idx2_3_0]; omega
  | ⟨1, _⟩ =>
    show win2_3.index t 1 * 1 + 1 * 0 = 0
    rw [idx2_3_1]

/-! ## The accumulator after each point, and the result -/

/-- What row p of the arrays adds to entry (g, q); zero past the arrays' rows. -/
def rowTerm2 (c : Dev nD) (g : Fin 64) (q : Fin 128) (p : ℕ) : EReal :=
  if h : p < 50000 then
    (if bat2 V c (ix2 ⟨p, h⟩ 0) = BitVec.ofNat 32 g.val then (1 : EReal) else 0)
      * max (agg2 V c (ix2 ⟨p, h⟩ q) * dcol2 V c (ix2 ⟨p, h⟩ 0) + brow2 V c (ix2 0 q)) 0
  else 0

/-- One point's step on the blocks it is given: the accumulator's entry plus the terms of rows 2000·t … 2000·t + 1999. -/
theorem step2_apply (c : Dev nD) (t : Fin cfg2.N) (s : Vec Ideal S64x128 .f32) (g : Fin 64) (q : Fin 128) :
    k2_pay2 (iblk2 V c 0 t) (iblk2 V c 1 t) (iblk2 V c 2 t) (iblk2 V c 3 t) s (ix2 g q)
      = s (ix2 g q) + ∑ r ∈ Finset.range 2000, rowTerm2 V c g q (2000 * t.val + r) := by
  rw [pay2_apply, Finset.sum_range]
  congr 1
  refine Finset.sum_congr rfl fun r _ => ?_
  have hN : cfg2.N = 25 := N_2
  have h : 2000 * t.val + r.val < 50000 := by have := t.isLt; have := r.isLt; omega
  rw [iblk2_0_apply V c t r q h, iblk2_1_apply V c t r h, iblk2_2_apply V c t q, iblk2_3_apply V c t r h]
  unfold rowTerm2
  rw [dif_pos h]

/-- The fill the first point starts from is zero. -/
theorem pay1_2_apply (g : Fin 64) (q : Fin 128) : k2_pay1 (F := Ideal) (ix2 g q) = 0 := by
  unfold k2_pay1
  simp only [shapeCast_self]
  exact Ideal.ofBits_zero_f32

/-- The accumulator after point n, at an entry: the terms of the rows below 2000·(n + 1). -/
theorem accAt2_apply (c : Dev nD) (g : Fin 64) (q : Fin 128) : ∀ (n : ℕ) (hn : n < cfg2.N),
    accAt V c n hn (ix2 g q) = ∑ p ∈ Finset.range (2000 * (n + 1)), rowTerm2 V c g q p
  | 0, hn => by
    show k2_pay2 (iblk2 V c 0 ⟨0, hn⟩) (iblk2 V c 1 ⟨0, hn⟩) (iblk2 V c 2 ⟨0, hn⟩) (iblk2 V c 3 ⟨0, hn⟩)
      (k2_pay1 (F := Ideal)) (ix2 g q) = _
    rw [step2_apply, pay1_2_apply, zero_add]
    refine Finset.sum_congr rfl fun r _ => ?_
    rw [Nat.mul_zero, Nat.zero_add]
  | n + 1, hn => by
    show k2_pay2 (iblk2 V c 0 ⟨n + 1, hn⟩) (iblk2 V c 1 ⟨n + 1, hn⟩) (iblk2 V c 2 ⟨n + 1, hn⟩) (iblk2 V c 3 ⟨n + 1, hn⟩)
      (accAt V c n (Nat.lt_of_succ_lt hn)) (ix2 g q) = _
    rw [step2_apply, accAt2_apply c g q n (Nat.lt_of_succ_lt hn),
      show 2000 * (n + 1 + 1) = 2000 * (n + 1) + 2000 from by omega, Finset.sum_range_add]

/-- The pooled output, entry (g, q): over all nodes p, the membership of p in graph g times row p's entry, scaled by the
    node's degree factor, shifted by the bias and clipped at zero. The 25 tiles' partial sums are the sums over consecutive
    ranges of 2000 rows, and the zero fill the first point starts from adds nothing. -/
theorem final2 (c : Dev nD) (g : Fin 64) (q : Fin 128) :
    fin2 V c (ix2 g q)
      = ∑ p : Fin 50000, (if bat2 V c (ix2 p 0) = BitVec.ofNat 32 g.val then (1 : EReal) else 0)
          * max (agg2 V c (ix2 p q) * dcol2 V c (ix2 p 0) + brow2 V c (ix2 0 q)) 0 := by
  rw [final2_arr]
  show accAt V c 24 lt24_2 (ix2 g q) = _
  rw [accAt2_apply V c g q 24 lt24_2, show 2000 * (24 + 1) = 50000 from rfl, Finset.sum_range]
  refine Finset.sum_congr rfl fun p _ => ?_
  unfold rowTerm2
  rw [dif_pos p.isLt]

end Cert.KernelIdeal.Val

end
-- ==== Proof.KI.Val3.lean ====
/-
  What the read-out head's kernel leaves in its output array: two dense layers with a clip between them, through the logistic function.
-/
import proofs.«425745_j71571335021250_2_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! The arrays the region reads, named at their literal types. -/
abbrev pool3 (c : Dev nD) : S64x128.Idx → EReal := V c main_v54
abbrev wh1 (c : Dev nD) : S128x128.Idx → EReal := V c main_arg7
abbrev bh1 (c : Dev nD) : S1x128.Idx → EReal := V c main_v55
abbrev wh2 (c : Dev nD) : S128x1.Idx → EReal := V c main_arg9
abbrev bh2 (c : Dev nD) : S1x1.Idx → EReal := V c main_v56
abbrev fin3 (c : Dev nD) : S64x1.Idx → EReal := (dat3 V c).arrAt 5 cfg3.N

/-! Each window's block at the grid's one point is the whole array. -/

theorem iblk3_0 (c : Dev nD) (t : Fin cfg3.N) : iblk3 V c 0 t = pool3 V c := by
  funext j
  show V c main_v54 (((cfg3.win 0).blk t).view.emb j) = V c main_v54 j
  congr 1
  funext a
  apply Fin.ext
  match a with
  | ⟨0, _⟩ => show 0 * 64 + 1 * (j 0).val = (j 0).val; omega
  | ⟨1, _⟩ => show 0 * 128 + 1 * (j 1).val = (j 1).val; omega

theorem iblk3_1 (c : Dev nD) (t : Fin cfg3.N) : iblk3 V c 1 t = wh1 V c := by
  funext j
  show V c main_arg7 (((cfg3.win 1).blk t).view.emb j) = V c main_arg7 j
  congr 1
  funext a
  apply Fin.ext
  match a with
  | ⟨0, _⟩ => show 0 * 128 + 1 * (j 0).val = (j 0).val; omega
  | ⟨1, _⟩ => show 0 * 128 + 1 * (j 1).val = (j 1).val; omega

theorem iblk3_2 (c : Dev nD) (t : Fin cfg3.N) : iblk3 V c 2 t = bh1 V c := by
  funext j
  show V c main_v55 (((cfg3.win 2).blk t).view.emb j) = V c main_v55 j
  congr 1
  funext a
  apply Fin.ext
  match a with
  | ⟨0, _⟩ => show 0 * 1 + 1 * (j 0).val = (j 0).val; omega
  | ⟨1, _⟩ => show 0 * 128 + 1 * (j 1).val = (j 1).val; omega

theorem iblk3_3 (c : Dev nD) (t : Fin cfg3.N) : iblk3 V c 3 t = wh2 V c := by
  funext j
  show V c main_arg9 (((cfg3.win 3).blk t).view.emb j) = V c main_arg9 j
  congr 1
  funext a
  apply Fin.ext
  match a with
  | ⟨0, _⟩ => show 0 * 128 + 1 * (j 0).val = (j 0).val; omega
  | ⟨1, _⟩ => show 0 * 1 + 1 * (j 1).val = (j 1).val; omega

theorem iblk3_4 (c : Dev nD) (t : Fin cfg3.N) : iblk3 V c 4 t = bh2 V c := by
  funext j
  show V c main_v56 (((cfg3.win 4).blk t).view.emb j) = V c main_v56 j
  congr 1
  funext a
  apply Fin.ext
  match a with
  | ⟨0, _⟩ => show 0 * 1 + 1 * (j 0).val = (j 0).val; omega
  | ⟨1, _⟩ => show 0 * 1 + 1 * (j 1).val = (j 1).val; omega

/-- What the one point writes back is the output window's block of the body's result on the whole input arrays. -/
theorem flushed3_5 (c : Dev nD) (t : Fin cfg3.N) :
    (dat3 V c).flushed 5 t = ((cfg3.win 5).blk t).view.read (Elt Ideal) (out3_5 (F := Ideal) (pool3 V c) (wh1 V c) (bh1 V c) (wh2 V c) (bh2 V c)) := by
  show (cfg3.win 5).cut (grid3.coords t) ((dat3 V c).after 5 t) = _
  rw [after3_5, iblk3_0, iblk3_1, iblk3_2, iblk3_3, iblk3_4]
  generalize out3_5 (F := Ideal) (pool3 V c) (wh1 V c) (bh1 V c) (wh2 V c) (bh2 V c) = G
  funext j
  show G ((cfg3.win 5).xinj (grid3.coords t) j) = G (((cfg3.win 5).blk t).view.emb j)
  congr 1
  funext a
  apply Fin.ext
  match a with
  | ⟨0, _⟩ => show (j 0).val = 0 * 64 + 1 * (j 0).val; omega
  | ⟨1, _⟩ => show (j 1).val = 0 * 1 + 1 * (j 1).val; omega

/-- The output window's one block covers the output array. -/
theorem mem_blk3_5 (t : Fin cfg3.N) (i : S64x1.Idx) : i ∈ ((cfg3.win 5).blk t).view.set := by
  show i ∈ ((View.whole main_v57).slice (win3_5.rect t)).set
  rw [View.set_slice_whole, Rect.mem_set_unit]
  intro a
  have h0 : (i 0).val < 64 := (i 0).isLt
  have h1 : (i 1).val < 1 := (i 1).isLt
  match a with
  | ⟨0, _⟩ => show 0 * 64 ≤ (i 0).val ∧ (i 0).val < 0 * 64 + 64; omega
  | ⟨1, _⟩ => show 0 * 1 ≤ (i 1).val ∧ (i 1).val < 0 * 1 + 1; omega

/-- The output array after the region: the body's result on the whole input arrays. -/
theorem fin3_eq (c : Dev nD) :
    fin3 V c = out3_5 (F := Ideal) (pool3 V c) (wh1 V c) (bh1 V c) (wh2 V c) (bh2 V c) :=
  (dat3 V c).arrAt_eq_of_cover 5 _ (fun t _ => flushed3_5 V c t) (fun i => ⟨t3_0, flush3_5 t3_0, mem_blk3_5 t3_0 i⟩)

/-! The body's result, read at an index. -/

theorem hz3 : (![0, 0] : Fin 2 → Nat) = fun _ => 0 := funext fun a => match a with | ⟨0, _⟩ => rfl | ⟨1, _⟩ => rfl

/-! The two products' operand indices, coordinate by coordinate. -/

theorem lhs3a_0 (i : S64x128.Idx) (q : dot_S64x128_S128x128_S64x128_1_0_0_1_n_n.contr.Idx) : (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs3a_1 (i : S64x128.Idx) (q : dot_S64x128_S128x128_S64x128_1_0_0_1_n_n.contr.Idx) : (dot_S64x128_S128x128_S64x128_1_0_0_1_n_n.lhsIdx i q 1).val = (q ⟨0, by decide⟩).val :=
  dot_S64x128_S128x128_S64x128_1_0_0_1_n_n.lhsIdx_val_of_single rfl i q
theorem rhs3a_0 (i : S64x128.Idx) (q : dot_S64x128_S128x128_S64x128_1_0_0_1_n_n.contr.Idx) : (dot_S64x128_S128x128_S64x128_1_0_0_1_n_n.rhsIdx i q 0).val = (q ⟨0, by decide⟩).val :=
  dot_S64x128_S128x128_S64x128_1_0_0_1_n_n.rhsIdx_val_of_single rfl i q
theorem rhs3a_1 (i : S64x128.Idx) (q : dot_S64x128_S128x128_S64x128_1_0_0_1_n_n.contr.Idx) : (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

theorem lhs3b_0 (i : S64x1.Idx) (q : dot_S64x128_S128x1_S64x1_1_0_0_1_n_n.contr.Idx) : (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem lhs3b_1 (i : S64x1.Idx) (q : dot_S64x128_S128x1_S64x1_1_0_0_1_n_n.contr.Idx) : (dot_S64x128_S128x1_S64x1_1_0_0_1_n_n.lhsIdx i q 1).val = (q ⟨0, by decide⟩).val :=
  dot_S64x128_S128x1_S64x1_1_0_0_1_n_n.lhsIdx_val_of_single rfl i q
theorem rhs3b_0 (i : S64x1.Idx) (q : dot_S64x128_S128x1_S64x1_1_0_0_1_n_n.contr.Idx) : (dot_S64x128_S128x1_S64x1_1_0_0_1_n_n.rhsIdx i q 0).val = (q ⟨0, by decide⟩).val :=
  dot_S64x128_S128x1_S64x1_1_0_0_1_n_n.rhsIdx_val_of_single rfl i q
theorem rhs3b_1 (i : S64x1.Idx) (q : dot_S64x128_S128x1_S64x1_1_0_0_1_n_n.contr.Idx) : (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-- The first product into the zero array, at row `g` and column `k`: the sum over the shared axis. -/
theorem mm3a_apply (a : FVec Ideal S64x128 .bf16) (b : FVec Ideal S128x128 .bf16) (g : Fin 64) (k : Fin 128) :
    matmul dot_S64x128_S128x128_S64x128_1_0_0_1_n_n none a b (constant (F := Ideal) S64x128 .f32 0x00000000#32) (ix2 g k) = ∑ j : Fin 128, a (ix2 g j) * b (ix2 j k) := by
  simp only [matmul]
  rw [Ideal.matmul_constant_zero_apply, ← Equiv.sum_comp (contrEquiv1 dot_S64x128_S128x128_S64x128_1_0_0_1_n_n 128 rfl rfl).symm]
  refine Finset.sum_congr rfl fun j _ => ?_
  have hj := contrEquiv1_symm_val dot_S64x128_S128x128_S64x128_1_0_0_1_n_n 128 rfl rfl j
  have el : dot_S64x128_S128x128_S64x128_1_0_0_1_n_n.lhsIdx (ix2 g k) ((contrEquiv1 dot_S64x128_S128x128_S64x128_1_0_0_1_n_n 128 rfl rfl).symm j) = ix2 g j := funext fun x => Fin.ext (by
    match x with
    | ⟨0, _⟩ => exact lhs3a_0 _ _
    | ⟨1, _⟩ => exact (lhs3a_1 _ _).trans hj)
  have er : dot_S64x128_S128x128_S64x128_1_0_0_1_n_n.rhsIdx (ix2 g k) ((contrEquiv1 dot_S64x128_S128x128_S64x128_1_0_0_1_n_n 128 rfl rfl).symm j) = ix2 j k := funext fun x => Fin.ext (by
    match x with
    | ⟨0, _⟩ => exact (rhs3a_0 _ _).trans hj
    | ⟨1, _⟩ => exact rhs3a_1 _ _)
  rw [el, er]

/-- The second product into the zero array, at row `g`: the sum over the shared axis. -/
theorem mm3b_apply (a : FVec Ideal S64x128 .bf16) (b : FVec Ideal S128x1 .bf16) (g : Fin 64) :
    matmul dot_S64x128_S128x1_S64x1_1_0_0_1_n_n none a b (constant (F := Ideal) S64x1 .f32 0x00000000#32) (ix2 g 0) = ∑ k : Fin 128, a (ix2 g k) * b (ix2 k 0) := by
  simp only [matmul]
  rw [Ideal.matmul_constant_zero_apply, ← Equiv.sum_comp (contrEquiv1 dot_S64x128_S128x1_S64x1_1_0_0_1_n_n 128 rfl rfl).symm]
  refine Finset.sum_congr rfl fun k _ => ?_
  have hk := contrEquiv1_symm_val dot_S64x128_S128x1_S64x1_1_0_0_1_n_n 128 rfl rfl k
  have el : dot_S64x128_S128x1_S64x1_1_0_0_1_n_n.lhsIdx (ix2 g 0) ((contrEquiv1 dot_S64x128_S128x1_S64x1_1_0_0_1_n_n 128 rfl rfl).symm k) = ix2 g k := funext fun x => Fin.ext (by
    match x with
    | ⟨0, _⟩ => exact lhs3b_0 _ _
    | ⟨1, _⟩ => exact (lhs3b_1 _ _).trans hk)
  have er : dot_S64x128_S128x1_S64x1_1_0_0_1_n_n.rhsIdx (ix2 g 0) ((contrEquiv1 dot_S64x128_S128x1_S64x1_1_0_0_1_n_n 128 rfl rfl).symm k) = ix2 k 0 := funext fun x => Fin.ext (by
    match x with
    | ⟨0, _⟩ => exact (rhs3b_0 _ _).trans hk
    | ⟨1, _⟩ => exact rhs3b_1 _ _)
  rw [el, er]

/-- The body's result on whole arrays, at row `g` of its one column. -/
theorem out3_5_apply (x0 : S64x128.Idx → EReal) (x1 : S128x128.Idx → EReal) (x2 : S1x128.Idx → EReal) (x3 : S128x1.Idx → EReal) (x4 : S1x1.Idx → EReal) (g : Fin 64) :
    out3_5 (F := Ideal) x0 x1 x2 x3 x4 (ix2 g 0)
      = Ideal.logistic ((∑ k : Fin 128, max ((∑ j : Fin 128, x0 (ix2 g j) * x1 (ix2 j k)) + x2 (ix2 0 k)) 0 * x3 (ix2 k 0)) + x4 (ix2 0 0)) := by
  unfold out3_5
  rw [View.canon_unit_zero hz3]
  simp only [View.ld_unit_zero (S := S64x128) hz3, View.ld_unit_zero (S := S128x128) hz3, View.ld_unit_zero (S := S1x128) hz3, View.ld_unit_zero (S := S128x1) hz3, View.ld_unit_zero (S := S1x1) hz3]
  unfold k3_pay1
  simp only [shapeCast_self]
  show Ideal.logistic (matmul dot_S64x128_S128x1_S64x1_1_0_0_1_n_n none _ _ (constant (F := Ideal) S64x1 .f32 0x00000000#32) (ix2 g 0) + broadcastTo S64x1 x4 broadcasts_S1x1_S64x1 (ix2 g 0)) = _
  rw [mm3b_apply, broadcastTo_1b_ab_apply]
  refine congrArg Ideal.logistic (congrArg (· + x4 (ix2 0 0)) (Finset.sum_congr rfl fun k _ => ?_))
  show max (matmul dot_S64x128_S128x128_S64x128_1_0_0_1_n_n none _ _ (constant (F := Ideal) S64x128 .f32 0x00000000#32) (ix2 g k) + broadcastTo S64x128 x2 broadcasts_S1x128_S64x128 (ix2 g k)) (Ideal.ofBits .f32 0x00000000#32) * x3 (ix2 k 0) = _
  rw [mm3a_apply, broadcastTo_1b_ab_apply, Ideal.ofBits_zero_f32]
  rfl

/-- The output array after the region, at row `g`: the logistic function of the second layer's sum over the clipped first layer. -/
theorem final3 (c : Dev nD) (g : Fin 64) :
    fin3 V c (ix2 g 0)
      = Ideal.logistic ((∑ k : Fin 128, max ((∑ j : Fin 128, pool3 V c (ix2 g j) * wh1 V c (ix2 j k)) + bh1 V c (ix2 0 k)) 0 * wh2 V c (ix2 k 0))
          + bh2 V c (ix2 0 0)) :=
  (congrFun (fin3_eq V c) (ix2 g 0)).trans (out3_5_apply (pool3 V c) (wh1 V c) (bh1 V c) (wh2 V c) (bh2 V c) g)

end Cert.KernelIdeal.Val

end
-- ==== Proof.KI.BridgePool.lean ====
/-
  Pooling and the read-out head, kernel against reference: the kernel sums each graph's rows tile by tile through a
  0/1 membership matrix, the reference adds every row into its graph's slot; both then divide by the clipped node
  counts and apply the same two dense layers and the logistic function.
-/
import proofs.«425745_j71571335021250_2_alg».proof.Proof.KI.HostVal
import proofs.«425745_j71571335021250_2_alg».proof.Proof.KI.Val2
import proofs.«425745_j71571335021250_2_alg».proof.Proof.KI.Val3
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Bridge

open Cert.KernelIdeal Cert.KernelIdeal.Gen Cert.KernelIdeal.Reg Cert.KernelIdeal.HostVal
open Idealize.ShloMosaic Idealize.ShloMosaic.TcCoe Idealize.SL.Sem Idealize.ShloMosaic.ValueIdx

variable (m : (ℓ : Loc nD τ sig) → Buf (Elt Ideal) ℓ) (c : Dev nD)

/-- The arrays the pooling kernel reads, at their literal types. -/
abbrev pagg : S50000x128.Idx → EReal := W7 m c main_v42
abbrev pdcol : S50000x1.Idx → EReal := W7 m c main_v17
abbrev pbrow : S1x128.Idx → EReal := W7 m c main_v43
/-- The program's result array and the reference's stage function of the arguments. -/
abbrev kout : S64.Idx → EReal := W11 m c main_v58

namespace Pool

/-- The pooling kernel's output, the head kernel's first operand and the head kernel's output, at their literal types. -/
abbrev psum : S64x128.Idx → EReal := W8 m c main_v45
abbrev pmean : S64x128.Idx → EReal := W9 m c main_v54
abbrev hout : S64x1.Idx → EReal := W10 m c main_v57

/-- The reference's pooling scatter: rows of a [50000,128] array added into the 64 graph slots. -/
abbrev SD : ScatterDims Cert.ReferenceIdeal.S64x128 Cert.ReferenceIdeal.S50000x1 Cert.ReferenceIdeal.S50000x128 :=
  Cert.ReferenceIdeal.scatter_S64x128_S50000x1_S50000x128_1_0_0_1

theorem sd_siIdx (p : Fin 50000) (q : Fin 128) (cc : Fin SD.scatterDimsToOperandDims.length) :
    SD.siIdx (ix2 p q) cc = ix2 p 0 := by
  funext b
  match b with
  | ⟨0, _⟩ => rfl
  | ⟨1, _⟩ => exact Fin.ext (by have := cc.isLt; show cc.val = 0; simp [SD, Cert.ReferenceIdeal.scatter_S64x128_S50000x1_S50000x128_1_0_0_1] at this; omega)

theorem sd_start0 (idx : Cert.ReferenceIdeal.S50000x1.Idx → BitVec 32) (p : Fin 50000) (q : Fin 128) :
    SD.start (ix2 p q) idx 0 = (idx (ix2 p 0)).toInt := by
  unfold ScatterDims.start
  rw [dif_pos (show (0 : Fin Cert.ReferenceIdeal.S64x128.rank) ∈ SD.scatterDimsToOperandDims by decide), sd_siIdx]

theorem sd_start1 (idx : Cert.ReferenceIdeal.S50000x1.Idx → BitVec 32) (p : Fin 50000) (q : Fin 128) :
    SD.start (ix2 p q) idx 1 = 0 := by
  unfold ScatterDims.start
  rw [dif_neg (show ¬ (1 : Fin Cert.ReferenceIdeal.S64x128.rank) ∈ SD.scatterDimsToOperandDims by decide)]

theorem sd_window0 (p : Fin 50000) (q : Fin 128) : SD.window (ix2 p q) 0 = 0 := by
  unfold ScatterDims.window
  rw [dif_neg (show ¬ (0 : Fin Cert.ReferenceIdeal.S64x128.rank) ∈ SD.sKept by decide)]

theorem sd_window1 (p : Fin 50000) (q : Fin 128) : SD.window (ix2 p q) 1 = q.val := by
  unfold ScatterDims.window
  rw [dif_pos (show (1 : Fin Cert.ReferenceIdeal.S64x128.rank) ∈ SD.sKept by decide)]
  rfl

theorem sd_resultIdx_iff (idx : Cert.ReferenceIdeal.S50000x1.Idx → BitVec 32) (p : Fin 50000) (q : Fin 128) (g : Fin 64) (q' : Fin 128) :
    SD.resultIdx? (ix2 p q) idx = some (ix2 g q') ↔ (idx (ix2 p 0)).toInt = (g.val : Int) ∧ q = q' := by
  unfold ScatterDims.resultIdx?
  split
  next h =>
    rw [Option.some.injEq]
    constructor
    · intro e
      have e0 := congrArg (fun f => (f 0).val) e
      have e1 := congrArg (fun f => (f 1).val) e
      simp only [sd_start0, sd_start1, sd_window0, sd_window1] at e0 e1
      have h0 := (h 0).1
      rw [sd_start0, sd_window0] at h0
      refine ⟨?_, Fin.ext ?_⟩
      · have : (g.val : Int) = ((ix2 g q' : Cert.ReferenceIdeal.S64x128.Idx) 0).val := rfl
        omega
      · have : (q'.val) = ((ix2 g q' : Cert.ReferenceIdeal.S64x128.Idx) 1).val := rfl
        omega
    · rintro ⟨e0, e1⟩
      funext a
      match a with
      | ⟨0, _⟩ => exact Fin.ext (by show (SD.start (ix2 p q) idx 0 + SD.window (ix2 p q) 0).toNat = g.val; rw [sd_start0, sd_window0, e0]; simp)
      | ⟨1, _⟩ => exact Fin.ext (by show (SD.start (ix2 p q) idx 1 + SD.window (ix2 p q) 1).toNat = q'.val; rw [sd_start1, sd_window1, e1]; simp)
  next h =>
    constructor
    · intro e; exact absurd e (by simp)
    · rintro ⟨e0, e1⟩
      exfalso; apply h
      intro a
      match a with
      | ⟨0, _⟩ =>
        show 0 ≤ SD.start (ix2 p q) idx 0 + SD.window (ix2 p q) 0 ∧ SD.start (ix2 p q) idx 0 + SD.window (ix2 p q) 0 < ((64 : ℕ) : Int)
        rw [sd_start0, sd_window0, e0]; have := g.isLt; omega
      | ⟨1, _⟩ =>
        show 0 ≤ SD.start (ix2 p q) idx 1 + SD.window (ix2 p q) 1 ∧ SD.start (ix2 p q) idx 1 + SD.window (ix2 p q) 1 < ((128 : ℕ) : Int)
        rw [sd_start1, sd_window1]; have := q.isLt; omega

theorem word_eq_iff_toInt (w : BitVec 32) (g : Fin 64) : w.toInt = (g.val : Int) ↔ w = BitVec.ofNat 32 g.val := by
  have hg : (BitVec.ofNat 32 g.val).toInt = (g.val : Int) := StableHlo.Predicate.toInt_ofNat_small g.val (by have := g.isLt; omega)
  constructor
  · intro h; exact BitVec.eq_of_toInt_eq (h.trans hg.symm)
  · intro h; rw [h]; exact hg

/-- The accumulating scatter along the rows: slot (g, q) receives the rows whose word is g. -/
theorem scatterAdd_pool (x : Cert.ReferenceIdeal.S64x128.Idx → EReal) (idx : Cert.ReferenceIdeal.S50000x1.Idx → BitVec 32)
    (upd : Cert.ReferenceIdeal.S50000x128.Idx → EReal) (g : Fin 64) (q : Fin 128) :
    Ideal.hostScatterAdd SD x idx upd (ix2 g q)
      = x (ix2 g q) + ∑ p : Fin 50000, (if idx (ix2 p 0) = BitVec.ofNat 32 g.val then (1 : EReal) else 0) * upd (ix2 p q) := by
  unfold Ideal.hostScatterAdd
  refine congrArg (x (ix2 g q) + ·) ?_
  rw [Finset.sum_filter, sum_idx2]
  refine Finset.sum_congr rfl fun p _ => ?_
  by_cases hb : idx (ix2 p 0) = BitVec.ofNat 32 g.val
  · rw [if_pos hb, one_mul]
    have hA := (word_eq_iff_toInt _ g).2 hb
    rw [Finset.sum_eq_single q]
    · exact if_pos ((sd_resultIdx_iff idx p q g q).2 ⟨hA, rfl⟩)
    · intro q' _ hne
      exact if_neg fun h => hne ((sd_resultIdx_iff idx p q' g q).1 h).2
    · intro h; exact absurd (Finset.mem_univ q) h
  · rw [if_neg hb, zero_mul]
    refine Finset.sum_eq_zero fun q' _ => if_neg fun h => hb ?_
    exact (word_eq_iff_toInt _ g).1 ((sd_resultIdx_iff idx p q' g q).1 h).1

/-- The graph ids as the pooling kernel reads them, a column, are the argument's words. -/
theorem batch_col (p : Fin 50000) :
    (W7 m c main_v44 : S50000x1.Idx → BitVec 32) (ix2 p 0) = a2 m c (ix1 p) := by
  rw [W7_batch]
  exact shapeCast_apply (a2 m c) shapeCasts_S50000_S50000x1 (ix2 p 0) (ix1 p)
    (by rewrite [Shape.rowMajor_val_one, Shape.rowMajor_val_two]; show p.val = p.val * 1 + 0; omega)

/-- The pooling kernel's output array is the third region's array 4. -/
theorem W8_pool : psum m c = Val.fin2 (E2 m) c := W8_arr m c 4

/-- The head kernel's output array is the fourth region's array 5. -/
theorem W10_head : hout m c = Val.fin3 (E3 m) c := W10_arr m c 5

open Cert.ReferenceIdeal.Read in
/-- The reference's graph ids as a column. -/
theorem ref_batch_col (p : Fin 50000) :
    val_main_v94 (F := Ideal) (a2 m c) (ix2 p 0) = a2 m c (ix1 p) := by
  rw [val_main_v94_apply]
  exact congrArg (a2 m c) (funext fun a => by match a with | ⟨0, _⟩ => rfl)

open Cert.ReferenceIdeal.Read in
/-- The reference's pooled sums at an entry. -/
theorem ref_pool_at (g : Fin 64) (q : Fin 128) :
    val_main_v95 (F := Ideal) (a0 m c) (a1 m c) (a2 m c) (a3 m c) (a4 m c) (a5 m c) (a6 m c) (ix2 g q)
      = ∑ p : Fin 50000, (if a2 m c (ix1 p) = BitVec.ofNat 32 g.val then (1 : EReal) else 0)
          * val_main_v92 (F := Ideal) (a0 m c) (a1 m c) (a3 m c) (a4 m c) (a5 m c) (a6 m c) (ix2 p q) := by
  unfold val_main_v95
  generalize val_main_v92 (F := Ideal) (a0 m c) (a1 m c) (a3 m c) (a4 m c) (a5 m c) (a6 m c) = y
  show Ideal.hostScatterAdd SD _ _ _ _ = _
  rw [scatterAdd_pool, val_main_v93_apply, val_main_cst_22_apply]
  show Ideal.ofBits .f32 0x00000000#32 + _ = _
  rw [Ideal.ofBits_zero_f32, zero_add]
  refine Finset.sum_congr rfl fun p _ => ?_
  rw [ref_batch_col]

/-- The pooling kernel's sums at an entry. -/
theorem ker_pool_at (g : Fin 64) (q : Fin 128) :
    psum m c (ix2 g q)
      = ∑ p : Fin 50000, (if a2 m c (ix1 p) = BitVec.ofNat 32 g.val then (1 : EReal) else 0)
          * max (pagg m c (ix2 p q) * pdcol m c (ix2 p 0) + pbrow m c (ix2 0 q)) 0 := by
  rw [W8_pool]
  refine (Val.final2 (E2 m) c g q).trans ?_
  refine Finset.sum_congr rfl fun p _ => ?_
  rw [← batch_col m c p]

open Cert.ReferenceIdeal.Read in
/-- Pooled sums: the pooling kernel's array is the reference's scatter of its second hidden layer. -/
theorem pooled_sum_eq
    (hh2 : ∀ (p : Fin 50000) (q : Fin 128),
      max (pagg m c (ix2 p q) * pdcol m c (ix2 p 0) + pbrow m c (ix2 0 q)) 0
        = val_main_v92 (F := Ideal) (a0 m c) (a1 m c) (a3 m c) (a4 m c) (a5 m c) (a6 m c) (ix2 p q)) :
    psum m c = val_main_v95 (F := Ideal) (a0 m c) (a1 m c) (a2 m c) (a3 m c) (a4 m c) (a5 m c) (a6 m c) := by
  have key : ∀ (g : Fin 64) (q : Fin 128), psum m c (ix2 g q)
      = val_main_v95 (F := Ideal) (a0 m c) (a1 m c) (a2 m c) (a3 m c) (a4 m c) (a5 m c) (a6 m c) (ix2 g q) := fun g q =>
    (ker_pool_at m c g q).trans ((Finset.sum_congr rfl fun p _ => by rw [hh2]).trans (ref_pool_at m c g q).symm)
  funext i
  have hi : i = ix2 (n0 := 64) (n1 := 128) (i 0) (i 1) := eq_ix2 i
  rw [hi]
  exact key _ _

open Cert.ReferenceIdeal.Read in
/-- Pooled means: the head kernel's first operand is the reference's. -/
theorem pooled_mean_eq
    (hh2 : ∀ (p : Fin 50000) (q : Fin 128),
      max (pagg m c (ix2 p q) * pdcol m c (ix2 p 0) + pbrow m c (ix2 0 q)) 0
        = val_main_v92 (F := Ideal) (a0 m c) (a1 m c) (a3 m c) (a4 m c) (a5 m c) (a6 m c) (ix2 p q)) :
    pmean m c = val_main_v104 (F := Ideal) (a0 m c) (a1 m c) (a2 m c) (a3 m c) (a4 m c) (a5 m c) (a6 m c) := by
  have h : pmean m c = Host.divf (F := Ideal) (s := S64x128) (φ := .f32) (psum m c) (val_main_v103 (F := Ideal) (a2 m c)) := W9_pooled m c
  rw [h, pooled_sum_eq m c hh2]
  rfl

/-- The f32 pattern of one is the extended real one. -/
theorem ofBits_one_f32 : Ideal.ofBits .f32 0x3F800000#32 = 1 := by
  simp [Ideal.ofBits, Ideal.ieee, -EReal.coe_mul]; norm_num

open Cert.ReferenceIdeal.Read in
/-- The reference's hidden layer of the head at an entry. -/
theorem ref_hidden_at (g : Fin 64) (k : Fin 128) :
    val_main_v109 (F := Ideal) (a0 m c) (a1 m c) (a2 m c) (a3 m c) (a4 m c) (a5 m c) (a6 m c) (a7 m c) (a8 m c) (ix2 g k)
      = max ((∑ j : Fin 128, val_main_v104 (F := Ideal) (a0 m c) (a1 m c) (a2 m c) (a3 m c) (a4 m c) (a5 m c) (a6 m c) (ix2 g j)
                * a7 m c (ix2 j k)) + a8 m c (ix1 k)) 0 := by
  have hl : ∀ j : Fin 128, lidx_main_v105 (ix2 g k) j = ix2 g j := fun j => funext fun a => by
    match a with
    | ⟨0, _⟩ => rfl
    | ⟨1, _⟩ => rfl
  have hr : ∀ j : Fin 128, ridx_main_v105 (ix2 g k) j = ix2 j k := fun j => funext fun a => by
    match a with
    | ⟨0, _⟩ => rfl
    | ⟨1, _⟩ => rfl
  have hb : idx_main_v106 (idx_main_v107 (ix2 g k)) = ix1 k := funext fun a => by
    match a with
    | ⟨0, _⟩ => rfl
  rw [val_main_v109_apply, val_main_v108_apply, val_main_v105_apply, val_main_call4_v0_apply, val_main_call4_cst_apply,
    val_main_v107_apply, val_main_v106_apply, hb]
  simp only [hl, hr]
  show max (_ + _) (Ideal.ofBits .f32 0x00000000#32) = _
  rw [Ideal.ofBits_zero_f32]

open Cert.ReferenceIdeal.Read in
/-- The reference's logit at a graph. -/
theorem ref_logit_at (g : Fin 64) :
    val_main_v113 (F := Ideal) (a0 m c) (a1 m c) (a2 m c) (a3 m c) (a4 m c) (a5 m c) (a6 m c) (a7 m c) (a8 m c) (a9 m c) (a10 m c) (ix2 g 0)
      = (∑ k : Fin 128, val_main_v109 (F := Ideal) (a0 m c) (a1 m c) (a2 m c) (a3 m c) (a4 m c) (a5 m c) (a6 m c) (a7 m c) (a8 m c) (ix2 g k)
            * a9 m c (ix2 k 0)) + a10 m c (ix1 0) := by
  have hl : ∀ k : Fin 128, lidx_main_v110 (ix2 g 0) k = ix2 g k := fun k => funext fun a => by
    match a with
    | ⟨0, _⟩ => rfl
    | ⟨1, _⟩ => rfl
  have hr : ∀ k : Fin 128, ridx_main_v110 (ix2 g 0) k = ix2 k 0 := fun k => funext fun a => by
    match a with
    | ⟨0, _⟩ => rfl
    | ⟨1, _⟩ => rfl
  have hb : idx_main_v111 (idx_main_v112 (ix2 g 0)) = ix1 0 := funext fun a => by
    match a with
    | ⟨0, _⟩ => rfl
  rw [val_main_v113_apply, val_main_v110_apply, val_main_v112_apply, val_main_v111_apply, hb]
  simp only [hl, hr]
  rfl

open Cert.ReferenceIdeal.Read in
/-- The reference's result at a graph: the logistic function of the logit. -/
theorem ref_out_at (g : Fin 64) :
    val_main_v120 (F := Ideal) (a0 m c) (a1 m c) (a2 m c) (a3 m c) (a4 m c) (a5 m c) (a6 m c) (a7 m c) (a8 m c) (a9 m c) (a10 m c) (ix1 g)
      = Ideal.logistic (val_main_v113 (F := Ideal) (a0 m c) (a1 m c) (a2 m c) (a3 m c) (a4 m c) (a5 m c) (a6 m c) (a7 m c) (a8 m c) (a9 m c) (a10 m c) (ix2 g 0)) := by
  have hi : idx_main_v120 (ix1 g) = ix2 g 0 := funext fun a => by
    match a with
    | ⟨0, _⟩ => exact Fin.ext (Nat.div_one _)
    | ⟨1, _⟩ => rfl
  rw [val_main_v120_apply, hi, val_main_v119_apply, val_main_v118_apply, val_main_cst_27_apply, val_main_v117_apply,
    val_main_v116_apply, val_main_cst_26_apply, val_main_v115_apply, val_main_v114_apply]
  rw [Ideal.ofBits_def, ofBits_one_f32]
  generalize val_main_v113 (F := Ideal) (a0 m c) (a1 m c) (a2 m c) (a3 m c) (a4 m c) (a5 m c) (a6 m c) (a7 m c) (a8 m c) (a9 m c) (a10 m c) (ix2 g 0) = x
  rfl

/-- The program's result at a graph is the head kernel's output there. -/
theorem kout_at (g : Fin 64) : kout m c (ix1 g) = hout m c (ix2 g 0) := by
  have h : kout m c = shapeCast _ (hout m c) shapeCasts_S64x1_S64 := W11_out m c
  rw [h]
  exact shapeCast_apply (hout m c) shapeCasts_S64x1_S64 (ix1 g) (ix2 g 0)
    (by rewrite [Shape.rowMajor_val_two, Shape.rowMajor_val_one]; show g.val * 1 + 0 = g.val; omega)

/-- The head kernel's output at a graph, over the program's arguments and the pooled means. -/
theorem ker_out_at (g : Fin 64) :
    kout m c (ix1 g)
      = Ideal.logistic ((∑ k : Fin 128, max ((∑ j : Fin 128, pmean m c (ix2 g j) * a7 m c (ix2 j k)) + a8 m c (ix1 k)) 0
            * a9 m c (ix2 k 0)) + a10 m c (ix1 0)) := by
  have h7 : Val.wh1 (E3 m) c = a7 m c := W9_arg7 m c
  have h9 : Val.wh2 (E3 m) c = a9 m c := W9_arg9 m c
  have hb1 : ∀ k : Fin 128, Val.bh1 (E3 m) c (ix2 0 k) = a8 m c (ix1 k) := fun k => by
    have h : Val.bh1 (E3 m) c = shapeCast _ (a8 m c) shapeCasts_S128_S1x128 := W9_bias m c
    rw [h]
    exact shapeCast_apply (a8 m c) shapeCasts_S128_S1x128 (ix2 0 k) (ix1 k)
      (by rewrite [Shape.rowMajor_val_one, Shape.rowMajor_val_two]; show k.val = 0 * 128 + k.val; omega)
  have hb2 : Val.bh2 (E3 m) c (ix2 0 0) = a10 m c (ix1 0) := by
    have h : Val.bh2 (E3 m) c = shapeCast _ (a10 m c) shapeCasts_S1_S1x1 := W9_c m c
    rw [h]
    exact shapeCast_apply (a10 m c) shapeCasts_S1_S1x1 (ix2 0 0) (ix1 0)
      (by rewrite [Shape.rowMajor_val_one, Shape.rowMajor_val_two]; show 0 = 0 * 1 + 0; omega)
  rw [kout_at, W10_head]
  refine (Val.final3 (E3 m) c g).trans ?_
  rw [h7, h9, hb2]
  simp only [hb1]

end Pool

open Pool
/-- Given that the rows the pooling kernel sums are the reference's second hidden layer, the program's result is the reference's. -/
theorem out_eq
    (hh2 : ∀ (p : Fin 50000) (q : Fin 128),
      max (pagg m c (ix2 p q) * pdcol m c (ix2 p 0) + pbrow m c (ix2 0 q)) 0
        = Cert.ReferenceIdeal.Read.val_main_v92 (F := Ideal) (a0 m c) (a1 m c) (a3 m c) (a4 m c) (a5 m c) (a6 m c) (ix2 p q)) :
    kout m c
      = Cert.ReferenceIdeal.Read.val_main_v120 (F := Ideal) (a0 m c) (a1 m c) (a2 m c) (a3 m c) (a4 m c) (a5 m c) (a6 m c) (a7 m c) (a8 m c) (a9 m c) (a10 m c) := by
  have key : ∀ g : Fin 64, kout m c (ix1 g)
      = Cert.ReferenceIdeal.Read.val_main_v120 (F := Ideal) (a0 m c) (a1 m c) (a2 m c) (a3 m c) (a4 m c) (a5 m c) (a6 m c) (a7 m c) (a8 m c) (a9 m c) (a10 m c) (ix1 g) := fun g => by
    rw [ker_out_at, ref_out_at, ref_logit_at, pooled_mean_eq m c hh2]
    simp only [ref_hidden_at]
  funext i
  have hi : i = ix1 (n := 64) (i 0) := eq_ix1 i
  rw [hi]
  exact key _

end Cert.KernelIdeal.Bridge

end
-- ==== Proof.KI.Finite.lean ====
/-
  From the precondition — every floating-point input finite — to: every entry of every floating-point input is a real number.

  The precondition is a conjunction, over the floating-point arguments, of "all entries x satisfy |x| < +∞", each
  conjunct a reduction by `and` of an elementwise comparison against the constant whose pattern denotes +∞. On the
  extended reals |x| = max x (-x), and max x (-x) < ⊤ excludes x = ⊤ and x = ⊥, so x is a real number.
-/
import proofs.«425745_j71571335021250_2_alg».proof.Defs
import proofs.«425745_j71571335021250_2_alg».proof.Proof.Gen.Pre_finite_inputs
import Idealize.ShloMosaic.Lib.ReduceAll
import Idealize.ShloMosaic.Lib.ValueIdx

noncomputable section

namespace Cert.KernelIdeal.Finite

open Cert.KernelIdeal
open Idealize.ShloMosaic Idealize.ShloMosaic.TcCoe Idealize.SL.Sem

/-- The rank-0 shape has exactly one index. -/
local instance subsingleton_scalar_idx : Subsingleton Cert.Pre_finite_inputs.S_.Idx :=
  ⟨fun a b => funext fun d => d.elim0⟩

/-- The f32 pattern 0x7F800000 denotes +∞. -/
theorem top_f32 : Ideal.ofBits .f32 0x7F800000#32 = (⊤ : EReal) := by simp [Ideal.ofBits, Ideal.ieee]

/-- On the extended reals, |x| = max x (-x) strictly below +∞ says x is a real number: at x = ⊤ and at x = ⊥ the maximum is ⊤. -/
theorem real_of_abs_lt (x : EReal) (h : Ideal.cmp .olt (max x (-x)) (Ideal.ofBits .f32 0x7F800000#32) = 1#1) :
    ∃ r : ℝ, x = (r : EReal) := by
  rw [top_f32] at h
  unfold Ideal.cmp at h
  induction x using EReal.rec with
  | bot => simp at h
  | coe r => exact ⟨r, rfl⟩
  | top => simp at h

/-- One conjunct of the precondition, read back: if the conjunction over all indices of |x i| < +∞ is 1, every entry of x is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x)
          (broadcastInDim s ![] hb (constant (F := Ideal) Cert.Pre_finite_inputs.S_ .f32 0x7F800000#32))) init hr hu ValueIdx.ix0 = 1#1)
    (i : s.Idx) : ∃ r : ℝ, (x : s.Idx → EReal) i = (r : EReal) := by
  -- every entry of the compared array is 1; at index i that entry is the comparison max (x i) (-(x i)) < +∞
  have h1 := Host.reduce_andi_all _ init hr hu ValueIdx.ix0 e i
  exact real_of_abs_lt (x i) h1

/-- A conjunction of two rank-0 truth values is 1 exactly when both are. -/
theorem andi_ix0 (a b : IVec Cert.Pre_finite_inputs.S_ 1) :
    andi a b ValueIdx.ix0 = 1#1 ↔ a ValueIdx.ix0 = 1#1 ∧ b ValueIdx.ix0 = 1#1 := IntOp.andi_eq_one

/-- Under the precondition each floating-point argument array of core `c` holds real numbers only. -/
theorem real_of_pre (m : (ℓ : Loc nD τ sig) → Buf (Elt Ideal) ℓ)
    (h : Cert.Pre_KernelIdeal (hPre_finite_inputs := Cert.Pre_finite_inputs.Gen.facts) m) (c : Dev nD) :
    (∀ i, ∃ r : ℝ, (m ((c.tc : Thread nD τ).loc main_arg0) : S50000x128.Idx → EReal) i = (r : EReal))
    ∧ (∀ i, ∃ r : ℝ, (m ((c.tc : Thread nD τ).loc main_arg3) : S128x128.Idx → EReal) i = (r : EReal))
    ∧ (∀ i, ∃ r : ℝ, (m ((c.tc : Thread nD τ).loc main_arg4) : S128.Idx → EReal) i = (r : EReal))
    ∧ (∀ i, ∃ r : ℝ, (m ((c.tc : Thread nD τ).loc main_arg5) : S128x128.Idx → EReal) i = (r : EReal)) := by
  -- the predicate at its one index: a left-nested conjunction of nine "all entries finite" conjuncts, one per floating-point argument (0 and 3 to 10)
  have e := congrFun (h c) ValueIdx.ix0
  dsimp only [Cert.Pre_finite_inputs.fn, Cert.Pre_finite_inputs.fn_part1, Cert.Pre_finite_inputs.fn_part2] at e
  simp only [andi_ix0] at e
  -- the first four conjuncts speak of arguments 0, 3, 4 and 5
  obtain ⟨⟨⟨⟨⟨⟨⟨⟨h0, h3⟩, h4⟩, h5⟩, -⟩, -⟩, -⟩, -⟩, -⟩ := e
  exact ⟨all_real _ _ _ _ _ h0, all_real _ _ _ _ _ h3, all_real _ _ _ _ _ h4, all_real _ _ _ _ _ h5⟩

end Cert.KernelIdeal.Finite

end
-- ==== Proof.lean ====
/-
  The certificate's claims assembled. The three frames: the kernel program's, at the word-level and at the ideal
  instance, is its run through the four kernel regions with every argument array read back at the end; the
  reference's is its run with the result dropped. The ideal pass rewrote nothing, so there is nothing to preserve.
  The value claim: at the ideal instance both programs end; the kernel program's result array is what the fold of
  its host stretches and kernel regions leaves, the reference's its composed stage function of the arguments, and
  on finite inputs the two are one function: the kernel applies each node's degree factor once before the edges
  gather and once after they sum, the reference applies the product of the two factors on every edge, which agree
  because a finite sum of reals times a real is the sum of the products; pooling by a 0/1 membership matrix, tile by
  tile, is the sum of each graph's rows; the read-out head is the same two dense layers and logistic function.
-/
import proofs.«425745_j71571335021250_2_alg».proof.Defs
import proofs.«425745_j71571335021250_2_alg».proof.Proof.Gen.Kernel
import proofs.«425745_j71571335021250_2_alg».proof.Proof.Gen.KernelIdeal
import proofs.«425745_j71571335021250_2_alg».proof.Proof.Gen.ReferenceIdeal
import proofs.«425745_j71571335021250_2_alg».proof.Proof.Gen.Pre_finite_inputs
import proofs.«425745_j71571335021250_2_alg».proof.Proof.K.Run
import proofs.«425745_j71571335021250_2_alg».proof.Proof.KI.Run
import proofs.«425745_j71571335021250_2_alg».proof.Proof.KI.BridgeGcn
import proofs.«425745_j71571335021250_2_alg».proof.Proof.KI.BridgePool
import proofs.«425745_j71571335021250_2_alg».proof.Proof.KI.Finite
import proofs.«425745_j71571335021250_2_alg».proof.Proof.RefRun
import proofs.«425745_j71571335021250_2_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m g _ => Cert.Kernel.Reg.frame (F := Bits) m g

theorem frame_ki : Cert.frame_KernelIdeal (hKernelIdeal := Cert.KernelIdeal.Gen.facts) (hPre_finite_inputs := Cert.Pre_finite_inputs.Gen.facts) :=
  fun m g _ => Cert.KernelIdeal.Reg.frame (F := Ideal) m g

theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

open Cert.KernelIdeal Cert.KernelIdeal.Reg in
/-- Both programs end, with equal results: the kernel program's result array after its run is the reference's stage
    function of the arguments, which agree between the two memories. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => W11 m c main_v58, ?_, ?_⟩
  · exact (θ_run _ _ _).mono (fun r h c => ⟨h c _ (mem_uc main_v58 (by decide)),
      (h c _ (mem_uc main_arg0 (by decide))).trans (W11_main_arg0 m c),
      (h c _ (mem_uc main_arg1 (by decide))).trans (W11_main_arg1 m c),
      (h c _ (mem_uc main_arg2 (by decide))).trans (W11_main_arg2 m c),
      (h c _ (mem_uc main_arg3 (by decide))).trans (W11_main_arg3 m c),
      (h c _ (mem_uc main_arg4 (by decide))).trans (W11_main_arg4 m c),
      (h c _ (mem_uc main_arg5 (by decide))).trans (W11_main_arg5 m c),
      (h c _ (mem_uc main_arg6 (by decide))).trans (W11_main_arg6 m c),
      (h c _ (mem_uc main_arg7 (by decide))).trans (W11_main_arg7 m c),
      (h c _ (mem_uc main_arg8 (by decide))).trans (W11_main_arg8 m c),
      (h c _ (mem_uc main_arg9 (by decide))).trans (W11_main_arg9 m c),
      (h c _ (mem_uc main_arg10 (by decide))).trans (W11_main_arg10 m c)⟩)
      (run_all (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v120_eq]
    obtain ⟨h0, h1, h2, h3, h4, h5, h6, h7, h8, h9, h10⟩ := hagree c
    rw [h0, h1, h2, h3, h4, h5, h6, h7, h8, h9, h10]
    obtain ⟨r0, r3, r4, r5⟩ := Cert.KernelIdeal.Finite.real_of_pre m hpre c
    exact (Cert.KernelIdeal.Bridge.out_eq m c (fun p q => Cert.KernelIdeal.Bridge.h2_eq m c r0 r3 r4 r5 p q)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
